-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S400000 : Shape := ⟨1, ![400000]⟩
abbrev S8192 : Shape := ⟨1, ![8192]⟩
abbrev S1024 : Shape := ⟨1, ![1024]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1000x128 : Shape := ⟨2, ![1000, 128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S1000x128 : S_.BroadcastsInDim S1000x128 (![] : Fin 0 → Fin S1000x128.rank)
  reducesTo_S1000x128_S_d0_1 : S1000x128.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v50 : IVec S1024 1) : IVec S_ 1 :=
  let main_c_19 : IVec S_ 1 := constantI S_ 1 1#1
  let main_v51 : IVec S_ 1 := (fun x v => Host.reduce IntOp.andi x v reducesTo_S1024_S_d0 h_S_) main_v50 main_c_19
  let main_v52 : IVec S_ 1 := andi main_v48 main_v51
  main_v52

def fn_part2 {F : FTy → Type} [FloatOps F] (main_arg4 : IVec S1024 32) (main_arg11 : FVec F S256x128 .f32) (main_arg12 : FVec F S128 .f32) (main_arg13 : FVec F S1000x128 .f32) (main_v33 : IVec S_ 1) : IVec S_ 1 :=
  let main_v34 : FVec F S256x128 .f32 := Host.absf main_arg11
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1000x128 .f32 := Host.absf main_arg13
  let main_cst_16 : FVec F S_ .f32 := constant S_ .f32 0x7F800000#32
  let main_v45 : FVec F S1000x128 .f32 := broadcastInDim S1000x128 ![] bcast_S_S1000x128 main_cst_16
  let main_v46 : IVec S1000x128 1 := cmpf .olt main_v44 main_v45
  let main_c_17 : IVec S_ 1 := constantI S_ 1 1#1
  let main_v47 : IVec S_ 1 := (fun x v => Host.reduce IntOp.andi x v reducesTo_S1000x128_S_d0_1 h_S_) main_v46 main_c_17
  let main_v48 : IVec S_ 1 := andi main_v43 main_v47
  let main_c_18 : IVec S_ 32 := constantI S_ 32 0#32
  let main_v49 : IVec S1024 32 := broadcastInDim S1024 ![] bcast_S_S1024 main_c_18
  let main_v50 : IVec S1024 1 := cmpi .sge main_arg4 main_v49
  fn_part3 (F := F) main_v48 main_v50

def fn_part1 {F : FTy → Type} [FloatOps F] (main_arg4 : IVec S1024 32) (main_arg8 : FVec F S512 .f32) (main_arg9 : FVec F S512x256 .f32) (main_arg10 : FVec F S256 .f32) (main_arg11 : FVec F S256x128 .f32) (main_arg12 : FVec F S128 .f32) (main_arg13 : FVec F S1000x128 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg8
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg9
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg4 main_arg11 main_arg12 main_arg13 main_v33

def fn {F : FTy → Type} [FloatOps F] (main_arg0 : FVec F S50000x512 .f32) (main_arg1 : IVec S400000 32) (main_arg2 : IVec S400000 32) (main_arg3 : IVec S8192 32) (main_arg4 : IVec S1024 32) (main_arg5 : FVec F S512x512 .f32) (main_arg6 : FVec F S512 .f32) (main_arg7 : FVec F S512x512 .f32) (main_arg8 : FVec F S512 .f32) (main_arg9 : FVec F S512x256 .f32) (main_arg10 : FVec F S256 .f32) (main_arg11 : FVec F S256x128 .f32) (main_arg12 : FVec F S128 .f32) (main_arg13 : FVec F S1000x128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg5
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg6
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg7
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg8 main_arg9 main_arg10 main_arg11 main_arg12 main_arg13 main_v13 main_v16
-- ==== Kernel.lean ====
abbrev S50000x512 : Shape := ⟨2, ![50000, 512]⟩
abbrev S400000 : Shape := ⟨1, ![400000]⟩
abbrev S8192 : Shape := ⟨1, ![8192]⟩
abbrev S1024 : Shape := ⟨1, ![1024]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1000x128 : Shape := ⟨2, ![1000, 128]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S400000x512 : Shape := ⟨2, ![400000, 512]⟩
abbrev S1x512 : Shape := ⟨2, ![1, 512]⟩
abbrev S2000x512 : Shape := ⟨2, ![2000, 512]⟩
abbrev S2000x1 : Shape := ⟨2, ![2000, 1]⟩
abbrev S50000x256 : Shape := ⟨2, ![50000, 256]⟩
abbrev S2000x256 : Shape := ⟨2, ![2000, 256]⟩
abbrev S400000x256 : Shape := ⟨2, ![400000, 256]⟩
abbrev S1x256 : Shape := ⟨2, ![1, 256]⟩
abbrev S8192x1 : Shape := ⟨2, ![8192, 1]⟩
abbrev S8192x256 : Shape := ⟨2, ![8192, 256]⟩
abbrev S1x128 : Shape := ⟨2, ![1, 128]⟩
abbrev S8192x128 : Shape := ⟨2, ![8192, 128]⟩
abbrev S2048x256 : Shape := ⟨2, ![2048, 256]⟩
abbrev S2048x128 : Shape := ⟨2, ![2048, 128]⟩
abbrev S1024x1 : Shape := ⟨2, ![1024, 1]⟩
abbrev S1024x128 : Shape := ⟨2, ![1024, 128]⟩
abbrev S1024x1000 : Shape := ⟨2, ![1024, 1000]⟩
abbrev S1024x8192 : Shape := ⟨2, ![1024, 8192]⟩
abbrev S1024x1024 : Shape := ⟨2, ![1024, 1024]⟩

abbrev nBuf : Space → Nat
  | .hbm => 124
  | .vmem => 39
  | .smem => 0
  | _ => 0

abbrev bufTy : (tb : Table) → Fin (tcTables nBuf tb) → BufTy
  | .hbm, ⟨0, _⟩ => ⟨S50000x512, .f32⟩
  | .hbm, ⟨1, _⟩ => ⟨S400000, .i32⟩
  | .hbm, ⟨2, _⟩ => ⟨S400000, .i32⟩
  | .hbm, ⟨3, _⟩ => ⟨S8192, .i32⟩
  | .hbm, ⟨4, _⟩ => ⟨S1024, .i32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S1000x128, .f32⟩
  | .hbm, ⟨14, _⟩ => ⟨S_, .f32⟩
  | .hbm, ⟨15, _⟩ => ⟨S400000, .f32⟩
  | .hbm, ⟨16, _⟩ => ⟨S_, .f32⟩
  | .hbm, ⟨17, _⟩ => ⟨S50000, .f32⟩
  | .hbm, ⟨18, _⟩ => ⟨S400000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S400000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .i1⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000, .f32⟩
  | .hbm, ⟨42, _⟩ => ⟨S_, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x1, .f32⟩
  | .hbm, ⟨48, _⟩ => ⟨S50000x512, .f32⟩
  | .hbm, ⟨49, _⟩ => ⟨S50000x512, .f32⟩
  | .hbm, ⟨50, _⟩ => ⟨S_, .i32⟩
  | .hbm, ⟨51, _⟩ => ⟨S400000, .i32⟩
  | .hbm, ⟨52, _⟩ => ⟨S400000, .i1⟩
  | .hbm, ⟨53, _⟩ => ⟨S_, .i32⟩
  | .hbm, ⟨54, _⟩ => ⟨S400000, .i32⟩
  | .hbm, ⟨55, _⟩ => ⟨S400000, .i32⟩
  | .hbm, ⟨56, _⟩ => ⟨S400000, .i32⟩
  | .hbm, ⟨57, _⟩ => ⟨S400000x1, .i32⟩
  | .hbm, ⟨58, _⟩ => ⟨S400000x512, .f32⟩
  | .hbm, ⟨59, _⟩ => ⟨S_, .f32⟩
  | .hbm, ⟨60, _⟩ => ⟨S50000x512, .f32⟩
  | .hbm, ⟨61, _⟩ => ⟨S400000x1, .i32⟩
  | .hbm, ⟨62, _⟩ => ⟨S50000x512, .f32⟩
  | .hbm, ⟨63, _⟩ => ⟨S1x512, .f32⟩
  | .hbm, ⟨64, _⟩ => ⟨S50000x512, .f32⟩
  | .hbm, ⟨65, _⟩ => ⟨S_, .i32⟩
  | .hbm, ⟨66, _⟩ => ⟨S400000, .i32⟩
  | .hbm, ⟨67, _⟩ => ⟨S400000, .i1⟩
  | .hbm, ⟨68, _⟩ => ⟨S_, .i32⟩
  | .hbm, ⟨69, _⟩ => ⟨S400000, .i32⟩
  | .hbm, ⟨70, _⟩ => ⟨S400000, .i32⟩
  | .hbm, ⟨71, _⟩ => ⟨S400000, .i32⟩
  | .hbm, ⟨72, _⟩ => ⟨S400000x1, .i32⟩
  | .hbm, ⟨73, _⟩ => ⟨S400000x512, .f32⟩
  | .hbm, ⟨74, _⟩ => ⟨S_, .f32⟩
  | .hbm, ⟨75, _⟩ => ⟨S50000x512, .f32⟩
  | .hbm, ⟨76, _⟩ => ⟨S400000x1, .i32⟩
  | .hbm, ⟨77, _⟩ => ⟨S50000x512, .f32⟩
  | .hbm, ⟨78, _⟩ => ⟨S1x512, .f32⟩
  | .hbm, ⟨79, _⟩ => ⟨S50000x512, .f32⟩
  | .hbm, ⟨80, _⟩ => ⟨S50000x256, .f32⟩
  | .hbm, ⟨81, _⟩ => ⟨S_, .i32⟩
  | .hbm, ⟨82, _⟩ => ⟨S400000, .i32⟩
  | .hbm, ⟨83, _⟩ => ⟨S400000, .i1⟩
  | .hbm, ⟨84, _⟩ => ⟨S_, .i32⟩
  | .hbm, ⟨85, _⟩ => ⟨S400000, .i32⟩
  | .hbm, ⟨86, _⟩ => ⟨S400000, .i32⟩
  | .hbm, ⟨87, _⟩ => ⟨S400000, .i32⟩
  | .hbm, ⟨88, _⟩ => ⟨S400000x1, .i32⟩
  | .hbm, ⟨89, _⟩ => ⟨S400000x256, .f32⟩
  | .hbm, ⟨90, _⟩ => ⟨S_, .f32⟩
  | .hbm, ⟨91, _⟩ => ⟨S50000x256, .f32⟩
  | .hbm, ⟨92, _⟩ => ⟨S400000x1, .i32⟩
  | .hbm, ⟨93, _⟩ => ⟨S50000x256, .f32⟩
  | .hbm, ⟨94, _⟩ => ⟨S50000x256, .f32⟩
  | .hbm, ⟨95, _⟩ => ⟨S50000x256, .f32⟩
  | .hbm, ⟨96, _⟩ => ⟨S1x256, .f32⟩
  | .hbm, ⟨97, _⟩ => ⟨S50000x256, .f32⟩
  | .hbm, ⟨98, _⟩ => ⟨S50000x256, .f32⟩
  | .hbm, ⟨99, _⟩ => ⟨S_, .f32⟩
  | .hbm, ⟨100, _⟩ => ⟨S50000x256, .f32⟩
  | .hbm, ⟨101, _⟩ => ⟨S50000x256, .f32⟩
  | .hbm, ⟨102, _⟩ => ⟨S_, .i32⟩
  | .hbm, ⟨103, _⟩ => ⟨S8192, .i32⟩
  | .hbm, ⟨104, _⟩ => ⟨S8192, .i1⟩
  | .hbm, ⟨105, _⟩ => ⟨S_, .i32⟩
  | .hbm, ⟨106, _⟩ => ⟨S8192, .i32⟩
  | .hbm, ⟨107, _⟩ => ⟨S8192, .i32⟩
  | .hbm, ⟨108, _⟩ => ⟨S8192, .i32⟩
  | .hbm, ⟨109, _⟩ => ⟨S8192x1, .i32⟩
  | .hbm, ⟨110, _⟩ => ⟨S8192x256, .f32⟩
  | .hbm, ⟨111, _⟩ => ⟨S1x128, .f32⟩
  | .hbm, ⟨112, _⟩ => ⟨S8192x128, .f32⟩
  | .hbm, ⟨113, _⟩ => ⟨S_, .i32⟩
  | .hbm, ⟨114, _⟩ => ⟨S_, .i32⟩
  | .hbm, ⟨115, _⟩ => ⟨S_, .i32⟩
  | .hbm, ⟨116, _⟩ => ⟨S1024, .i32⟩
  | .hbm, ⟨117, _⟩ => ⟨S1024, .i32⟩
  | .hbm, ⟨118, _⟩ => ⟨S_, .i32⟩
  | .hbm, ⟨119, _⟩ => ⟨S1024, .i32⟩
  | .hbm, ⟨120, _⟩ => ⟨S1024, .i32⟩
  | .hbm, ⟨121, _⟩ => ⟨S1024x1, .i32⟩
  | .hbm, ⟨122, _⟩ => ⟨S1024x128, .f32⟩
  | .hbm, ⟨123, _⟩ => ⟨S1024x8192, .f32⟩
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S512x512, .f32⟩
  | .local _ .vmem, ⟨5, _⟩ => ⟨S1x512, .f32⟩
  | .local _ .vmem, ⟨6, _⟩ => ⟨S2000x1, .f32⟩
  | .local _ .vmem, ⟨7, _⟩ => ⟨S2000x1, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S2000x1, .f32⟩
  | .local _ .vmem, ⟨13, _⟩ => ⟨S2000x1, .f32⟩
  | .local _ .vmem, ⟨14, _⟩ => ⟨S512x512, .f32⟩
  | .local _ .vmem, ⟨15, _⟩ => ⟨S1x512, .f32⟩
  | .local _ .vmem, ⟨16, _⟩ => ⟨S2000x1, .f32⟩
  | .local _ .vmem, ⟨17, _⟩ => ⟨S2000x1, .f32⟩
  | .local _ .vmem, ⟨18, _⟩ => ⟨S2000x512, .f32⟩
  | .local _ .vmem, ⟨19, _⟩ => ⟨S2000x512, .f32⟩
  | .local _ .vmem, ⟨20, _⟩ => ⟨S2000x512, .f32⟩
  | .local _ .vmem, ⟨21, _⟩ => ⟨S2000x512, .f32⟩
  | .local _ .vmem, ⟨22, _⟩ => ⟨S512x256, .f32⟩
  | .local _ .vmem, ⟨23, _⟩ => ⟨S2000x256, .f32⟩
  | .local _ .vmem, ⟨24, _⟩ => ⟨S2000x256, .f32⟩
  | .local _ .vmem, ⟨25, _⟩ => ⟨S2048x256, .f32⟩
  | .local _ .vmem, ⟨26, _⟩ => ⟨S2048x256, .f32⟩
  | .local _ .vmem, ⟨27, _⟩ => ⟨S256x128, .f32⟩
  | .local _ .vmem, ⟨28, _⟩ => ⟨S1x128, .f32⟩
  | .local _ .vmem, ⟨29, _⟩ => ⟨S2048x128, .f32⟩
  | .local _ .vmem, ⟨30, _⟩ => ⟨S2048x128, .f32⟩
  | .local _ .vmem, ⟨31, _⟩ => ⟨S1024x1, .i32⟩
  | .local _ .vmem, ⟨32, _⟩ => ⟨S1000x128, .f32⟩
  | .local _ .vmem, ⟨33, _⟩ => ⟨S1024x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x1024, .f32⟩
  | .local _ .vmem, ⟨38, _⟩ => ⟨S1024x1024, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v12 : Ref sig .tc := ⟨.hbm, 34, rfl⟩
abbrev main_cst_5 : Ref sig .tc := ⟨.hbm, 35, rfl⟩
abbrev main_v13 : Ref sig .tc := ⟨.hbm, 36, rfl⟩
abbrev main_v14 : Ref sig .tc := ⟨.hbm, 37, rfl⟩
abbrev main_cst_6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_7 : Ref sig .tc := ⟨.hbm, 42, rfl⟩
abbrev main_call1_v0 : Ref sig .tc := ⟨.hbm, 43, rfl⟩
abbrev main_call1_v1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c : Ref sig .tc := ⟨.hbm, 50, rfl⟩
abbrev main_v23 : Ref sig .tc := ⟨.hbm, 51, rfl⟩
abbrev main_v24 : Ref sig .tc := ⟨.hbm, 52, rfl⟩
abbrev main_c_8 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_9 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c_10 : Ref sig .tc := ⟨.hbm, 65, rfl⟩
abbrev main_v35 : Ref sig .tc := ⟨.hbm, 66, rfl⟩
abbrev main_v36 : Ref sig .tc := ⟨.hbm, 67, rfl⟩
abbrev main_c_11 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_12 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_13 : Ref sig .tc := ⟨.hbm, 81, rfl⟩
abbrev main_v48 : Ref sig .tc := ⟨.hbm, 82, rfl⟩
abbrev main_v49 : Ref sig .tc := ⟨.hbm, 83, rfl⟩
abbrev main_c_14 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_15 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call2_cst : Ref sig .tc := ⟨.hbm, 99, rfl⟩
abbrev main_call2_v0 : Ref sig .tc := ⟨.hbm, 100, rfl⟩
abbrev main_v63 : Ref sig .tc := ⟨.hbm, 101, rfl⟩
abbrev main_c_16 : Ref sig .tc := ⟨.hbm, 102, rfl⟩
abbrev main_v64 : Ref sig .tc := ⟨.hbm, 103, rfl⟩
abbrev main_v65 : Ref sig .tc := ⟨.hbm, 104, rfl⟩
abbrev main_c_17 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_18 : Ref sig .tc := ⟨.hbm, 113, rfl⟩
abbrev main_c_19 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg1_0 : Ref sig .tc := ⟨.vmem, 32, rfl⟩
abbrev cc4_stg2_0 : Ref sig .tc := ⟨.vmem, 33, rfl⟩
abbrev cc5_stg0_0 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem3_1 : DmaSem sig := 30
abbrev cc4_sem0_0 : DmaSem sig := 31
abbrev cc4_sem1_0 : DmaSem sig := 32
abbrev cc4_sem2_0 : DmaSem sig := 33
abbrev cc5_sem0_0 : DmaSem sig := 34
abbrev cc5_sem1_0 : DmaSem sig := 35
abbrev cc5_sem1_1 : DmaSem sig := 36
abbrev cc5_sem2_0 : DmaSem sig := 37
abbrev cc5_sem2_1 : DmaSem sig := 38

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x1 .i32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1000x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S1024x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S1024x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x512 : S_.BroadcastsInDim S50000x512 (![] : Fin 0 → Fin S50000x512.rank)
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S8192 : S_.BroadcastsInDim S8192 (![] : Fin 0 → Fin S8192.rank)
  bcast_S8192_S8192x1_0 : S8192.BroadcastsInDim S8192x1 (![0] : Fin 1 → Fin S8192x1.rank)
  shapeCasts_S128_S1x128 : S128.ShapeCasts S1x128
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  bcast_S_S1024 : S_.BroadcastsInDim S1024 (![] : Fin 0 → Fin S1024.rank)
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  broadcasts_S1024x1_S1024x1000 : S1024x1.Broadcasts S1024x1000
  natLt_1_32 : 1 < 32
  inb_S1000x128_S1000x128_0_0 : ∀ a, (![0, 0] : Fin 2 → Nat) a + S1000x128.size a ≤ S1000x128.size a
  h_S1000x128 : 0 < S1000x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1024_S1024x1024_0_0 : ∀ a, (![0, 0] : Fin 2 → Nat) a + S1024x1024.size a ≤ S1024x1024.size a
  h_S1024x1024 : 0 < S1024x1024.numel
  scatter_S50000_S400000x1_S400000_n_0_0_1_wf : ScatterDims.WF S50000 S400000x1 S400000 [] [0] [0] 1
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S2000x512_S512x512_S2000x512_1_0_0_1_n_n_wf : DotDims.WF S2000x512 S512x512 S2000x512 [1] [0] [0] [1] [] []
  dot_S2000x512_S512x256_S2000x256_1_0_0_1_n_n_wf : DotDims.WF S2000x512 S512x256 S2000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  gather_S50000x256_S8192x1_S8192x256_1_0_n_n_0_1_1256_wf : GatherDims.WF S50000x256 S8192x1 S8192x256 [1] [0] [] [0] [] 1 ![1, 256]
  dot_S2048x256_S256x128_S2048x128_1_0_0_1_n_n_wf : DotDims.WF S2048x256 S256x128 S2048x128 [1] [0] [0] [1] [] []
  dot_S1024x1000_S1000x128_S1024x128_1_0_0_1_n_n_wf : DotDims.WF S1024x1000 S1000x128 S1024x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S50000x512.size a
  hwx0_5 : ∀ i : grid0.Coords, EltTy.bits .f32 = 32 ∨ (Rect.block (s := S50000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S50000x512.size a
  hwx1_5 : ∀ i : grid1.Coords, EltTy.bits .f32 = 32 ∨ (Rect.block (s := S50000x512) S2000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S8192x256.size a
  hwx3_0 : ∀ i : grid3.Coords, EltTy.bits .f32 = 32 ∨ (Rect.block (s := S8192x256) S2048x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S8192x128.size a
  hwx3_3 : ∀ i : grid3.Coords, EltTy.bits .f32 = 32 ∨ (Rect.block (s := S8192x128) S2048x128.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x1.size a ≤ S1024x1.size a
  hwx4_0 : ∀ i : grid4.Coords, EltTy.bits .i32 = 32 ∨ (Rect.block (s := S1024x1) S1024x1.size (cc4_transform_0 i) (hinb4_0 i)).WholeWords (EltTy.packing .i32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1000x128.size a ≤ S1000x128.size a
  hwx4_1 : ∀ i : grid4.Coords, EltTy.bits .f32 = 32 ∨ (Rect.block (s := S1000x128) S1000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S1024x128.size a
  hwx4_2 : ∀ i : grid4.Coords, EltTy.bits .f32 = 32 ∨ (Rect.block (s := S1024x128) S1024x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S1024x128.size a
  hwx5_0 : ∀ i : grid5.Coords, EltTy.bits .f32 = 32 ∨ (Rect.block (s := S1024x128) S1024x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S8192x128.size a
  hwx5_1 : ∀ i : grid5.Coords, EltTy.bits .f32 = 32 ∨ (Rect.block (s := S8192x128) S1024x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x1024.size a ≤ S1024x8192.size a
  hwx5_2 : ∀ i : grid5.Coords, EltTy.bits .f32 = 32 ∨ (Rect.block (s := S1024x8192) S1024x1024.size (cc5_transform_2 i) (hinb5_2 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def gather_S50000x256_S8192x1_S8192x256_1_0_n_n_0_1_1256 : GatherDims S50000x256 S8192x1 S8192x256 where
  offsetDims := [1]
  collapsedSliceDims := [0]
  operandBatchingDims := []
  startIndicesBatchingDims := []
  startIndexMap := [0]
  indexVectorDim := 1
  sliceSizes := ![1, 256]
  wf := gather_S50000x256_S8192x1_S8192x256_1_0_n_n_0_1_1256_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S1024x1000_S1000x128_S1024x128_1_0_0_1_n_n : DotDims S1024x1000 S1000x128 S1024x128 where
  lhsContracting := [1]
  rhsContracting := [0]
  lhsNonContracting := [0]
  rhsNonContracting := [1]
  lhsBatch := []
  rhsBatch := []
  wf := dot_S1024x1000_S1000x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v32) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v70) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v74) S1024x1.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S1000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S1024x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S1024x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v72) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1024x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x512 : Shape := ⟨2, ![50000, 512]⟩
abbrev S400000 : Shape := ⟨1, ![400000]⟩
abbrev S8192 : Shape := ⟨1, ![8192]⟩
abbrev S1024 : Shape := ⟨1, ![1024]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1000x128 : Shape := ⟨2, ![1000, 128]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S400000x512 : Shape := ⟨2, ![400000, 512]⟩
abbrev S1x512 : Shape := ⟨2, ![1, 512]⟩
abbrev S50000x256 : Shape := ⟨2, ![50000, 256]⟩
abbrev S1x256 : Shape := ⟨2, ![1, 256]⟩
abbrev S8192x1 : Shape := ⟨2, ![8192, 1]⟩
abbrev S8192x256 : Shape := ⟨2, ![8192, 256]⟩
abbrev S8192x128 : Shape := ⟨2, ![8192, 128]⟩
abbrev S1x128 : Shape := ⟨2, ![1, 128]⟩
abbrev S1024x1 : Shape := ⟨2, ![1024, 1]⟩
abbrev S1024x128 : Shape := ⟨2, ![1024, 128]⟩
abbrev S128x8192 : Shape := ⟨2, ![128, 8192]⟩
abbrev S1024x8192 : Shape := ⟨2, ![1024, 8192]⟩

abbrev nBuf : Space → Nat
  | .hbm => 144
  | .vmem => 0
  | .smem => 0
  | _ => 0

abbrev hbmTy0_0 (i : Nat) : BufTy := match i % 128 with
  | 0 => ⟨S50000x512, .f32⟩
  | 1 => ⟨S400000, .i32⟩
  | 2 => ⟨S400000, .i32⟩
  | 3 => ⟨S8192, .i32⟩
  | 4 => ⟨S1024, .i32⟩
  | 5 => ⟨S512x512, .f32⟩
  | 6 => ⟨S512, .f32⟩
  | 7 => ⟨S512x512, .f32⟩
  | 8 => ⟨S512, .f32⟩
  | 9 => ⟨S512x256, .f32⟩
  | 10 => ⟨S256, .f32⟩
  | 11 => ⟨S256x128, .f32⟩
  | 12 => ⟨S128, .f32⟩
  | 13 => ⟨S1000x128, .f32⟩
  | 14 => ⟨S_, .f32⟩
  | 15 => ⟨S400000, .f32⟩
  | 16 => ⟨S_, .f32⟩
  | 17 => ⟨S50000, .f32⟩
  | 18 => ⟨S400000x1, .i32⟩
  | 19 => ⟨S50000, .f32⟩
  | 20 => ⟨S_, .f32⟩
  | 21 => ⟨S50000, .f32⟩
  | 22 => ⟨S400000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .i1⟩
  | 38 => ⟨S_, .f32⟩
  | 39 => ⟨S50000, .f32⟩
  | 40 => ⟨S50000, .f32⟩
  | 41 => ⟨S50000, .f32⟩
  | 42 => ⟨S_, .f32⟩
  | 43 => ⟨S_, .f32⟩
  | 44 => ⟨S50000, .f32⟩
  | 45 => ⟨S50000, .f32⟩
  | 46 => ⟨S50000x1, .f32⟩
  | 47 => ⟨S50000x1, .f32⟩
  | 48 => ⟨S50000x512, .f32⟩
  | 49 => ⟨S50000x512, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000x512, .f32⟩
  | 59 => ⟨S_, .f32⟩
  | 60 => ⟨S50000x512, .f32⟩
  | 61 => ⟨S400000x1, .i32⟩
  | 62 => ⟨S50000x512, .f32⟩
  | 63 => ⟨S50000x512, .f32⟩
  | 64 => ⟨S50000x512, .f32⟩
  | 65 => ⟨S50000x512, .f32⟩
  | 66 => ⟨S1x512, .f32⟩
  | 67 => ⟨S50000x512, .f32⟩
  | 68 => ⟨S50000x512, .f32⟩
  | 69 => ⟨S_, .f32⟩
  | 70 => ⟨S50000x512, .f32⟩
  | 71 => ⟨S50000x512, .f32⟩
  | 72 => ⟨S50000x512, .f32⟩
  | 73 => ⟨S50000x512, .f32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000x512, .f32⟩
  | 83 => ⟨S_, .f32⟩
  | 84 => ⟨S50000x512, .f32⟩
  | 85 => ⟨S400000x1, .i32⟩
  | 86 => ⟨S50000x512, .f32⟩
  | 87 => ⟨S50000x512, .f32⟩
  | 88 => ⟨S50000x512, .f32⟩
  | 89 => ⟨S50000x512, .f32⟩
  | 90 => ⟨S1x512, .f32⟩
  | 91 => ⟨S50000x512, .f32⟩
  | 92 => ⟨S50000x512, .f32⟩
  | 93 => ⟨S_, .f32⟩
  | 94 => ⟨S50000x512, .f32⟩
  | 95 => ⟨S50000x512, .f32⟩
  | 96 => ⟨S50000x512, .f32⟩
  | 97 => ⟨S50000x512, .f32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S400000x512, .f32⟩
  | 107 => ⟨S_, .f32⟩
  | 108 => ⟨S50000x512, .f32⟩
  | 109 => ⟨S400000x1, .i32⟩
  | 110 => ⟨S50000x512, .f32⟩
  | 111 => ⟨S50000x512, .f32⟩
  | 112 => ⟨S50000x512, .f32⟩
  | 113 => ⟨S50000x256, .f32⟩
  | 114 => ⟨S1x256, .f32⟩
  | 115 => ⟨S50000x256, .f32⟩
  | 116 => ⟨S50000x256, .f32⟩
  | 117 => ⟨S_, .f32⟩
  | 118 => ⟨S50000x256, .f32⟩
  | 119 => ⟨S50000x256, .f32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S50000x512, .f32⟩

abbrev hbmTy0_1 (i : Nat) : BufTy := match i % 128 with
  | 0 => ⟨S8192x256, .f32⟩
  | 1 => ⟨S8192x128, .f32⟩
  | 2 => ⟨S1x128, .f32⟩
  | 3 => ⟨S8192x128, .f32⟩
  | 4 => ⟨S8192x128, .f32⟩
  | 5 => ⟨S_, .i32⟩
  | 6 => ⟨S1024, .i32⟩
  | 7 => ⟨S1024, .i1⟩
  | 8 => ⟨S_, .i32⟩
  | 9 => ⟨S1024, .i32⟩
  | 10 => ⟨S1024, .i32⟩
  | 11 => ⟨S1024, .i32⟩
  | 12 => ⟨S1024x1, .i32⟩
  | 13 => ⟨S1024x128, .f32⟩
  | 14 => ⟨S128x8192, .f32⟩
  | 15 => ⟨S1024x8192, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_cst_3 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v12 : Ref sig .tc := ⟨.hbm, 34, rfl⟩
abbrev main_cst_5 : Ref sig .tc := ⟨.hbm, 35, rfl⟩
abbrev main_v13 : Ref sig .tc := ⟨.hbm, 36, rfl⟩
abbrev main_v14 : Ref sig .tc := ⟨.hbm, 37, rfl⟩
abbrev main_cst_6 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_7 : Ref sig .tc := ⟨.hbm, 42, rfl⟩
abbrev main_call1_v0 : Ref sig .tc := ⟨.hbm, 43, rfl⟩
abbrev main_call1_v1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c : Ref sig .tc := ⟨.hbm, 50, rfl⟩
abbrev main_v23 : Ref sig .tc := ⟨.hbm, 51, rfl⟩
abbrev main_v24 : Ref sig .tc := ⟨.hbm, 52, rfl⟩
abbrev main_c_8 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_9 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_call2_cst : Ref sig .tc := ⟨.hbm, 69, rfl⟩
abbrev main_call2_v0 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_10 : Ref sig .tc := ⟨.hbm, 74, rfl⟩
abbrev main_v42 : Ref sig .tc := ⟨.hbm, 75, rfl⟩
abbrev main_v43 : Ref sig .tc := ⟨.hbm, 76, rfl⟩
abbrev main_c_11 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_12 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_call3_cst : Ref sig .tc := ⟨.hbm, 93, rfl⟩
abbrev main_call3_v0 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_13 : Ref sig .tc := ⟨.hbm, 98, rfl⟩
abbrev main_v61 : Ref sig .tc := ⟨.hbm, 99, rfl⟩
abbrev main_v62 : Ref sig .tc := ⟨.hbm, 100, rfl⟩
abbrev main_c_14 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_15 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_call4_cst : Ref sig .tc := ⟨.hbm, 117, rfl⟩
abbrev main_call4_v0 : Ref sig .tc := ⟨.hbm, 118, rfl⟩
abbrev main_v77 : Ref sig .tc := ⟨.hbm, 119, rfl⟩
abbrev main_c_16 : Ref sig .tc := ⟨.hbm, 120, rfl⟩
abbrev main_v78 : Ref sig .tc := ⟨.hbm, 121, rfl⟩
abbrev main_v79 : Ref sig .tc := ⟨.hbm, 122, rfl⟩
abbrev main_c_17 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_c_18 : Ref sig .tc := ⟨.hbm, 133, rfl⟩
abbrev main_v89 : Ref sig .tc := ⟨.hbm, 134, rfl⟩
abbrev main_v90 : Ref sig .tc := ⟨.hbm, 135, rfl⟩
abbrev main_c_19 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S1024 : S_.BroadcastsInDim S1024 (![] : Fin 0 → Fin S1024.rank)
  bcast_S1024_S1024x1_0 : S1024.BroadcastsInDim S1024x1 (![0] : Fin 1 → Fin S1024x1.rank)
  transposes_S8192x128_S128x8192_1_0 : S8192x128.Transposes [1, 0] S128x8192
  scatter_S50000_S400000x1_S400000_n_0_0_1_wf : ScatterDims.WF S50000 S400000x1 S400000 [] [0] [0] 1
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x512_S50000x512_1_0_0_1_n_n_wf : DotDims.WF S50000x512 S512x512 S50000x512 [1] [0] [0] [1] [] []
  dot_S50000x512_S512x256_S50000x256_1_0_0_1_n_n_wf : DotDims.WF S50000x512 S512x256 S50000x256 [1] [0] [0] [1] [] []
  gather_S50000x256_S8192x1_S8192x256_1_0_n_n_0_1_1256_wf : GatherDims.WF S50000x256 S8192x1 S8192x256 [1] [0] [] [0] [] 1 ![1, 256]
  dot_S8192x256_S256x128_S8192x128_1_0_0_1_n_n_wf : DotDims.WF S8192x256 S256x128 S8192x128 [1] [0] [0] [1] [] []
  gather_S1000x128_S1024x1_S1024x128_1_0_n_n_0_1_1128_wf : GatherDims.WF S1000x128 S1024x1 S1024x128 [1] [0] [] [0] [] 1 ![1, 128]
  dot_S1024x128_S128x8192_S1024x8192_1_0_0_1_n_n_wf : DotDims.WF S1024x128 S128x8192 S1024x8192 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S8192x1_S8192x256_1_0_n_n_0_1_1256 : GatherDims S50000x256 S8192x1 S8192x256 where
  offsetDims := [1]
  collapsedSliceDims := [0]
  operandBatchingDims := []
  startIndicesBatchingDims := []
  startIndexMap := [0]
  indexVectorDim := 1
  sliceSizes := ![1, 256]
  wf := gather_S50000x256_S8192x1_S8192x256_1_0_n_n_0_1_1256_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S1000x128_S1024x1_S1024x128_1_0_n_n_0_1_1128 : GatherDims S1000x128 S1024x1 S1024x128 where
  offsetDims := [1]
  collapsedSliceDims := [0]
  operandBatchingDims := []
  startIndicesBatchingDims := []
  startIndexMap := [0]
  indexVectorDim := 1
  sliceSizes := ![1, 128]
  wf := gather_S1000x128_S1024x1_S1024x128_1_0_n_n_0_1_1128_wf
def dot_S1024x128_S128x8192_S1024x8192_1_0_0_1_n_n : DotDims S1024x128 S128x8192 S1024x8192 where
  lhsContracting := [1]
  rhsContracting := [0]
  lhsNonContracting := [0]
  rhsNonContracting := [1]
  lhsBatch := []
  rhsBatch := []
  wf := dot_S1024x128_S128x8192_S1024x8192_1_0_0_1_n_n_wf

class Facts : Prop extends Facts₀ where

variable [Facts]
-- ==== Proof.LibReal.lean ====
/-
  Real-valued arrays over the extended reals.

  An extended real is REAL when it is neither +∞ nor -∞; an array is real when every element is. The exact
  (idealized) operations keep real arrays real: products and sums of reals are real, so are maxima and selections,
  a gather only moves elements, and finite sums (a matrix product, an accumulating scatter) of reals are real.
  The reciprocal square root of a positive real is real.
-/
import Idealize.ShloMosaic.PureOps.Ideal
import Idealize.ShloMosaic.PureOps.Ideal.Laws
import Idealize.ShloMosaic.PureOps.Contract
import Idealize.ShloMosaic.Lib.ValueIdx
import Idealize.ShloMosaic.Lib.IdealHost

noncomputable section

namespace Cert.RealVal

open Idealize.ShloMosaic

open scoped BigOperators

/-- Every element is a real number: neither +∞ nor -∞. -/
def IsReal {ι : Type} (v : ι → EReal) : Prop := ∀ i, v i ≠ ⊤ ∧ v i ≠ ⊥

theorem IsReal.exists_real {ι : Type} {v : ι → EReal} (h : IsReal v) (i : ι) : ∃ r : ℝ, v i = (r : EReal) :=
  ⟨(v i).toReal, (EReal.coe_toReal (h i).1 (h i).2).symm⟩

/-! ### One extended real -/

/-- One extended real is real: neither +∞ nor -∞. -/
def Real1 (x : EReal) : Prop := x ≠ ⊤ ∧ x ≠ ⊥

theorem isReal_iff {ι : Type} {v : ι → EReal} : IsReal v ↔ ∀ i, Real1 (v i) := Iff.rfl

theorem real1_coe (r : ℝ) : Real1 (r : EReal) := ⟨EReal.coe_ne_top r, EReal.coe_ne_bot r⟩

theorem Real1.exists_coe {x : EReal} (h : Real1 x) : ∃ r : ℝ, x = (r : EReal) :=
  ⟨x.toReal, (EReal.coe_toReal h.1 h.2).symm⟩

theorem real1_zero : Real1 (0 : EReal) := by
  have := real1_coe 0
  rwa [EReal.coe_zero] at this

theorem real1_one : Real1 (1 : EReal) := by
  have := real1_coe 1
  rwa [EReal.coe_one] at this

/-- The sum of two reals is real. -/
theorem Real1.add {a b : EReal} (ha : Real1 a) (hb : Real1 b) : Real1 (a + b) := by
  obtain ⟨r, rfl⟩ := ha.exists_coe
  obtain ⟨q, rfl⟩ := hb.exists_coe
  rw [← EReal.coe_add]
  exact real1_coe _

/-- The product of two reals is real. -/
theorem Real1.mul {a b : EReal} (ha : Real1 a) (hb : Real1 b) : Real1 (a * b) := by
  obtain ⟨r, rfl⟩ := ha.exists_coe
  obtain ⟨q, rfl⟩ := hb.exists_coe
  rw [← EReal.coe_mul]
  exact real1_coe _

/-- The maximum of two reals is one of them. -/
theorem Real1.max {a b : EReal} (ha : Real1 a) (hb : Real1 b) : Real1 (max a b) := by
  rcases max_choice a b with h | h <;> rw [h] <;> assumption

/-- A finite sum of reals is real. -/
theorem real1_sum {κ : Type} (s : Finset κ) (f : κ → EReal) (h : ∀ k ∈ s, Real1 (f k)) : Real1 (∑ k ∈ s, f k) :=
  Finset.sum_induction f Real1 (fun _ _ ha hb => ha.add hb) real1_zero h

/-- The reciprocal square root of a positive real is the real `(√r)⁻¹`. -/
theorem Real1.rsqrt {x : EReal} (hx : Real1 x) (hpos : 0 < x) : Real1 (Ideal.rsqrt x) := by
  obtain ⟨r, rfl⟩ := hx.exists_coe
  have hr : 0 < r := by exact_mod_cast hpos
  rw [Ideal.rsqrt_coe, if_neg (not_lt.mpr hr.le), if_neg hr.ne']
  exact real1_coe _

/-! ### Arrays: the operations of a host program, generic in the shapes -/

section Arrays
variable {s t : Shape} {φ : FTy}

/-- The zero word's splat is the array of zeros. -/
theorem constant_zero_apply (s : Shape) (i : s.Idx) : constant (F := Ideal) s .f32 0x00000000#32 i = 0 :=
  Ideal.ofBits_zero_f32

/-- The word 0x3F800000's splat is the array of ones. -/
theorem constant_one_apply (s : Shape) (i : s.Idx) : constant (F := Ideal) s .f32 0x3F800000#32 i = 1 :=
  Ideal.ofBits_one_f32

theorem isReal_constant_zero (s : Shape) : IsReal (constant (F := Ideal) s .f32 0x00000000#32) := fun i => by
  rw [constant_zero_apply]; exact real1_zero

theorem isReal_constant_one (s : Shape) : IsReal (constant (F := Ideal) s .f32 0x3F800000#32) := fun i => by
  rw [constant_one_apply]; exact real1_one

/-- A broadcast's element is an element of its operand: whatever holds of every operand element holds of
    every result element. -/
theorem broadcastInDim_forall {α : Type} (P : α → Prop) (dims : Fin s.rank → Fin t.rank) (h : s.BroadcastsInDim t dims)
    {x : s.Idx → α} (hx : ∀ i, P (x i)) : ∀ j, P (broadcastInDim t dims h x j) :=
  fun _ => hx _

theorem isReal_broadcastInDim (dims : Fin s.rank → Fin t.rank) (h : s.BroadcastsInDim t dims) {x : s.Idx → EReal}
    (hx : IsReal x) : IsReal (broadcastInDim t dims h x) :=
  broadcastInDim_forall Real1 dims h hx

theorem isReal_mulf {x y : FVec Ideal s φ} (hx : IsReal x) (hy : IsReal y) : IsReal (mulf x y) :=
  fun i => Real1.mul (hx i) (hy i)

theorem isReal_addf {x y : FVec Ideal s φ} (hx : IsReal x) (hy : IsReal y) : IsReal (addf x y) :=
  fun i => Real1.add (hx i) (hy i)

theorem isReal_maximumf {x y : FVec Ideal s φ} (hx : IsReal x) (hy : IsReal y) : IsReal (maximumf x y) :=
  fun i => Real1.max (hx i) (hy i)

/-- A maximum is at least its right operand. -/
theorem le_maximumf_right (x y : FVec Ideal s φ) (i : s.Idx) : y i ≤ maximumf x y i := le_max_right _ _

/-- A selection's element is an element of one of the two branches. -/
theorem isReal_select (c : IVec s 1) {a b : s.Idx → EReal} (ha : IsReal a) (hb : IsReal b) : IsReal (select c a b) :=
  fun i => by
    show Real1 (Scalar.select (c i) (a i) (b i))
    unfold Scalar.select
    split
    · exact ha i
    · exact hb i

/-- The host's reciprocal square root of an array of positive reals is real. -/
theorem isReal_hostRsqrt {x : FVec Ideal s φ} (hx : IsReal x) (hpos : ∀ i, 0 < x i) : IsReal (Host.rsqrt x) :=
  fun i => Real1.rsqrt (hx i) (hpos i)

/-- A gather's element is an element of its operand. -/
theorem isReal_gather {si : Shape} {w : Nat} (d : GatherDims s si t) {x : s.Idx → EReal} (hx : IsReal x) (idx : IVec si w) :
    IsReal (Host.gather d x idx) :=
  fun _ => hx _

/-- An accumulating scatter's element is the operand's plus a finite sum of update elements. -/
theorem isReal_scatterAdd {si u : Shape} {w : Nat} (d : ScatterDims s si u) {x : FVec Ideal s φ} (hx : IsReal x)
    (idx : IVec si w) {upd : FVec Ideal u φ} (hu : IsReal upd) : IsReal (Host.scatterAdd d x idx upd) :=
  fun i => by
    have e : Host.scatterAdd d x idx upd i = Ideal.hostScatterAdd d x idx upd i := rfl
    rw [e]
    unfold Ideal.hostScatterAdd
    exact Real1.add (hx i) (real1_sum _ _ fun j _ => hu j)

/-- An accumulating scatter of elements that are not negative is at least its operand. -/
theorem le_scatterAdd {si u : Shape} {w : Nat} (d : ScatterDims s si u) (x : FVec Ideal s φ)
    (idx : IVec si w) {upd : FVec Ideal u φ} (hu : ∀ j, 0 ≤ upd j) (i : s.Idx) : x i ≤ Host.scatterAdd d x idx upd i := by
  have e : Host.scatterAdd d x idx upd i = Ideal.hostScatterAdd d x idx upd i := rfl
  rw [e]
  unfold Ideal.hostScatterAdd
  exact le_add_of_nonneg_right (Finset.sum_nonneg fun j _ => hu j)

/-- A matrix product's element is a finite sum of products. -/
theorem isReal_dotGeneral {sl sr so : Shape} {φ₁ φ₂ : FTy} (d : DotDims sl sr so) (prec : Option ContractPrecision)
    {lhs : FVec Ideal sl φ₁} (hl : IsReal lhs) {rhs : FVec Ideal sr φ₂} (hr : IsReal rhs) :
    IsReal (Host.dotGeneral d prec lhs rhs) :=
  fun j => by
    show Real1 (FloatOps.dotGeneral d prec .single lhs rhs j)
    rw [Ideal.dotGeneral_apply]
    exact real1_sum _ _ fun k _ => Real1.mul (hl _) (hr _)

end Arrays

end Cert.RealVal

end
-- ==== Proof.KArgs.lean ====
/-
  Names for the argument arrays of the idealized kernel program as launched, on one core: the node features, the
  edge list's two index vectors, the selected nodes, the cell indices, and the weights, biases and embedding table.
-/
import proofs.«402956_j12043088298541_2_alg».proof.Proof.Gen.KernelIdeal.Frame
import proofs.«402956_j12043088298541_2_alg».proof.Proof.LibReal
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KArgs

open Cert.KernelIdeal Cert.KernelIdeal.Gen
open Idealize.ShloMosaic Idealize.ShloMosaic.TcCoe Idealize.ShloMosaic.ValueIdx Idealize.SL.Sem Idealize.ShloMosaic.StableHlo
open Cert.RealVal

-- the launch memory and generator registers (any)
variable (m : (ℓ : Loc nD τ sig) → Buf (Elt Ideal) ℓ) (ρ : Dev nD → PrngReg)

/-- The argument arrays as launched, on core c. -/
abbrev a0 (c : Dev nD) : S50000x512.Idx → EReal := m ((c.tc : Thread nD τ).loc main_arg0)
abbrev a1 (c : Dev nD) : S400000.Idx → BitVec 32 := m ((c.tc : Thread nD τ).loc main_arg1)
abbrev a2 (c : Dev nD) : S400000.Idx → BitVec 32 := m ((c.tc : Thread nD τ).loc main_arg2)
abbrev a3 (c : Dev nD) : S8192.Idx → BitVec 32 := m ((c.tc : Thread nD τ).loc main_arg3)
abbrev a4 (c : Dev nD) : S1024.Idx → BitVec 32 := m ((c.tc : Thread nD τ).loc main_arg4)
abbrev a5 (c : Dev nD) : S512x512.Idx → EReal := m ((c.tc : Thread nD τ).loc main_arg5)
abbrev a6 (c : Dev nD) : S512.Idx → EReal := m ((c.tc : Thread nD τ).loc main_arg6)
abbrev a7 (c : Dev nD) : S512x512.Idx → EReal := m ((c.tc : Thread nD τ).loc main_arg7)
abbrev a8 (c : Dev nD) : S512.Idx → EReal := m ((c.tc : Thread nD τ).loc main_arg8)
abbrev a9 (c : Dev nD) : S512x256.Idx → EReal := m ((c.tc : Thread nD τ).loc main_arg9)
abbrev a10 (c : Dev nD) : S256.Idx → EReal := m ((c.tc : Thread nD τ).loc main_arg10)
abbrev a11 (c : Dev nD) : S256x128.Idx → EReal := m ((c.tc : Thread nD τ).loc main_arg11)
abbrev a12 (c : Dev nD) : S128.Idx → EReal := m ((c.tc : Thread nD τ).loc main_arg12)
abbrev a13 (c : Dev nD) : S1000x128.Idx → EReal := m ((c.tc : Thread nD τ).loc main_arg13)

end Cert.KernelIdeal.KArgs

end
-- ==== Proof.KFront0.lean ====
/-
  The host operations of the idealized kernel program before its first pallas_call, read against the reference's stages.

  The stretches of host operations before the first call compute the two degree normalisations (a scatter of ones by
  the source and by the destination indices, a reciprocal square root where the degree is positive, zero elsewhere),
  scale the node features by the source normalisation, gather the scaled rows by the edges' sources and add them up
  by the edges' destinations. They are operation for operation the reference's, so each buffer a stretch writes holds
  the reference's stage of what the stretch reads; a buffer no operation of a stretch writes is left as it was.
-/
import proofs.«402956_j12043088298541_2_alg».proof.Proof.Gen.KernelIdeal.Frame
import proofs.«402956_j12043088298541_2_alg».proof.Proof.RefRead
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KFront0

open Cert.KernelIdeal Cert.KernelIdeal.Gen
open Idealize.ShloMosaic Idealize.ShloMosaic.TcCoe Idealize.ShloMosaic.ValueIdx Idealize.SL.Sem Idealize.ShloMosaic.StableHlo
open Cert.ReferenceIdeal.PRead

/-! ## Each stretch over any buffer contents: what it writes is the reference's stage of what it reads -/

section Stretches
variable {F : FTy → Type} [FloatOps F] (X : Valuation τ sig (Elt F))

/-- The first stretch: the source degrees' positivity mask … -/
theorem h0_v8 : after hostOps0 X (Proc.devRef .tc main_v8) = val_main_v8 (F := F) (X (Proc.devRef .tc main_arg1)) := by
  after_results_simp
  rfl
/-- … their reciprocal square root … -/
theorem h0_v11 : after hostOps0 X (Proc.devRef .tc main_v11) = val_main_v11 (F := F) (X (Proc.devRef .tc main_arg1)) := by
  after_results_simp
  rfl
/-- … the destination degrees … -/
theorem h0_v6 : after hostOps0 X (Proc.devRef .tc main_v6) = val_main_v6 (F := F) (X (Proc.devRef .tc main_arg2)) := by
  after_results_simp
  rfl
/-- … and the zero the selection falls back to. -/
theorem h0_cst4 : after hostOps0 X (Proc.devRef .tc main_cst_4) = val_main_cst_4 (F := F) := by
  after_results_simp
  rfl

/-- The second stretch selects the source normalisation. -/
theorem h01_v12 (x1 : (⟨Cert.ReferenceIdeal.S400000, .i32⟩ : BufTy).Contents (Elt F))
    (h8 : X (Proc.devRef .tc main_v8) = val_main_v8 (F := F) x1) (h11 : X (Proc.devRef .tc main_v11) = val_main_v11 (F := F) x1)
    (h4 : X (Proc.devRef .tc main_cst_4) = val_main_cst_4 (F := F)) :
    after hostOps0_1 X (Proc.devRef .tc main_v12) = val_main_v12 (F := F) x1 := by
  after_results_simp
  rw [h8, h11, h4]
  rfl

/-- The third stretch: the destination degrees' positivity mask, their reciprocal square root, and a zero. -/
theorem h02_v14 (x2 : (⟨Cert.ReferenceIdeal.S400000, .i32⟩ : BufTy).Contents (Elt F))
    (h6 : X (Proc.devRef .tc main_v6) = val_main_v6 (F := F) x2) :
    after hostOps0_2 X (Proc.devRef .tc main_v14) = val_main_v14 (F := F) x2 := by
  after_results_simp
  rw [h6]
  rfl
theorem h02_v17 (x2 : (⟨Cert.ReferenceIdeal.S400000, .i32⟩ : BufTy).Contents (Elt F))
    (h6 : X (Proc.devRef .tc main_v6) = val_main_v6 (F := F) x2) :
    after hostOps0_2 X (Proc.devRef .tc main_v17) = val_main_v17 (F := F) x2 := by
  after_results_simp
  rw [h6]
  rfl
theorem h02_cst7 : after hostOps0_2 X (Proc.devRef .tc main_cst_7) = val_main_cst_7 (F := F) := by
  after_results_simp
  rfl

/-- The fourth stretch selects the destination normalisation. -/
theorem h03_v18 (x2 : (⟨Cert.ReferenceIdeal.S400000, .i32⟩ : BufTy).Contents (Elt F))
    (h14 : X (Proc.devRef .tc main_v14) = val_main_v14 (F := F) x2) (h17 : X (Proc.devRef .tc main_v17) = val_main_v17 (F := F) x2)
    (h7 : X (Proc.devRef .tc main_cst_7) = val_main_cst_7 (F := F)) :
    after hostOps0_3 X (Proc.devRef .tc main_v18) = val_main_v18 (F := F) x2 := by
  after_results_simp
  rw [h14, h17, h7]
  rfl

/-- The fifth stretch: the two normalisations as columns … -/
theorem h04_v19 (x1 : (⟨Cert.ReferenceIdeal.S400000, .i32⟩ : BufTy).Contents (Elt F))
    (h12 : X (Proc.devRef .tc main_v12) = val_main_v12 (F := F) x1) :
    after hostOps0_4 X (Proc.devRef .tc main_v19) = val_main_v19 (F := F) x1 := by
  after_results_simp
  rw [h12]
  rfl
theorem h04_v20 (x2 : (⟨Cert.ReferenceIdeal.S400000, .i32⟩ : BufTy).Contents (Elt F))
    (h18 : X (Proc.devRef .tc main_v18) = val_main_v18 (F := F) x2) :
    after hostOps0_4 X (Proc.devRef .tc main_v20) = val_main_v20 (F := F) x2 := by
  after_results_simp
  rw [h18]
  rfl
/-- … the first layer's aggregated features … -/
theorem h04_v32 (x0 : (⟨Cert.ReferenceIdeal.S50000x512, .f32⟩ : BufTy).Contents (Elt F)) (x1 x2 : (⟨Cert.ReferenceIdeal.S400000, .i32⟩ : BufTy).Contents (Elt F))
    (h12 : X (Proc.devRef .tc main_v12) = val_main_v12 (F := F) x1)
    (h0 : X (Proc.devRef .tc main_arg0) = x0) (h1 : X (Proc.devRef .tc main_arg1) = x1) (h2 : X (Proc.devRef .tc main_arg2) = x2) :
    after hostOps0_4 X (Proc.devRef .tc main_v32) = val_main_v32 (F := F) x0 x1 x2 := by
  after_results_simp
  rw [h12, h0, h1, h2]
  rfl
/-- … and the first bias as a row. -/
theorem h04_v33 : after hostOps0_4 X (Proc.devRef .tc main_v33)
      = shapeCast S1x512 (X (Proc.devRef .tc main_arg6)) shapeCasts_S512_S1x512 := by
  after_results_simp
  rfl

/-- The stretch between the first two calls repeats the aggregation on the first call's output … -/
theorem h1_v44 (x0 : (⟨Cert.ReferenceIdeal.S50000x512, .f32⟩ : BufTy).Contents (Elt F)) (x1 x2 : (⟨Cert.ReferenceIdeal.S400000, .i32⟩ : BufTy).Contents (Elt F))
    (x5 : (⟨Cert.ReferenceIdeal.S512x512, .f32⟩ : BufTy).Contents (Elt F)) (x6 : (⟨Cert.ReferenceIdeal.S512, .f32⟩ : BufTy).Contents (Elt F))
    (h34 : X (Proc.devRef .tc main_v34) = val_main_v41 (F := F) x0 x1 x2 x5 x6)
    (h1 : X (Proc.devRef .tc main_arg1) = x1) (h2 : X (Proc.devRef .tc main_arg2) = x2) :
    after hostOps1 X (Proc.devRef .tc main_v44) = val_main_v51 (F := F) x0 x1 x2 x5 x6 := by
  after_results_simp
  rw [h34, h1, h2]
  rfl
/-- … and lays the second bias out as a row. -/
theorem h1_v45 : after hostOps1 X (Proc.devRef .tc main_v45)
      = shapeCast S1x512 (X (Proc.devRef .tc main_arg8)) shapeCasts_S512_S1x512 := by
  after_results_simp
  rfl

end Stretches

/-- A stretch of host operations leaves a buffer none of them writes as it was. -/
macro "carry_host" : tactic =>
  `(tactic| exact StableHlo.after_of_forall_not_mem _ _ (List.forall_iff_forall_mem.mp (by
      simp only [hostOps0, hostOps0_1, hostOps0_2, hostOps0_3, hostOps0_4, hostOps1, List.flatten_cons, List.flatten_nil,
        List.append_nil, List.cons_append, List.nil_append, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide))))

/-! ## The run up to the first call's entry -/

section Run
variable {F : FTy → Type} [FloatOps F]
variable (m : (ℓ : Loc nD τ sig) → Buf (Elt F) ℓ) (ρ : Dev nD → PrngReg)

/-- The argument arrays' references. -/
def args : List (Ref sig .tc) :=
  [main_arg0, main_arg1, main_arg2, main_arg3, main_arg4, main_arg5, main_arg6, main_arg7, main_arg8, main_arg9, main_arg10,
    main_arg11, main_arg12, main_arg13]

/-- No host operation before the first call writes an argument array. -/
theorem W1_args (c : Dev nD) : args.Forall fun b => W1 m ρ c (Proc.devRef .tc b) = W0 m ρ c (Proc.devRef .tc b) := by
  simp only [args, List.Forall]
  refine ⟨?_, ?_, ?_, ?_, ?_, ?_, ?_, ?_, ?_, ?_, ?_, ?_, ?_, ?_⟩ <;> carry_host
theorem W2_args (c : Dev nD) : args.Forall fun b => W2 m ρ c (Proc.devRef .tc b) = W1 m ρ c (Proc.devRef .tc b) := by
  simp only [args, List.Forall]
  refine ⟨?_, ?_, ?_, ?_, ?_, ?_, ?_, ?_, ?_, ?_, ?_, ?_, ?_, ?_⟩ <;> carry_host
theorem W3_args (c : Dev nD) : args.Forall fun b => W3 m ρ c (Proc.devRef .tc b) = W2 m ρ c (Proc.devRef .tc b) := by
  simp only [args, List.Forall]
  refine ⟨?_, ?_, ?_, ?_, ?_, ?_, ?_, ?_, ?_, ?_, ?_, ?_, ?_, ?_⟩ <;> carry_host
theorem W4_args (c : Dev nD) : args.Forall fun b => W4 m ρ c (Proc.devRef .tc b) = W3 m ρ c (Proc.devRef .tc b) := by
  simp only [args, List.Forall]
  refine ⟨?_, ?_, ?_, ?_, ?_, ?_, ?_, ?_, ?_, ?_, ?_, ?_, ?_, ?_⟩ <;> carry_host
theorem W5_args (c : Dev nD) : args.Forall fun b => W5 m ρ c (Proc.devRef .tc b) = W4 m ρ c (Proc.devRef .tc b) := by
  simp only [args, List.Forall]
  refine ⟨?_, ?_, ?_, ?_, ?_, ?_, ?_, ?_, ?_, ?_, ?_, ?_, ?_, ?_⟩ <;> carry_host

/-- An argument array is as launched when the last stretch before the first call starts … -/
theorem W4_arg (c : Dev nD) (b : Ref sig .tc) (hb : b ∈ args) :
    W4 m ρ c (Proc.devRef .tc b) = m ((c.tc : Thread nD τ).loc b) :=
  (List.forall_iff_forall_mem.mp (W4_args m ρ c) b hb).trans ((List.forall_iff_forall_mem.mp (W3_args m ρ c) b hb).trans
    ((List.forall_iff_forall_mem.mp (W2_args m ρ c) b hb).trans (List.forall_iff_forall_mem.mp (W1_args m ρ c) b hb)))
/-- … and at the first call's entry. -/
theorem W5_arg (c : Dev nD) (b : Ref sig .tc) (hb : b ∈ args) :
    W5 m ρ c (Proc.devRef .tc b) = m ((c.tc : Thread nD τ).loc b) :=
  (List.forall_iff_forall_mem.mp (W5_args m ρ c) b hb).trans (W4_arg m ρ c b hb)

/-- After the first stretch. -/
theorem W1_v8 (c : Dev nD) : W1 m ρ c (Proc.devRef .tc main_v8) = val_main_v8 (F := F) (m ((c.tc : Thread nD τ).loc main_arg1)) :=
  h0_v8 (W0 m ρ c)
theorem W1_v11 (c : Dev nD) : W1 m ρ c (Proc.devRef .tc main_v11) = val_main_v11 (F := F) (m ((c.tc : Thread nD τ).loc main_arg1)) :=
  h0_v11 (W0 m ρ c)
theorem W1_v6 (c : Dev nD) : W1 m ρ c (Proc.devRef .tc main_v6) = val_main_v6 (F := F) (m ((c.tc : Thread nD τ).loc main_arg2)) :=
  h0_v6 (W0 m ρ c)
theorem W1_cst4 (c : Dev nD) : W1 m ρ c (Proc.devRef .tc main_cst_4) = val_main_cst_4 (F := F) :=
  h0_cst4 (W0 m ρ c)

/-- After the second stretch. -/
theorem W2_v12 (c : Dev nD) : W2 m ρ c (Proc.devRef .tc main_v12) = val_main_v12 (F := F) (m ((c.tc : Thread nD τ).loc main_arg1)) :=
  h01_v12 (W1 m ρ c) _ (W1_v8 m ρ c) (W1_v11 m ρ c) (W1_cst4 m ρ c)
theorem W2_v6 (c : Dev nD) : W2 m ρ c (Proc.devRef .tc main_v6) = val_main_v6 (F := F) (m ((c.tc : Thread nD τ).loc main_arg2)) :=
  (by carry_host : W2 m ρ c (Proc.devRef .tc main_v6) = W1 m ρ c (Proc.devRef .tc main_v6)).trans (W1_v6 m ρ c)

/-- After the third stretch. -/
theorem W3_v14 (c : Dev nD) : W3 m ρ c (Proc.devRef .tc main_v14) = val_main_v14 (F := F) (m ((c.tc : Thread nD τ).loc main_arg2)) :=
  h02_v14 (W2 m ρ c) _ (W2_v6 m ρ c)
theorem W3_v17 (c : Dev nD) : W3 m ρ c (Proc.devRef .tc main_v17) = val_main_v17 (F := F) (m ((c.tc : Thread nD τ).loc main_arg2)) :=
  h02_v17 (W2 m ρ c) _ (W2_v6 m ρ c)
theorem W3_cst7 (c : Dev nD) : W3 m ρ c (Proc.devRef .tc main_cst_7) = val_main_cst_7 (F := F) :=
  h02_cst7 (W2 m ρ c)
theorem W3_v12 (c : Dev nD) : W3 m ρ c (Proc.devRef .tc main_v12) = val_main_v12 (F := F) (m ((c.tc : Thread nD τ).loc main_arg1)) :=
  (by carry_host : W3 m ρ c (Proc.devRef .tc main_v12) = W2 m ρ c (Proc.devRef .tc main_v12)).trans (W2_v12 m ρ c)

/-- After the fourth stretch. -/
theorem W4_v18 (c : Dev nD) : W4 m ρ c (Proc.devRef .tc main_v18) = val_main_v18 (F := F) (m ((c.tc : Thread nD τ).loc main_arg2)) :=
  h03_v18 (W3 m ρ c) _ (W3_v14 m ρ c) (W3_v17 m ρ c) (W3_cst7 m ρ c)
theorem W4_v12 (c : Dev nD) : W4 m ρ c (Proc.devRef .tc main_v12) = val_main_v12 (F := F) (m ((c.tc : Thread nD τ).loc main_arg1)) :=
  (by carry_host : W4 m ρ c (Proc.devRef .tc main_v12) = W3 m ρ c (Proc.devRef .tc main_v12)).trans (W3_v12 m ρ c)

/-- AT THE FIRST CALL'S ENTRY: the source normalisation column … -/
theorem W5_v19 (c : Dev nD) : W5 m ρ c (Proc.devRef .tc main_v19) = val_main_v19 (F := F) (m ((c.tc : Thread nD τ).loc main_arg1)) :=
  h04_v19 (W4 m ρ c) _ (W4_v12 m ρ c)
/-- … the destination normalisation column … -/
theorem W5_v20 (c : Dev nD) : W5 m ρ c (Proc.devRef .tc main_v20) = val_main_v20 (F := F) (m ((c.tc : Thread nD τ).loc main_arg2)) :=
  h04_v20 (W4 m ρ c) _ (W4_v18 m ρ c)
/-- … the first layer's aggregated features … -/
theorem W5_v32 (c : Dev nD) : W5 m ρ c (Proc.devRef .tc main_v32)
      = val_main_v32 (F := F) (m ((c.tc : Thread nD τ).loc main_arg0)) (m ((c.tc : Thread nD τ).loc main_arg1)) (m ((c.tc : Thread nD τ).loc main_arg2)) :=
  h04_v32 (W4 m ρ c) _ _ _ (W4_v12 m ρ c) (W4_arg m ρ c main_arg0 (by decide)) (W4_arg m ρ c main_arg1 (by decide))
    (W4_arg m ρ c main_arg2 (by decide))
/-- … and the first bias as a row. -/
theorem W5_v33 (c : Dev nD) : W5 m ρ c (Proc.devRef .tc main_v33)
      = shapeCast S1x512 (m ((c.tc : Thread nD τ).loc main_arg6)) shapeCasts_S512_S1x512 :=
  (h04_v33 (W4 m ρ c)).trans (by rw [W4_arg m ρ c main_arg6 (by decide)])

end Run

end Cert.KernelIdeal.KFront0

end
-- ==== Proof.Region0.lean ====
/-
  The first graph-convolution transform, as one function of the arrays it reads.

  The call's grid has 25 points; point t stages rows 2000·t … 2000·t + 1999 of the aggregated features A [50000, 512],
  of the destination normalisation nd [50000, 1] and of the source normalisation ns [50000, 1], the whole weight matrix
  W [512, 512] and the bias row b [1, 512], and writes back the same rows of the output. Over the extended reals the
  body's value at row p, column q is  max(Σ_k (A[p,k] · nd[p]) · W[k,q] + b[q], 0) · ns[p]  (the changes of float
  format are the identity, the matrix unit's product into a zero accumulator is the plain sum). The 25 blocks tile
  the output array, so after the call it holds that function of the whole arrays at every index.
-/
import proofs.«402956_j12043088298541_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- An array's contents under its literal index type, with extended-real entries (the identity: it only names the types). -/
abbrev arr (S : Shape) (f : S.Idx → EReal) : S.Idx → EReal := f

/-! ## The body's value at one element of a block -/

/-- A column [a, 1] broadcast along the lanes to [a, b] reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index keeps the output's row … -/
theorem lhs_rows_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
/-- … and runs its column over the contraction index; -/
theorem lhs_rows_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
/-- the right operand index runs its row over the contraction index … -/
theorem rhs_weights_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
/-- … and keeps the output's column. -/
theorem rhs_weights_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The matrix unit's product of a [2000, 512] block with the [512, 512] weights into a zero accumulator, read at
    (p, q): the sum over k of row p's entry k times the weights' entry (k, q). -/
theorem rows_times_weights_apply (a : FVec Ideal S2000x512 .bf16) (b : FVec Ideal S512x512 .bf16) (p : Fin 2000) (q : Fin 512) :
    matmul dot_S2000x512_S512x512_S2000x512_1_0_0_1_n_n none a b (constant (F := Ideal) S2000x512 .f32 0x00000000#32) (ix2 p q)
      = ∑ k : Fin 512, a (ix2 p k) * b (ix2 k q) := by
  simp only [matmul]
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k := funext fun ax => Fin.ext (by
    match ax with
    | ⟨0, _⟩ => exact lhs_rows_0 _ _
    | ⟨1, _⟩ => exact (lhs_rows_1 _ _).trans hk)
  have er : dot_S2000x512_S512x512_S2000x512_1_0_0_1_n_n.rhsIdx (ix2 p q) ((contrEquiv1 dot_S2000x512_S512x512_S2000x512_1_0_0_1_n_n 512 rfl rfl).symm k) = ix2 k q := funext fun ax => Fin.ext (by
    match ax with
    | ⟨0, _⟩ => exact (rhs_weights_0 _ _).trans hk
    | ⟨1, _⟩ => exact rhs_weights_1 _ _)
  rw [el, er]

/-- THE BODY'S VALUE at (p, q) of a block: max(Σ_k (A[p,k] · nd[p]) · W[k,q] + b[q], 0) · ns[p]. -/
theorem payload_apply (x0 : Vec Ideal S2000x512 .f32) (x2 : Vec Ideal S2000x1 .f32) (x7 : Vec Ideal S512x512 .f32) (x10 : Vec Ideal S1x512 .f32)
    (x16 : Vec Ideal S2000x1 .f32) (p : Fin 2000) (q : Fin 512) :
    (k0_pay1 x0 x2 x7 x10 x16 : S2000x512.Idx → EReal) (ix2 p q)
      = max (∑ k : Fin 512, ((x0 : S2000x512.Idx → EReal) (ix2 p k) * (x2 : S2000x1.Idx → EReal) (ix2 p (0 : Fin 1))) * (x7 : S512x512.Idx → EReal) (ix2 k q)
              + (x10 : S1x512.Idx → EReal) (ix2 (0 : Fin 1) q)) 0
          * (x16 : S2000x1.Idx → EReal) (ix2 p (0 : Fin 1)) := by
  unfold k0_pay1
  simp only [shapeCast_self]
  rw [mulf_apply, maximumf_apply, addf_apply, rows_times_weights_apply, broadcast_apply,
    broadcastTo_a1_ab_apply, broadcastTo_1b_ab_apply]
  rw [show (FloatOps.ofBits .f32 0x00000000#32 : Ideal .f32) = 0 from Ideal.ofBits_zero_f32]
  simp only [truncf_apply, mulf_apply, broadcastTo_a1_ab_apply]

/-! ## From the blocks to the array -/

-- The TensorCore's buffer contents when the region is entered (any).
variable (V : (c : Dev nD) → (b : Ref sig .tc) → Buf (Elt Ideal) ((c : Thread nD τ).loc b))

theorem zero_offsets : (![0, 0] : Fin 2 → Nat) = fun _ => 0 := funext fun a => by fin_cases a <;> rfl

/-- The transform at row p, column q of whole arrays: max(Σ_k (A[p,k] · nd[p]) · W[k,q] + b[q], 0) · ns[p]. -/
def gconvAt (A : S50000x512.Idx → EReal) (nd : S50000x1.Idx → EReal) (W : S512x512.Idx → EReal) (b : S1x512.Idx → EReal)
    (ns : S50000x1.Idx → EReal) (p : Fin 50000) (q : Fin 512) : EReal :=
  max (∑ k : Fin 512, (A (ix2 p k) * nd (ix2 p (0 : Fin 1))) * W (ix2 k q) + b (ix2 (0 : Fin 1) q)) 0 * ns (ix2 p (0 : Fin 1))

/-- The transform as an array: its value at an index is the value at the index's two coordinates. -/
def gconv (A : S50000x512.Idx → EReal) (nd : S50000x1.Idx → EReal) (W : S512x512.Idx → EReal) (b : S1x512.Idx → EReal)
    (ns : S50000x1.Idx → EReal) : S50000x512.Idx → EReal :=
  fun i => gconvAt A nd W b ns (i 0) (i 1)

/-- The printed index maps, decided over the 25 points: the row-blocked inputs move with the output's block, the whole
    inputs stay at block 0, and the output's block row is below 25, its block column 0. -/
theorem index_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = win0_5.index t (0 : Fin 2)
    ∧ win0_4.index t (1 : Fin 2) = 0
    ∧ win0_5.index t (0 : Fin 2) ≤ 24
    ∧ win0_5.index t (1 : Fin 2) = 0 :=
  (by decide +kernel : ∀ t : Fin grid0.N, _)

/-- Every block row of the output is some point's. -/
theorem index_onto : ∀ r : Fin 25, ∃ t : Fin cfg0.N, win0_5.index t = ![r.val, 0] :=
  (by decide +kernel : ∀ r : Fin 25, ∃ t : Fin grid0.N, win0_5.index t = ![r.val, 0])

/-- What the body leaves at (p, q) of point t's block is the transform of the whole arrays at row
    (block row of t) · 2000 + p, column q. -/
theorem block_apply (c : Dev nD) (t : Fin cfg0.N) (p : Fin 2000) (q : Fin 512) (R : Fin 50000)
    (hR : R.val = win0_5.index t (0 : Fin 2) * 2000 + p.val) :
    (k0_pay1 (iblk0 (F := Ideal) V c 0 t) (iblk0 V c 1 t) (iblk0 V c 2 t) (iblk0 V c 3 t) (iblk0 V c 4 t) : S2000x512.Idx → EReal) (ix2 p q)
      = gconvAt (V c main_v32) (V c main_v20) (V c main_arg5) (V c main_v33) (V c main_v19) R q := by
  obtain ⟨f00, f01, f10, f11, f20, f21, f30, f31, f40, f41, f50, f51⟩ := index_facts t
  refine (payload_apply _ _ _ _ _ p q).trans ?_
  have e0 : ∀ k : Fin 512, (iblk0 (F := Ideal) V c 0 t : S2000x512.Idx → EReal) (ix2 p k) = arr S50000x512 (V c main_v32) (ix2 R k) := fun k => by
    show V c main_v32 (((cfg0.win 0).blk t).view.emb (ix2 p k)) = _
    refine congrArg _ (funext fun a => Fin.ext ?_)
    match a with
    | ⟨0, _⟩ => show win0_0.index t (0 : Fin 2) * 2000 + 1 * p.val = R.val; omega
    | ⟨1, _⟩ => show win0_0.index t (1 : Fin 2) * 512 + 1 * k.val = k.val; omega
  have e1 : (iblk0 (F := Ideal) V c 1 t : S2000x1.Idx → EReal) (ix2 p (0 : Fin 1)) = arr S50000x1 (V c main_v20) (ix2 R (0 : Fin 1)) := by
    show V c main_v20 (((cfg0.win 1).blk t).view.emb (ix2 p (0 : Fin 1))) = _
    refine congrArg _ (funext fun a => Fin.ext ?_)
    match a with
    | ⟨0, _⟩ => show win0_1.index t (0 : Fin 2) * 2000 + 1 * p.val = R.val; omega
    | ⟨1, _⟩ => show win0_1.index t (1 : Fin 2) * 1 + 1 * 0 = 0; omega
  have e2 : ∀ k : Fin 512, (iblk0 (F := Ideal) V c 2 t : S512x512.Idx → EReal) (ix2 k q) = arr S512x512 (V c main_arg5) (ix2 k q) := fun k => by
    show V c main_arg5 (((cfg0.win 2).blk t).view.emb (ix2 k q)) = _
    refine congrArg _ (funext fun a => Fin.ext ?_)
    match a with
    | ⟨0, _⟩ => show win0_2.index t (0 : Fin 2) * 512 + 1 * k.val = k.val; omega
    | ⟨1, _⟩ => show win0_2.index t (1 : Fin 2) * 512 + 1 * q.val = q.val; omega
  have e3 : (iblk0 (F := Ideal) V c 3 t : S1x512.Idx → EReal) (ix2 (0 : Fin 1) q) = arr S1x512 (V c main_v33) (ix2 (0 : Fin 1) q) := by
    show V c main_v33 (((cfg0.win 3).blk t).view.emb (ix2 (0 : Fin 1) q)) = _
    refine congrArg _ (funext fun a => Fin.ext ?_)
    match a with
    | ⟨0, _⟩ => show win0_3.index t (0 : Fin 2) * 1 + 1 * 0 = 0; omega
    | ⟨1, _⟩ => show win0_3.index t (1 : Fin 2) * 512 + 1 * q.val = q.val; omega
  have e4 : (iblk0 (F := Ideal) V c 4 t : S2000x1.Idx → EReal) (ix2 p (0 : Fin 1)) = arr S50000x1 (V c main_v19) (ix2 R (0 : Fin 1)) := by
    show V c main_v19 (((cfg0.win 4).blk t).view.emb (ix2 p (0 : Fin 1))) = _
    refine congrArg _ (funext fun a => Fin.ext ?_)
    match a with
    | ⟨0, _⟩ => show win0_4.index t (0 : Fin 2) * 2000 + 1 * p.val = R.val; omega
    | ⟨1, _⟩ => show win0_4.index t (1 : Fin 2) * 1 + 1 * 0 = 0; omega
  simp only [e0, e1, e2, e3, e4]
  rfl

/-- WHAT POINT t WRITES BACK is block t of the transform of the arrays as the region finds them. -/
theorem flushed_eq (c : Dev nD) (t : Fin cfg0.N) :
    (dat0 (F := Ideal) V c).flushed 5 t
      = ((cfg0.win 5).blk t).view.read (Elt Ideal) (gconv (V c main_v32) (V c main_v20) (V c main_arg5) (V c main_v33) (V c main_v19)) := by
  show (cfg0.win 5).cut (grid0.coords t) ((dat0 V c).after 5 t) = _
  rw [after0_5]
  unfold out0_5
  rw [View.canon_unit_zero zero_offsets]
  simp only [View.ld_unit_zero (S := S2000x512) zero_offsets, View.ld_unit_zero (S := S2000x1) zero_offsets,
    View.ld_unit_zero (S := S512x512) zero_offsets, View.ld_unit_zero (S := S1x512) zero_offsets]
  obtain ⟨f00, f01, f10, f11, f20, f21, f30, f31, f40, f41, f50, f51⟩ := index_facts t
  funext j
  obtain ⟨p, q, rfl⟩ : ∃ (p : Fin 2000) (q : Fin 512), j = ix2 p q := ⟨j 0, j 1, eq_ix2 j⟩
  have hlt : win0_5.index t (0 : Fin 2) * 2000 + p.val < 50000 := by omega
  refine (block_apply V c t p q ⟨_, hlt⟩ rfl).trans ?_
  show _ = gconv (V c main_v32) (V c main_v20) (V c main_arg5) (V c main_v33) (V c main_v19) (((cfg0.win 5).blk t).view.emb (ix2 p q))
  have hidx : ((cfg0.win 5).blk t).view.emb (ix2 p q) = ix2 (⟨_, hlt⟩ : Fin 50000) q := funext fun a => Fin.ext (by
    match a with
    | ⟨0, _⟩ => show win0_5.index t (0 : Fin 2) * 2000 + 1 * p.val = win0_5.index t (0 : Fin 2) * 2000 + p.val; omega
    | ⟨1, _⟩ => show win0_5.index t (1 : Fin 2) * 512 + 1 * q.val = q.val; omega)
  rw [hidx]
  rfl

/-- An index of the array is in point t's block iff each coordinate is in the block's range on its axis. -/
theorem mem_block (t : Fin cfg0.N) (i : S50000x512.Idx) :
    i ∈ ((cfg0.win 5).blk t).view.set ↔ ∀ a : Fin 2, win0_5.index t a * S2000x512.size a ≤ (i a).val ∧ (i a).val < win0_5.index t a * S2000x512.size a + S2000x512.size a := by
  show i ∈ ((View.whole main_v34).slice (win0_5.rect t)).set ↔ _
  rw [View.set_slice_whole, Rect.mem_set_unit]
  exact Iff.rfl

/-- The 25 row blocks tile the array: row r is in the block of the point whose block row is r / 2000. -/
theorem covered (i : S50000x512.Idx) : ∃ t : Fin cfg0.N, (cfg0.win 5).flush t = true ∧ i ∈ ((cfg0.win 5).blk t).view.set := by
  have hi0 : (i 0).val < 50000 := (i 0).isLt
  have hi1 : (i 1).val < 512 := (i 1).isLt
  obtain ⟨t, ht⟩ := index_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 512 ≤ (i 1).val ∧ (i 1).val < win0_5.index t (1 : Fin 2) * 512 + 512; omega

/-- THE OUTPUT ARRAY after the call is the transform of the arrays the region reads. -/
theorem out_eq (c : Dev nD) :
    (dat0 (F := Ideal) V c).arrAt 5 cfg0.N = gconv (V c main_v32) (V c main_v20) (V c main_arg5) (V c main_v33) (V c main_v19) :=
  (dat0 V c).arrAt_eq_of_cover 5 _ (fun t _ => flushed_eq V c t) covered

/-- THE OUTPUT ARRAY after the call, read at (p, q). -/
theorem out_apply (c : Dev nD) (p : Fin 50000) (q : Fin 512) :
    ((dat0 (F := Ideal) V c).arrAt 5 cfg0.N : S50000x512.Idx → EReal) (ix2 p q)
      = max (∑ k : Fin 512, (arr S50000x512 (V c main_v32) (ix2 p k) * arr S50000x1 (V c main_v20) (ix2 p (0 : Fin 1)))
              * arr S512x512 (V c main_arg5) (ix2 k q)
            + arr S1x512 (V c main_v33) (ix2 (0 : Fin 1) q)) 0
          * arr S50000x1 (V c main_v19) (ix2 p (0 : Fin 1)) := by
  rw [out_eq V c]
  rfl

end Cert.KernelIdeal.Region0

end
-- ==== Proof.Region1.lean ====
/-
  The second graph-convolution transform, as one function of the arrays it reads.

  The call's grid has 25 points; point t stages rows 2000·t … 2000·t + 1999 of the aggregated features A [50000, 512],
  of the destination normalisation nd [50000, 1] and of the source normalisation ns [50000, 1], the whole weight matrix
  W [512, 512] and the bias row b [1, 512], and writes back the same rows of the output. Over the extended reals the
  body's value at row p, column q is  max(Σ_k (A[p,k] · nd[p]) · W[k,q] + b[q], 0) · ns[p]  (the changes of float
  format are the identity, the matrix unit's product into a zero accumulator is the plain sum). The 25 blocks tile
  the output array, so after the call it holds that function of the whole arrays at every index.
-/
import proofs.«402956_j12043088298541_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- An array's contents under its literal index type, with extended-real entries (the identity: it only names the types). -/
abbrev arr (S : Shape) (f : S.Idx → EReal) : S.Idx → EReal := f

/-! ## The body's value at one element of a block -/

/-- A column [a, 1] broadcast along the lanes to [a, b] reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand index keeps the output's row … -/
theorem lhs_rows_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
/-- … and runs its column over the contraction index; -/
theorem lhs_rows_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
/-- the right operand index runs its row over the contraction index … -/
theorem rhs_weights_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
/-- … and keeps the output's column. -/
theorem rhs_weights_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The matrix unit's product of a [2000, 512] block with the [512, 512] weights into a zero accumulator, read at
    (p, q): the sum over k of row p's entry k times the weights' entry (k, q). -/
theorem rows_times_weights_apply (a : FVec Ideal S2000x512 .bf16) (b : FVec Ideal S512x512 .bf16) (p : Fin 2000) (q : Fin 512) :
    matmul dot_S2000x512_S512x512_S2000x512_1_0_0_1_n_n none a b (constant (F := Ideal) S2000x512 .f32 0x00000000#32) (ix2 p q)
      = ∑ k : Fin 512, a (ix2 p k) * b (ix2 k q) := by
  simp only [matmul]
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx (ix2 p q) ((contrEquiv1 dot_S2000x512_S512x512_S2000x512_1_0_0_1_n_n 512 rfl rfl).symm k) = ix2 p k := funext fun ax => Fin.ext (by
    match ax with
    | ⟨0, _⟩ => exact lhs_rows_0 _ _
    | ⟨1, _⟩ => exact (lhs_rows_1 _ _).trans hk)
  have er : dot_S2000x512_S512x512_S2000x512_1_0_0_1_n_n.rhsIdx (ix2 p q) ((contrEquiv1 dot_S2000x512_S512x512_S2000x512_1_0_0_1_n_n 512 rfl rfl).symm k) = ix2 k q := funext fun ax => Fin.ext (by
    match ax with
    | ⟨0, _⟩ => exact (rhs_weights_0 _ _).trans hk
    | ⟨1, _⟩ => exact rhs_weights_1 _ _)
  rw [el, er]

/-- THE BODY'S VALUE at (p, q) of a block: max(Σ_k (A[p,k] · nd[p]) · W[k,q] + b[q], 0) · ns[p]. -/
theorem payload_apply (x0 : Vec Ideal S2000x512 .f32) (x2 : Vec Ideal S2000x1 .f32) (x7 : Vec Ideal S512x512 .f32) (x10 : Vec Ideal S1x512 .f32)
    (x16 : Vec Ideal S2000x1 .f32) (p : Fin 2000) (q : Fin 512) :
    (k1_pay1 x0 x2 x7 x10 x16 : S2000x512.Idx → EReal) (ix2 p q)
      = max (∑ k : Fin 512, ((x0 : S2000x512.Idx → EReal) (ix2 p k) * (x2 : S2000x1.Idx → EReal) (ix2 p (0 : Fin 1))) * (x7 : S512x512.Idx → EReal) (ix2 k q)
              + (x10 : S1x512.Idx → EReal) (ix2 (0 : Fin 1) q)) 0
          * (x16 : S2000x1.Idx → EReal) (ix2 p (0 : Fin 1)) := by
  unfold k1_pay1
  simp only [shapeCast_self]
  rw [mulf_apply, maximumf_apply, addf_apply, rows_times_weights_apply, broadcast_apply,
    broadcastTo_a1_ab_apply, broadcastTo_1b_ab_apply]
  rw [show (FloatOps.ofBits .f32 0x00000000#32 : Ideal .f32) = 0 from Ideal.ofBits_zero_f32]
  simp only [truncf_apply, mulf_apply, broadcastTo_a1_ab_apply]

/-! ## From the blocks to the array -/

-- The TensorCore's buffer contents when the region is entered (any).
variable (V : (c : Dev nD) → (b : Ref sig .tc) → Buf (Elt Ideal) ((c : Thread nD τ).loc b))

theorem zero_offsets : (![0, 0] : Fin 2 → Nat) = fun _ => 0 := funext fun a => by fin_cases a <;> rfl

/-- The transform at row p, column q of whole arrays: max(Σ_k (A[p,k] · nd[p]) · W[k,q] + b[q], 0) · ns[p]. -/
def gconvAt (A : S50000x512.Idx → EReal) (nd : S50000x1.Idx → EReal) (W : S512x512.Idx → EReal) (b : S1x512.Idx → EReal)
    (ns : S50000x1.Idx → EReal) (p : Fin 50000) (q : Fin 512) : EReal :=
  max (∑ k : Fin 512, (A (ix2 p k) * nd (ix2 p (0 : Fin 1))) * W (ix2 k q) + b (ix2 (0 : Fin 1) q)) 0 * ns (ix2 p (0 : Fin 1))

/-- The transform as an array: its value at an index is the value at the index's two coordinates. -/
def gconv (A : S50000x512.Idx → EReal) (nd : S50000x1.Idx → EReal) (W : S512x512.Idx → EReal) (b : S1x512.Idx → EReal)
    (ns : S50000x1.Idx → EReal) : S50000x512.Idx → EReal :=
  fun i => gconvAt A nd W b ns (i 0) (i 1)

/-- The printed index maps, decided over the 25 points: the row-blocked inputs move with the output's block, the whole
    inputs stay at block 0, and the output's block row is below 25, its block column 0. -/
theorem index_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = win1_5.index t (0 : Fin 2)
    ∧ win1_4.index t (1 : Fin 2) = 0
    ∧ win1_5.index t (0 : Fin 2) ≤ 24
    ∧ win1_5.index t (1 : Fin 2) = 0 :=
  (by decide +kernel : ∀ t : Fin grid1.N, _)

/-- Every block row of the output is some point's. -/
theorem index_onto : ∀ r : Fin 25, ∃ t : Fin cfg1.N, win1_5.index t = ![r.val, 0] :=
  (by decide +kernel : ∀ r : Fin 25, ∃ t : Fin grid1.N, win1_5.index t = ![r.val, 0])

/-- What the body leaves at (p, q) of point t's block is the transform of the whole arrays at row
    (block row of t) · 2000 + p, column q. -/
theorem block_apply (c : Dev nD) (t : Fin cfg1.N) (p : Fin 2000) (q : Fin 512) (R : Fin 50000)
    (hR : R.val = win1_5.index t (0 : Fin 2) * 2000 + p.val) :
    (k1_pay1 (iblk1 (F := Ideal) V c 0 t) (iblk1 V c 1 t) (iblk1 V c 2 t) (iblk1 V c 3 t) (iblk1 V c 4 t) : S2000x512.Idx → EReal) (ix2 p q)
      = gconvAt (V c main_v44) (V c main_v20) (V c main_arg7) (V c main_v45) (V c main_v19) R q := by
  obtain ⟨f00, f01, f10, f11, f20, f21, f30, f31, f40, f41, f50, f51⟩ := index_facts t
  refine (payload_apply _ _ _ _ _ p q).trans ?_
  have e0 : ∀ k : Fin 512, (iblk1 (F := Ideal) V c 0 t : S2000x512.Idx → EReal) (ix2 p k) = arr S50000x512 (V c main_v44) (ix2 R k) := fun k => by
    show V c main_v44 (((cfg1.win 0).blk t).view.emb (ix2 p k)) = _
    refine congrArg _ (funext fun a => Fin.ext ?_)
    match a with
    | ⟨0, _⟩ => show win1_0.index t (0 : Fin 2) * 2000 + 1 * p.val = R.val; omega
    | ⟨1, _⟩ => show win1_0.index t (1 : Fin 2) * 512 + 1 * k.val = k.val; omega
  have e1 : (iblk1 (F := Ideal) V c 1 t : S2000x1.Idx → EReal) (ix2 p (0 : Fin 1)) = arr S50000x1 (V c main_v20) (ix2 R (0 : Fin 1)) := by
    show V c main_v20 (((cfg1.win 1).blk t).view.emb (ix2 p (0 : Fin 1))) = _
    refine congrArg _ (funext fun a => Fin.ext ?_)
    match a with
    | ⟨0, _⟩ => show win1_1.index t (0 : Fin 2) * 2000 + 1 * p.val = R.val; omega
    | ⟨1, _⟩ => show win1_1.index t (1 : Fin 2) * 1 + 1 * 0 = 0; omega
  have e2 : ∀ k : Fin 512, (iblk1 (F := Ideal) V c 2 t : S512x512.Idx → EReal) (ix2 k q) = arr S512x512 (V c main_arg7) (ix2 k q) := fun k => by
    show V c main_arg7 (((cfg1.win 2).blk t).view.emb (ix2 k q)) = _
    refine congrArg _ (funext fun a => Fin.ext ?_)
    match a with
    | ⟨0, _⟩ => show win1_2.index t (0 : Fin 2) * 512 + 1 * k.val = k.val; omega
    | ⟨1, _⟩ => show win1_2.index t (1 : Fin 2) * 512 + 1 * q.val = q.val; omega
  have e3 : (iblk1 (F := Ideal) V c 3 t : S1x512.Idx → EReal) (ix2 (0 : Fin 1) q) = arr S1x512 (V c main_v45) (ix2 (0 : Fin 1) q) := by
    show V c main_v45 (((cfg1.win 3).blk t).view.emb (ix2 (0 : Fin 1) q)) = _
    refine congrArg _ (funext fun a => Fin.ext ?_)
    match a with
    | ⟨0, _⟩ => show win1_3.index t (0 : Fin 2) * 1 + 1 * 0 = 0; omega
    | ⟨1, _⟩ => show win1_3.index t (1 : Fin 2) * 512 + 1 * q.val = q.val; omega
  have e4 : (iblk1 (F := Ideal) V c 4 t : S2000x1.Idx → EReal) (ix2 p (0 : Fin 1)) = arr S50000x1 (V c main_v19) (ix2 R (0 : Fin 1)) := by
    show V c main_v19 (((cfg1.win 4).blk t).view.emb (ix2 p (0 : Fin 1))) = _
    refine congrArg _ (funext fun a => Fin.ext ?_)
    match a with
    | ⟨0, _⟩ => show win1_4.index t (0 : Fin 2) * 2000 + 1 * p.val = R.val; omega
    | ⟨1, _⟩ => show win1_4.index t (1 : Fin 2) * 1 + 1 * 0 = 0; omega
  simp only [e0, e1, e2, e3, e4]
  rfl

/-- WHAT POINT t WRITES BACK is block t of the transform of the arrays as the region finds them. -/
theorem flushed_eq (c : Dev nD) (t : Fin cfg1.N) :
    (dat1 (F := Ideal) V c).flushed 5 t
      = ((cfg1.win 5).blk t).view.read (Elt Ideal) (gconv (V c main_v44) (V c main_v20) (V c main_arg7) (V c main_v45) (V c main_v19)) := by
  show (cfg1.win 5).cut (grid1.coords t) ((dat1 V c).after 5 t) = _
  rw [after1_5]
  unfold out1_5
  rw [View.canon_unit_zero zero_offsets]
  simp only [View.ld_unit_zero (S := S2000x512) zero_offsets, View.ld_unit_zero (S := S2000x1) zero_offsets,
    View.ld_unit_zero (S := S512x512) zero_offsets, View.ld_unit_zero (S := S1x512) zero_offsets]
  obtain ⟨f00, f01, f10, f11, f20, f21, f30, f31, f40, f41, f50, f51⟩ := index_facts t
  funext j
  obtain ⟨p, q, rfl⟩ : ∃ (p : Fin 2000) (q : Fin 512), j = ix2 p q := ⟨j 0, j 1, eq_ix2 j⟩
  have hlt : win1_5.index t (0 : Fin 2) * 2000 + p.val < 50000 := by omega
  refine (block_apply V c t p q ⟨_, hlt⟩ rfl).trans ?_
  show _ = gconv (V c main_v44) (V c main_v20) (V c main_arg7) (V c main_v45) (V c main_v19) (((cfg1.win 5).blk t).view.emb (ix2 p q))
  have hidx : ((cfg1.win 5).blk t).view.emb (ix2 p q) = ix2 (⟨_, hlt⟩ : Fin 50000) q := funext fun a => Fin.ext (by
    match a with
    | ⟨0, _⟩ => show win1_5.index t (0 : Fin 2) * 2000 + 1 * p.val = win1_5.index t (0 : Fin 2) * 2000 + p.val; omega
    | ⟨1, _⟩ => show win1_5.index t (1 : Fin 2) * 512 + 1 * q.val = q.val; omega)
  rw [hidx]
  rfl

/-- An index of the array is in point t's block iff each coordinate is in the block's range on its axis. -/
theorem mem_block (t : Fin cfg1.N) (i : S50000x512.Idx) :
    i ∈ ((cfg1.win 5).blk t).view.set ↔ ∀ a : Fin 2, win1_5.index t a * S2000x512.size a ≤ (i a).val ∧ (i a).val < win1_5.index t a * S2000x512.size a + S2000x512.size a := by
  show i ∈ ((View.whole main_v46).slice (win1_5.rect t)).set ↔ _
  rw [View.set_slice_whole, Rect.mem_set_unit]
  exact Iff.rfl

/-- The 25 row blocks tile the array: row r is in the block of the point whose block row is r / 2000. -/
theorem covered (i : S50000x512.Idx) : ∃ t : Fin cfg1.N, (cfg1.win 5).flush t = true ∧ i ∈ ((cfg1.win 5).blk t).view.set := by
  have hi0 : (i 0).val < 50000 := (i 0).isLt
  have hi1 : (i 1).val < 512 := (i 1).isLt
  obtain ⟨t, ht⟩ := index_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 512 ≤ (i 1).val ∧ (i 1).val < win1_5.index t (1 : Fin 2) * 512 + 512; omega

/-- THE OUTPUT ARRAY after the call is the transform of the arrays the region reads. -/
theorem out_eq (c : Dev nD) :
    (dat1 (F := Ideal) V c).arrAt 5 cfg1.N = gconv (V c main_v44) (V c main_v20) (V c main_arg7) (V c main_v45) (V c main_v19) :=
  (dat1 V c).arrAt_eq_of_cover 5 _ (fun t _ => flushed_eq V c t) covered

/-- THE OUTPUT ARRAY after the call, read at (p, q). -/
theorem out_apply (c : Dev nD) (p : Fin 50000) (q : Fin 512) :
    ((dat1 (F := Ideal) V c).arrAt 5 cfg1.N : S50000x512.Idx → EReal) (ix2 p q)
      = max (∑ k : Fin 512, (arr S50000x512 (V c main_v44) (ix2 p k) * arr S50000x1 (V c main_v20) (ix2 p (0 : Fin 1)))
              * arr S512x512 (V c main_arg7) (ix2 k q)
            + arr S1x512 (V c main_v45) (ix2 (0 : Fin 1) q)) 0
          * arr S50000x1 (V c main_v19) (ix2 p (0 : Fin 1)) := by
  rw [out_eq V c]
  rfl

end Cert.KernelIdeal.Region1

end
-- ==== Proof.Region2.lean ====
/-
  The third layer's transform (a plain matrix product), as one function of the arrays it reads.

  The call's grid has 25 points; point t stages rows 2000·t … 2000·t + 1999 of H [50000, 512] and the whole weight
  matrix W [512, 256], and writes back the same rows of the output [50000, 256]. Over the extended reals the body's value
  at row p, column q is Σ_k H[p,k] · W[k,q]. The 25 blocks tile the output array.
-/
import proofs.«402956_j12043088298541_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's product at an index -/

/-- The product's left operand is read at the output's row. -/
theorem lhs_row (i : S2000x256.Idx) (r : dot_S2000x512_S512x256_S2000x256_1_0_0_1_n_n.contr.Idx) :
    (dot_S2000x512_S512x256_S2000x256_1_0_0_1_n_n.lhsIdx i r 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
/-- … and at the summation index as its column. -/
theorem lhs_col (i : S2000x256.Idx) (r : dot_S2000x512_S512x256_S2000x256_1_0_0_1_n_n.contr.Idx) :
    (dot_S2000x512_S512x256_S2000x256_1_0_0_1_n_n.lhsIdx i r 1).val = (r ⟨0, by decide⟩).val :=
  dot_S2000x512_S512x256_S2000x256_1_0_0_1_n_n.lhsIdx_val_of_single rfl i r
/-- The right operand is read at the summation index as its row. -/
theorem rhs_row (i : S2000x256.Idx) (r : dot_S2000x512_S512x256_S2000x256_1_0_0_1_n_n.contr.Idx) :
    (dot_S2000x512_S512x256_S2000x256_1_0_0_1_n_n.rhsIdx i r 0).val = (r ⟨0, by decide⟩).val :=
  dot_S2000x512_S512x256_S2000x256_1_0_0_1_n_n.rhsIdx_val_of_single rfl i r
/-- … and at the output's column. -/
theorem rhs_col (i : S2000x256.Idx) (r : dot_S2000x512_S512x256_S2000x256_1_0_0_1_n_n.contr.Idx) :
    (dot_S2000x512_S512x256_S2000x256_1_0_0_1_n_n.rhsIdx i r 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- THE BODY'S VALUE at row p, column q of its block: Σ_k x[p,k] · w[k,q] (the two roundings are the identity on the
    extended reals, and the accumulator is the zero splat). -/
theorem pay_apply (x : Vec Ideal S2000x512 .f32) (w : Vec Ideal S512x256 .f32) (p : Fin 2000) (q : Fin 256) :
    k2_pay1 (F := Ideal) x w (ix2 p q) = ∑ k : Fin 512, (x : S2000x512.Idx → EReal) (ix2 p k) * (w : S512x256.Idx → EReal) (ix2 k q) := by
  unfold k2_pay1
  simp only [shapeCast_self, matmul]
  rw [Ideal.matmul_constant_zero_apply, ← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 p q) ((contrEquiv1 dot_S2000x512_S512x256_S2000x256_1_0_0_1_n_n 512 rfl rfl).symm k) = ix2 p k := funext fun a => Fin.ext (by
    match a with
    | ⟨0, _⟩ => exact lhs_row _ _
    | ⟨1, _⟩ => exact (lhs_col _ _).trans hk)
  have er : dot_S2000x512_S512x256_S2000x256_1_0_0_1_n_n.rhsIdx (ix2 p q) ((contrEquiv1 dot_S2000x512_S512x256_S2000x256_1_0_0_1_n_n 512 rfl rfl).symm k) = ix2 k q := funext fun a => Fin.ext (by
    match a with
    | ⟨0, _⟩ => exact (rhs_row _ _).trans hk
    | ⟨1, _⟩ => exact rhs_col _ _)
  rw [el, er]
  rfl

/-! ## From the blocks to the array -/

theorem zeros : (![0, 0] : Fin 2 → Nat) = fun _ => 0 := funext fun a => by fin_cases a <;> rfl

/-- What the output array ends holding: the product of the two arrays the call reads, index by index. -/
abbrev prod (H : S50000x512.Idx → EReal) (W : S512x256.Idx → EReal) : S50000x256.Idx → EReal :=
  fun i => ∑ k : Fin 512, H (ix2 (⟨(i 0).val, idx2_lt0 i⟩ : Fin 50000) k) * W (ix2 k (⟨(i 1).val, idx2_lt1 i⟩ : Fin 256))

/-- The printed index maps, decided over the grid: point t stages row block t of H and of the output, all columns; the
    weight matrix whole. -/
theorem index_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

-- The TensorCore's buffer contents when the region is entered (any).
variable (V : (c : Dev nD) → (b : Ref sig .tc) → Buf (Elt Ideal) ((c : Thread nD τ).loc b))

/-- An array read at its literal shape (so that the arithmetic on its entries is the extended reals'). -/
abbrev arr (S : Shape) (f : S.Idx → EReal) : S.Idx → EReal := f

/-- WHAT POINT t WRITES BACK is block t of the product of the arrays as the region finds them. -/
theorem flushed_eq (c : Dev nD) (t : Fin cfg2.N) :
    (dat2 (F := Ideal) V c).flushed 2 t = ((cfg2.win 2).blk t).view.read (Elt Ideal) (prod (arr S50000x512 (V c main_v46)) (arr S512x256 (V c main_arg9))) := by
  show (cfg2.win 2).cut (grid2.coords t) ((dat2 (F := Ideal) V c).after 2 t) = _
  rw [after2_2]
  unfold out2_2
  rw [View.canon_unit_zero zeros]
  simp only [View.ld_unit_zero (S := S2000x512) zeros, View.ld_unit_zero (S := S512x256) zeros]
  obtain ⟨e0, e1, e2, e3, e4, e5⟩ := index_facts t
  funext j
  obtain ⟨p, q, rfl⟩ : ∃ (p : Fin 2000) (q : Fin 256), j = ix2 p q := ⟨j 0, j 1, eq_ix2 j⟩
  refine (pay_apply (iblk2 V c 0 t) (iblk2 V c 1 t) p q).trans ?_
  have hrow : ∀ k : Fin 512, (((cfg2.win 0).blk t).view.emb (ix2 p k) : S50000x512.Idx)
      = ix2 (⟨((((cfg2.win 2).blk t).view.emb (ix2 p q) : S50000x256.Idx) 0).val, idx2_lt0 _⟩ : Fin 50000) k := fun k => by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 512 + 1 * k.val = k.val; omega
  have hcol : ∀ k : Fin 512, (((cfg2.win 1).blk t).view.emb (ix2 k q) : S512x256.Idx)
      = ix2 k (⟨((((cfg2.win 2).blk t).view.emb (ix2 p q) : S50000x256.Idx) 1).val, idx2_lt1 _⟩ : Fin 256) := fun k => by
    funext a; apply Fin.ext
    match a with
    | ⟨0, _⟩ => show win2_1.index t (0 : Fin 2) * 512 + 1 * k.val = k.val; omega
    | ⟨1, _⟩ => show win2_1.index t (1 : Fin 2) * 256 + 1 * q.val = win2_2.index t (1 : Fin 2) * 256 + 1 * q.val; omega
  show (∑ k : Fin 512, arr S50000x512 (V c main_v46) (((cfg2.win 0).blk t).view.emb (ix2 p k)) * arr S512x256 (V c main_arg9) (((cfg2.win 1).blk t).view.emb (ix2 k q)))
    = prod (arr S50000x512 (V c main_v46)) (arr S512x256 (V c main_arg9)) (((cfg2.win 2).blk t).view.emb (ix2 p q))
  exact Finset.sum_congr rfl fun k _ => by rw [hrow k, hcol k]

/-- An index of the output array is in point t's block iff each coordinate is in the block's range on its axis. -/
theorem mem_blk (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v47).slice (win2_2.rect t)).set ↔ _
  rw [View.set_slice_whole, Rect.mem_set_unit]
  exact Iff.rfl

/-- THE BLOCKS TILE THE ARRAY: row r is in the block of point r / 2000. -/
theorem covered (i : S50000x256.Idx) :
    ∃ t : Fin cfg2.N, (cfg2.win 2).flush t = true ∧ i ∈ ((cfg2.win 2).blk t).view.set := by
  have hi0 : (i 0).val < 50000 := idx2_lt0 i
  have hi1 : (i 1).val < 256 := idx2_lt1 i
  refine ⟨⟨(i 0).val / 2000, by rw [show cfg2.N = 25 from N_2]; omega⟩, flush2_2 _, ?_⟩
  rw [mem_blk]
  obtain ⟨e0, e1, e2, e3, e4, e5⟩ := index_facts ⟨(i 0).val / 2000, by rw [show cfg2.N = 25 from N_2]; omega⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ (i 0).val ∧ (i 0).val < (i 0).val / 2000 * 2000 + 2000; omega
  | ⟨1, _⟩ => show win2_2.index _ (1 : Fin 2) * 256 ≤ (i 1).val ∧ (i 1).val < win2_2.index _ (1 : Fin 2) * 256 + 256; rw [e5]; omega

/-- THE OUTPUT ARRAY after the call is the product of the two arrays the call reads. -/
theorem final (c : Dev nD) :
    (dat2 (F := Ideal) V c).arrAt 2 cfg2.N = prod (arr S50000x512 (V c main_v46)) (arr S512x256 (V c main_arg9)) :=
  (dat2 (F := Ideal) V c).arrAt_eq_of_cover 2 (prod (arr S50000x512 (V c main_v46)) (arr S512x256 (V c main_arg9))) (fun t _ => flushed_eq V c t) covered

/-- THE OUTPUT ARRAY after the call, read at (p, q). -/
theorem out_apply (c : Dev nD) (p : Fin 50000) (q : Fin 256) :
    ((dat2 (F := Ideal) V c).arrAt 2 cfg2.N : S50000x256.Idx → EReal) (ix2 p q)
      = ∑ k : Fin 512, arr S50000x512 (V c main_v46) (ix2 p k) * arr S512x256 (V c main_arg9) (ix2 k q) := by
  rw [final V c]

end Cert.KernelIdeal.Region2

end
-- ==== Proof.RefStages.lean ====
/-
  The reference's stages as formulas, read at an index.

  The reference computes three graph-convolution layers, a row selection, a projection and a final product. Reading
  its operations one at a time at an index gives each layer's output as a formula in the aggregated array it is
  computed from: with agg the sum of the gathered rows, nd and ns the degree normalisations,
      layer(agg)[p, q] = max(Σ_k (agg[p,k] · nd[p]) · W[k,q] + b[q], 0),
  the first two layers then scaled by ns[p] for the next gather; the projection is enc·Wp + bp and the result is
  Σ_d e[r,d] · proj[s,d] (the transpose only renames the index).
-/
import proofs.«402956_j12043088298541_2_alg».proof.Proof.RefRead
import Idealize.ShloMosaic.Lib.ValueIdx
import Idealize.ShloMosaic.Lib.ValueLayout

noncomputable section

namespace Cert.RefStages

open Cert.ReferenceIdeal Cert.ReferenceIdeal.Gen Cert.ReferenceIdeal.PRead Idealize.ShloMosaic Idealize.ShloMosaic.ValueIdx

/-! ## The composed index maps at an index given by its coordinates

A contraction reads its left operand at (row, k) and its right operand at (k, column); a bias row [n] broadcast through
[1, n] to [m, n] is read at the column; a normalisation column [m, 1] broadcast to [m, n] is read at (row, 0); the
transpose swaps the two coordinates. -/

section Indices

theorem lidx35 (p : Fin 50000) (q k : Fin 512) : lidx_main_v35 (ix2 p q) k = ix2 p k :=
  funext fun a => Fin.ext (by match a with | ⟨0, _⟩ => rfl | ⟨1, _⟩ => rfl)
theorem ridx35 (p : Fin 50000) (q k : Fin 512) : ridx_main_v35 (ix2 p q) k = ix2 k q :=
  funext fun a => Fin.ext (by match a with | ⟨0, _⟩ => rfl | ⟨1, _⟩ => rfl)
theorem idx33 (p : Fin 50000) (k : Fin 512) : idx_main_v33 (ix2 p k) = ix2 p (0 : Fin 1) :=
  funext fun a => Fin.ext (by match a with | ⟨0, _⟩ => rfl | ⟨1, _⟩ => rfl)
theorem idx40 (p : Fin 50000) (q : Fin 512) : idx_main_v40 (ix2 p q) = ix2 p (0 : Fin 1) :=
  funext fun a => Fin.ext (by match a with | ⟨0, _⟩ => rfl | ⟨1, _⟩ => rfl)
theorem idx36_37 (p : Fin 50000) (q : Fin 512) : idx_main_v36 (idx_main_v37 (ix2 p q)) = ix1 q :=
  funext fun a => Fin.ext (by match a with | ⟨0, _⟩ => rfl)

theorem lidx54 (p : Fin 50000) (q k : Fin 512) : lidx_main_v54 (ix2 p q) k = ix2 p k :=
  funext fun a => Fin.ext (by match a with | ⟨0, _⟩ => rfl | ⟨1, _⟩ => rfl)
theorem ridx54 (p : Fin 50000) (q k : Fin 512) : ridx_main_v54 (ix2 p q) k = ix2 k q :=
  funext fun a => Fin.ext (by match a with | ⟨0, _⟩ => rfl | ⟨1, _⟩ => rfl)
theorem idx52 (p : Fin 50000) (k : Fin 512) : idx_main_v52 (ix2 p k) = ix2 p (0 : Fin 1) :=
  funext fun a => Fin.ext (by match a with | ⟨0, _⟩ => rfl | ⟨1, _⟩ => rfl)
theorem idx59 (p : Fin 50000) (q : Fin 512) : idx_main_v59 (ix2 p q) = ix2 p (0 : Fin 1) :=
  funext fun a => Fin.ext (by match a with | ⟨0, _⟩ => rfl | ⟨1, _⟩ => rfl)
theorem idx55_56 (p : Fin 50000) (q : Fin 512) : idx_main_v55 (idx_main_v56 (ix2 p q)) = ix1 q :=
  funext fun a => Fin.ext (by match a with | ⟨0, _⟩ => rfl)

theorem lidx73 (p : Fin 50000) (q : Fin 256) (k : Fin 512) : lidx_main_v73 (ix2 p q) k = ix2 p k :=
  funext fun a => Fin.ext (by match a with | ⟨0, _⟩ => rfl | ⟨1, _⟩ => rfl)
theorem ridx73 (p : Fin 50000) (q : Fin 256) (k : Fin 512) : ridx_main_v73 (ix2 p q) k = ix2 k q :=
  funext fun a => Fin.ext (by match a with | ⟨0, _⟩ => rfl | ⟨1, _⟩ => rfl)
theorem idx71 (p : Fin 50000) (k : Fin 512) : idx_main_v71 (ix2 p k) = ix2 p (0 : Fin 1) :=
  funext fun a => Fin.ext (by match a with | ⟨0, _⟩ => rfl | ⟨1, _⟩ => rfl)
theorem idx74_75 (p : Fin 50000) (q : Fin 256) : idx_main_v74 (idx_main_v75 (ix2 p q)) = ix1 q :=
  funext fun a => Fin.ext (by match a with | ⟨0, _⟩ => rfl)

theorem lidx85 (s : Fin 8192) (d : Fin 128) (k : Fin 256) : lidx_main_v85 (ix2 s d) k = ix2 s k :=
  funext fun a => Fin.ext (by match a with | ⟨0, _⟩ => rfl | ⟨1, _⟩ => rfl)
theorem ridx85 (s : Fin 8192) (d : Fin 128) (k : Fin 256) : ridx_main_v85 (ix2 s d) k = ix2 k d :=
  funext fun a => Fin.ext (by match a with | ⟨0, _⟩ => rfl | ⟨1, _⟩ => rfl)
theorem idx86_87 (s : Fin 8192) (d : Fin 128) : idx_main_v86 (idx_main_v87 (ix2 s d)) = ix1 d :=
  funext fun a => Fin.ext (by match a with | ⟨0, _⟩ => rfl)

theorem lidx97 (r : Fin 1024) (s : Fin 8192) (d : Fin 128) : lidx_main_v97 (ix2 r s) d = ix2 r d :=
  funext fun a => Fin.ext (by match a with | ⟨0, _⟩ => rfl | ⟨1, _⟩ => rfl)
theorem idx96_ridx97 (r : Fin 1024) (s : Fin 8192) (d : Fin 128) :
    idx_main_v96 (ridx_main_v97 (ix2 r s) d) = ix2 s d :=
  funext fun a => Fin.ext (by match a with | ⟨0, _⟩ => rfl | ⟨1, _⟩ => rfl)

end Indices

variable (x0 : (⟨S50000x512, .f32⟩ : BufTy).Contents (Elt Ideal)) (x1 x2 : (⟨S400000, .i32⟩ : BufTy).Contents (Elt Ideal)) (x3 : (⟨S8192, .i32⟩ : BufTy).Contents (Elt Ideal)) (x4 : (⟨S1024, .i32⟩ : BufTy).Contents (Elt Ideal))
    (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal))
    (x9 : (⟨S512x256, .f32⟩ : BufTy).Contents (Elt Ideal)) (x10 : (⟨S256, .f32⟩ : BufTy).Contents (Elt Ideal)) (x11 : (⟨S256x128, .f32⟩ : BufTy).Contents (Elt Ideal)) (x12 : (⟨S128, .f32⟩ : BufTy).Contents (Elt Ideal))
    (x13 : (⟨S1000x128, .f32⟩ : BufTy).Contents (Elt Ideal))

/-- The first layer's output scaled by the source normalisation, at (p, q). -/
theorem v41_apply (p : Fin 50000) (q : Fin 512) :
    val_main_v41 (F := Ideal) x0 x1 x2 x5 x6 (ix2 p q)
      = max (∑ k : Fin 512, (val_main_v32 (F := Ideal) x0 x1 x2 (ix2 p k) * val_main_v20 (F := Ideal) x2 (ix2 p (0 : Fin 1)))
              * x5 (ix2 k q) + x6 (ix1 q)) 0
          * val_main_v19 (F := Ideal) x1 (ix2 p (0 : Fin 1)) := by
  rw [val_main_v41_apply, val_main_v39_apply, val_main_v38_apply, val_main_v35_apply, val_main_v37_apply,
    val_main_v36_apply, val_main_call2_v0_apply, val_main_call2_cst_apply, val_main_v40_apply]
  simp only [val_main_v34_apply, val_main_v33_apply, lidx35, ridx35, idx33, idx40, idx36_37, Ideal.mulf_def,
    Ideal.addf_def, Ideal.maximumf_def, Ideal.ofBits_def, Ideal.ofBits_zero_f32]

/-- The second layer's output scaled by the source normalisation, at (p, q). -/
theorem v60_apply (p : Fin 50000) (q : Fin 512) :
    val_main_v60 (F := Ideal) x0 x1 x2 x5 x6 x7 x8 (ix2 p q)
      = max (∑ k : Fin 512, (val_main_v51 (F := Ideal) x0 x1 x2 x5 x6 (ix2 p k) * val_main_v20 (F := Ideal) x2 (ix2 p (0 : Fin 1)))
              * x7 (ix2 k q) + x8 (ix1 q)) 0
          * val_main_v19 (F := Ideal) x1 (ix2 p (0 : Fin 1)) := by
  rw [val_main_v60_apply, val_main_v58_apply, val_main_v57_apply, val_main_v54_apply, val_main_v56_apply,
    val_main_v55_apply, val_main_call3_v0_apply, val_main_call3_cst_apply, val_main_v59_apply]
  simp only [val_main_v53_apply, val_main_v52_apply, lidx54, ridx54, idx52, idx59, idx55_56, Ideal.mulf_def,
    Ideal.addf_def, Ideal.maximumf_def, Ideal.ofBits_def, Ideal.ofBits_zero_f32]

/-- The third layer's output, at (p, q). -/
theorem v77_apply (p : Fin 50000) (q : Fin 256) :
    val_main_v77 (F := Ideal) x0 x1 x2 x5 x6 x7 x8 x9 x10 (ix2 p q)
      = max (∑ k : Fin 512, (val_main_v70 (F := Ideal) x0 x1 x2 x5 x6 x7 x8 (ix2 p k) * val_main_v20 (F := Ideal) x2 (ix2 p (0 : Fin 1)))
              * x9 (ix2 k q) + x10 (ix1 q)) 0 := by
  rw [val_main_v77_apply, val_main_v76_apply, val_main_v73_apply, val_main_v75_apply, val_main_v74_apply,
    val_main_call4_v0_apply, val_main_call4_cst_apply]
  simp only [val_main_v72_apply, val_main_v71_apply, lidx73, ridx73, idx71, idx74_75, Ideal.mulf_def,
    Ideal.addf_def, Ideal.maximumf_def, Ideal.ofBits_def, Ideal.ofBits_zero_f32]

/-- The projection of the selected rows, at (s, d). -/
theorem v88_apply (s : Fin 8192) (d : Fin 128) :
    val_main_v88 (F := Ideal) x0 x1 x2 x3 x5 x6 x7 x8 x9 x10 x11 x12 (ix2 s d)
      = ∑ k : Fin 256, val_main_v84 (F := Ideal) x0 x1 x2 x3 x5 x6 x7 x8 x9 x10 (ix2 s k) * x11 (ix2 k d) + x12 (ix1 d) := by
  rw [val_main_v88_apply, val_main_v85_apply, val_main_v87_apply, val_main_v86_apply]
  simp only [lidx85, ridx85, idx86_87, Ideal.addf_def]

/-- The result, at (r, s). -/
theorem v97_apply (r : Fin 1024) (s : Fin 8192) :
    val_main_v97 (F := Ideal) x0 x1 x2 x3 x4 x5 x6 x7 x8 x9 x10 x11 x12 x13 (ix2 r s)
      = ∑ d : Fin 128, val_main_v95 (F := Ideal) x4 x13 (ix2 r d)
          * val_main_v88 (F := Ideal) x0 x1 x2 x3 x5 x6 x7 x8 x9 x10 x11 x12 (ix2 s d) := by
  rw [val_main_v97_apply]
  simp only [val_main_v96_apply, lidx97, idx96_ridx97]

end Cert.RefStages

end
-- ==== Proof.KFront.lean ====
/-
  The idealized kernel program up to its third pallas_call, read against the reference's stages.

  @main's buffer contents at each boundary between stretches of host operations and pallas_calls are a fold from the
  launch memory. The host operations before the first call are the reference's own (the degree normalisations, the
  first layer's gather and accumulating scatter), so the arrays the first call reads are the reference's stages; the
  first call's output is then the reference's first layer scaled by the source normalisation, the host stretch after
  it repeats the reference's second aggregation, the second call gives the second layer, and the third call
  multiplies it by the third layer's weights.
-/
import proofs.«402956_j12043088298541_2_alg».proof.Proof.Gen.KernelIdeal.Frame
import proofs.«402956_j12043088298541_2_alg».proof.Proof.KArgs
import proofs.«402956_j12043088298541_2_alg».proof.Proof.KFront0
import proofs.«402956_j12043088298541_2_alg».proof.Proof.Region0
import proofs.«402956_j12043088298541_2_alg».proof.Proof.Region1
import proofs.«402956_j12043088298541_2_alg».proof.Proof.Region2
import proofs.«402956_j12043088298541_2_alg».proof.Proof.RefRead
import proofs.«402956_j12043088298541_2_alg».proof.Proof.RefStages
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KFront

open Cert.KernelIdeal Cert.KernelIdeal.Gen
open Idealize.ShloMosaic Idealize.ShloMosaic.TcCoe Idealize.ShloMosaic.ValueIdx Idealize.SL.Sem Idealize.ShloMosaic.StableHlo
open Cert.RealVal

-- the launch memory and generator registers (any)
variable (m : (ℓ : Loc nD τ sig) → Buf (Elt Ideal) ℓ) (ρ : Dev nD → PrngReg)

open Cert.KernelIdeal.KArgs Cert.ReferenceIdeal.PRead Cert.KernelIdeal.KFront0

/-! ## The argument arrays through the three calls

A call leaves a buffer that is not one of its arrays as it was, and an array it only reads as it found it. -/

/-- Across the first call (it reads the first layer's weights). -/
theorem W6_args (c : Dev nD) : args.Forall fun b => W6 m ρ c (Proc.devRef .tc b) = W5 m ρ c (Proc.devRef .tc b) := by
  simp only [args, List.Forall]
  refine ⟨?_, ?_, ?_, ?_, ?_, ?_, ?_, ?_, ?_, ?_, ?_, ?_, ?_, ?_⟩ <;>
    first
    | exact W6_of_ne m ρ c _ (by decide)
    | exact (W6_arr m ρ c 2).trans (((dat0 (V5 m ρ) c).arrAt_in 2 rfl _).trans (A_eq0 (V5 m ρ) c 2))
/-- Across the host stretch between the first two calls. -/
theorem W7_args (c : Dev nD) : args.Forall fun b => W7 m ρ c (Proc.devRef .tc b) = W6 m ρ c (Proc.devRef .tc b) := by
  simp only [args, List.Forall]
  refine ⟨?_, ?_, ?_, ?_, ?_, ?_, ?_, ?_, ?_, ?_, ?_, ?_, ?_, ?_⟩ <;> carry_host
/-- Across the second call (it reads the second layer's weights). -/
theorem W8_args (c : Dev nD) : args.Forall fun b => W8 m ρ c (Proc.devRef .tc b) = W7 m ρ c (Proc.devRef .tc b) := by
  simp only [args, List.Forall]
  refine ⟨?_, ?_, ?_, ?_, ?_, ?_, ?_, ?_, ?_, ?_, ?_, ?_, ?_, ?_⟩ <;>
    first
    | exact W8_of_ne m ρ c _ (by decide)
    | exact (W8_arr m ρ c 2).trans (((dat1 (V7 m ρ) c).arrAt_in 2 rfl _).trans (A_eq1 (V7 m ρ) c 2))
/-- Across the third call (it reads the third layer's weights). -/
theorem W9_args (c : Dev nD) : args.Forall fun b => W9 m ρ c (Proc.devRef .tc b) = W8 m ρ c (Proc.devRef .tc b) := by
  simp only [args, List.Forall]
  refine ⟨?_, ?_, ?_, ?_, ?_, ?_, ?_, ?_, ?_, ?_, ?_, ?_, ?_, ?_⟩ <;>
    first
    | exact W9_of_ne m ρ c _ (by decide)
    | exact (W9_arr m ρ c 1).trans (((dat2 (V8 m ρ) c).arrAt_in 1 rfl _).trans (A_eq2 (V8 m ρ) c 1))

/-- An argument array is as launched after the first call … -/
theorem W6_arg (c : Dev nD) (b : Ref sig .tc) (hb : b ∈ args) :
    W6 m ρ c (Proc.devRef .tc b) = m ((c.tc : Thread nD τ).loc b) :=
  (List.forall_iff_forall_mem.mp (W6_args m ρ c) b hb).trans (W5_arg m ρ c b hb)
/-- … at the second call's entry … -/
theorem W7_arg (c : Dev nD) (b : Ref sig .tc) (hb : b ∈ args) :
    W7 m ρ c (Proc.devRef .tc b) = m ((c.tc : Thread nD τ).loc b) :=
  (List.forall_iff_forall_mem.mp (W7_args m ρ c) b hb).trans (W6_arg m ρ c b hb)
/-- … after the second call … -/
theorem W8_arg (c : Dev nD) (b : Ref sig .tc) (hb : b ∈ args) :
    W8 m ρ c (Proc.devRef .tc b) = m ((c.tc : Thread nD τ).loc b) :=
  (List.forall_iff_forall_mem.mp (W8_args m ρ c) b hb).trans (W7_arg m ρ c b hb)
/-- … and after the third. -/
theorem W9_arg (c : Dev nD) (b : Ref sig .tc) (hb : b ∈ args) :
    W9 m ρ c (Proc.devRef .tc b) = m ((c.tc : Thread nD τ).loc b) :=
  (List.forall_iff_forall_mem.mp (W9_args m ρ c) b hb).trans (W8_arg m ρ c b hb)

/-! ## The first call -/

/-- The first call only reads the two normalisation columns. -/
theorem W6_v20 (c : Dev nD) : (W6 m ρ c (Proc.devRef .tc main_v20) : S50000x1.Idx → EReal) = val_main_v20 (F := Ideal) (a2 m c) :=
  ((W6_arr m ρ c 1).trans (((dat0 (V5 m ρ) c).arrAt_in 1 rfl _).trans (A_eq0 (V5 m ρ) c 1))).trans (W5_v20 m ρ c)
theorem W6_v19 (c : Dev nD) : (W6 m ρ c (Proc.devRef .tc main_v19) : S50000x1.Idx → EReal) = val_main_v19 (F := Ideal) (a1 m c) :=
  ((W6_arr m ρ c 4).trans (((dat0 (V5 m ρ) c).arrAt_in 4 rfl _).trans (A_eq0 (V5 m ρ) c 4))).trans (W5_v19 m ρ c)

/-- THE FIRST CALL'S OUTPUT is the reference's first layer scaled by the source normalisation. -/
theorem W6_v34 (c : Dev nD) :
    (W6 m ρ c (Proc.devRef .tc main_v34) : S50000x512.Idx → EReal)
      = val_main_v41 (F := Ideal) (a0 m c) (a1 m c) (a2 m c) (a5 m c) (a6 m c) := by
  refine (W6_arr m ρ c 5).trans ?_
  show ((dat0 (F := Ideal) (V5 m ρ) c).arrAt 5 cfg0.N : S50000x512.Idx → EReal) = _
  funext i
  obtain ⟨p, q, rfl⟩ : ∃ (p : Fin 50000) (q : Fin 512), i = ix2 p q := ⟨i 0, i 1, eq_ix2 i⟩
  refine (Region0.out_apply (V5 m ρ) c p q).trans ?_
  rw [Cert.RefStages.v41_apply]
  have e32 : V5 m ρ c main_v32 = val_main_v32 (F := Ideal) (a0 m c) (a1 m c) (a2 m c) := W5_v32 m ρ c
  have e20 : V5 m ρ c main_v20 = val_main_v20 (F := Ideal) (a2 m c) := W5_v20 m ρ c
  have e19 : V5 m ρ c main_v19 = val_main_v19 (F := Ideal) (a1 m c) := W5_v19 m ρ c
  have e5 : V5 m ρ c main_arg5 = a5 m c := W5_arg m ρ c main_arg5 (by decide)
  have e33 : (V5 m ρ c main_v33 : S1x512.Idx → EReal) (ix2 (0 : Fin 1) q) = a6 m c (ix1 q) :=
    (congrFun (W5_v33 m ρ c) (ix2 (0 : Fin 1) q)).trans (shapeCast_a_1a_apply _ _ _ _)
  simp only [Region0.arr]
  rw [e32, e20, e19, e5, e33]

/-! ## The host stretch between the first two calls -/

/-- The second layer's aggregated features. -/
theorem W7_v44 (c : Dev nD) :
    (W7 m ρ c (Proc.devRef .tc main_v44) : S50000x512.Idx → EReal)
      = val_main_v51 (F := Ideal) (a0 m c) (a1 m c) (a2 m c) (a5 m c) (a6 m c) :=
  h1_v44 (W6 m ρ c) _ _ _ _ _ (W6_v34 m ρ c) (W6_arg m ρ c main_arg1 (by decide)) (W6_arg m ρ c main_arg2 (by decide))
/-- The second bias as a row. -/
theorem W7_v45 (c : Dev nD) (q : Fin 512) :
    (W7 m ρ c (Proc.devRef .tc main_v45) : S1x512.Idx → EReal) (ix2 (0 : Fin 1) q) = a8 m c (ix1 q) :=
  (congrFun (h1_v45 (W6 m ρ c)) (ix2 (0 : Fin 1) q)).trans
    ((shapeCast_a_1a_apply _ _ _ _).trans (congrFun (W6_arg m ρ c main_arg8 (by decide)) (ix1 q)))
/-- The normalisation columns are not written. -/
theorem W7_v20 (c : Dev nD) : (W7 m ρ c (Proc.devRef .tc main_v20) : S50000x1.Idx → EReal) = val_main_v20 (F := Ideal) (a2 m c) :=
  (by carry_host : W7 m ρ c (Proc.devRef .tc main_v20) = W6 m ρ c (Proc.devRef .tc main_v20)).trans (W6_v20 m ρ c)
theorem W7_v19 (c : Dev nD) : (W7 m ρ c (Proc.devRef .tc main_v19) : S50000x1.Idx → EReal) = val_main_v19 (F := Ideal) (a1 m c) :=
  (by carry_host : W7 m ρ c (Proc.devRef .tc main_v19) = W6 m ρ c (Proc.devRef .tc main_v19)).trans (W6_v19 m ρ c)

/-! ## The second call -/

/-- The second call only reads the destination normalisation column. -/
theorem W8_v20 (c : Dev nD) : (W8 m ρ c (Proc.devRef .tc main_v20) : S50000x1.Idx → EReal) = val_main_v20 (F := Ideal) (a2 m c) :=
  ((W8_arr m ρ c 1).trans (((dat1 (V7 m ρ) c).arrAt_in 1 rfl _).trans (A_eq1 (V7 m ρ) c 1))).trans (W7_v20 m ρ c)

/-- THE SECOND CALL'S OUTPUT is the reference's second layer scaled by the source normalisation. -/
theorem W8_v46 (c : Dev nD) :
    (W8 m ρ c (Proc.devRef .tc main_v46) : S50000x512.Idx → EReal)
      = val_main_v60 (F := Ideal) (a0 m c) (a1 m c) (a2 m c) (a5 m c) (a6 m c) (a7 m c) (a8 m c) := by
  refine (W8_arr m ρ c 5).trans ?_
  show ((dat1 (F := Ideal) (V7 m ρ) c).arrAt 5 cfg1.N : S50000x512.Idx → EReal) = _
  funext i
  obtain ⟨p, q, rfl⟩ : ∃ (p : Fin 50000) (q : Fin 512), i = ix2 p q := ⟨i 0, i 1, eq_ix2 i⟩
  refine (Region1.out_apply (V7 m ρ) c p q).trans ?_
  rw [Cert.RefStages.v60_apply]
  have e44 : V7 m ρ c main_v44 = val_main_v51 (F := Ideal) (a0 m c) (a1 m c) (a2 m c) (a5 m c) (a6 m c) := W7_v44 m ρ c
  have e20 : V7 m ρ c main_v20 = val_main_v20 (F := Ideal) (a2 m c) := W7_v20 m ρ c
  have e19 : V7 m ρ c main_v19 = val_main_v19 (F := Ideal) (a1 m c) := W7_v19 m ρ c
  have e7 : V7 m ρ c main_arg7 = a7 m c := W7_arg m ρ c main_arg7 (by decide)
  have e45 : (V7 m ρ c main_v45 : S1x512.Idx → EReal) (ix2 (0 : Fin 1) q) = a8 m c (ix1 q) := W7_v45 m ρ c q
  simp only [Region1.arr]
  rw [e44, e20, e19, e7, e45]

/-! ## The third call -/

/-- The third call's output, at (p, q): the second layer's scaled output times the third layer's weights. -/
theorem v47_apply (c : Dev nD) (p : Fin 50000) (q : Fin 256) :
    (W9 m ρ c (Proc.devRef .tc main_v47) : S50000x256.Idx → EReal) (ix2 p q)
      = ∑ k : Fin 512, val_main_v60 (F := Ideal) (a0 m c) (a1 m c) (a2 m c) (a5 m c) (a6 m c) (a7 m c) (a8 m c) (ix2 p k) * a9 m c (ix2 k q) := by
  refine (congrFun (W9_arr m ρ c 2) (ix2 p q)).trans ?_
  refine (Region2.out_apply (V8 m ρ) c p q).trans ?_
  have e46 : V8 m ρ c main_v46 = val_main_v60 (F := Ideal) (a0 m c) (a1 m c) (a2 m c) (a5 m c) (a6 m c) (a7 m c) (a8 m c) := W8_v46 m ρ c
  have e9 : V8 m ρ c main_arg9 = a9 m c := W8_arg m ρ c main_arg9 (by decide)
  rw [e46, e9]

/-- The destination normalisation column is still the reference's after the third call. -/
theorem W9_v20 (c : Dev nD) :
    (W9 m ρ c (Proc.devRef .tc main_v20) : S50000x1.Idx → EReal) = val_main_v20 (F := Ideal) (a2 m c) :=
  (W9_of_ne m ρ c main_v20 (by decide)).trans (W8_v20 m ρ c)

/-- The arguments read later are as launched after the third call. -/
theorem W9_arg1 (c : Dev nD) : (W9 m ρ c (Proc.devRef .tc main_arg1) : S400000.Idx → BitVec 32) = a1 m c :=
  W9_arg m ρ c main_arg1 (by decide)
theorem W9_arg2 (c : Dev nD) : (W9 m ρ c (Proc.devRef .tc main_arg2) : S400000.Idx → BitVec 32) = a2 m c :=
  W9_arg m ρ c main_arg2 (by decide)
theorem W9_arg3 (c : Dev nD) : (W9 m ρ c (Proc.devRef .tc main_arg3) : S8192.Idx → BitVec 32) = a3 m c :=
  W9_arg m ρ c main_arg3 (by decide)
theorem W9_arg4 (c : Dev nD) : (W9 m ρ c (Proc.devRef .tc main_arg4) : S1024.Idx → BitVec 32) = a4 m c :=
  W9_arg m ρ c main_arg4 (by decide)
theorem W9_arg10 (c : Dev nD) : (W9 m ρ c (Proc.devRef .tc main_arg10) : S256.Idx → EReal) = a10 m c :=
  W9_arg m ρ c main_arg10 (by decide)
theorem W9_arg11 (c : Dev nD) : (W9 m ρ c (Proc.devRef .tc main_arg11) : S256x128.Idx → EReal) = a11 m c :=
  W9_arg m ρ c main_arg11 (by decide)
theorem W9_arg12 (c : Dev nD) : (W9 m ρ c (Proc.devRef .tc main_arg12) : S128.Idx → EReal) = a12 m c :=
  W9_arg m ρ c main_arg12 (by decide)
theorem W9_arg13 (c : Dev nD) : (W9 m ρ c (Proc.devRef .tc main_arg13) : S1000x128.Idx → EReal) = a13 m c :=
  W9_arg m ρ c main_arg13 (by decide)

end Cert.KernelIdeal.KFront

end
-- ==== Proof.Region4.lean ====
/-
  The embedding lookup as a one-hot matrix product, as one function of the arrays it reads.

  The call has one grid point: it stages the whole index column idx [1024, 1] (32-bit integers) and the whole table
  emb [1000, 128] and writes the whole output [1024, 128]. The body compares idx[r] with the column numbers 0 … 999,
  turns the comparison into 1.0 / 0.0 and multiplies that one-hot row into the table. Over the extended reals
  Σ_k [idx[r] = k] · emb[k, d] has at most one non-zero term: for an index word whose signed value is a row number
  n < 1000 it is emb[n, d] (0 · x = 0 for every extended real x, and a sum of zeros and one term is that term).
-/
import proofs.«402956_j12043088298541_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The one-hot entry -/

/-- The one-hot entry of an index word `w` at column `k`: the bit "w is column k's word", widened to a word and read
    as a signed integer, as an extended real. -/
def hot (w : BitVec 32) (k : Fin 1000) : EReal :=
  ((((IntOp.cmpi .eq w (BitVec.ofNat 32 k.val)).setWidth 32).toInt : ℝ) : EReal)

/-- Row numbers below 1000 have distinct 32-bit words. -/
theorem word_inj (n k : Fin 1000) (h : BitVec.ofNat 32 k.val = BitVec.ofNat 32 n.val) : k = n := by
  have e := congrArg BitVec.toNat h
  rw [BitVec.toNat_ofNat, BitVec.toNat_ofNat] at e
  have hn := n.isLt
  have hk := k.isLt
  apply Fin.ext
  omega

/-- At its own column the entry is 1 … -/
theorem hot_self (n : Fin 1000) : hot (BitVec.ofNat 32 n.val) n = 1 := by
  unfold hot
  have e : IntOp.cmpi .eq (BitVec.ofNat 32 n.val) (BitVec.ofNat 32 n.val) = 1#1 := by
    simp [IntOp.cmpi]
  rw [e]
  have e1 : ((1#1 : BitVec 1).setWidth 32).toInt = 1 := by decide
  rw [e1]
  norm_cast

/-- … and at every other column it is 0. -/
theorem hot_ne (n k : Fin 1000) (h : k ≠ n) : hot (BitVec.ofNat 32 n.val) k = 0 := by
  unfold hot
  have e : IntOp.cmpi .eq (BitVec.ofNat 32 n.val) (BitVec.ofNat 32 k.val) = 0#1 := by
    have hne : BitVec.ofNat 32 n.val ≠ BitVec.ofNat 32 k.val := fun e => h (word_inj n k e.symm)
    show BitVec.ofBool (BitVec.ofNat 32 n.val == BitVec.ofNat 32 k.val) = 0#1
    rw [beq_eq_false_iff_ne.mpr hne]
    rfl
  rw [e]
  have e0 : ((0#1 : BitVec 1).setWidth 32).toInt = 0 := by decide
  rw [e0]
  norm_cast

/-- A sum of one-hot entries times anything is the term at the hot column: `0 * x = 0` for every extended real. -/
theorem sum_hot (n : Fin 1000) (f : Fin 1000 → EReal) :
    ∑ k : Fin 1000, hot (BitVec.ofNat 32 n.val) k * f k = f n := by
  rw [Finset.sum_eq_single n (fun k _ hk => by rw [hot_ne n k hk, zero_mul])
    (fun hn => absurd (Finset.mem_univ n) hn), hot_self, one_mul]

/-! ## The body's payload at an index -/

/-- The matrix product's left operand index on its row axis is the output's row … -/
theorem lhs_emb_0 (i : S1024x128.Idx) (q : dot_S1024x1000_S1000x128_S1024x128_1_0_0_1_n_n.contr.Idx) :
    (dot_S1024x1000_S1000x128_S1024x128_1_0_0_1_n_n.lhsIdx i q 0).val = (i 0).val := by
  unfold DotDims.lhsIdx
  rw [dif_neg (show ¬(0 : Fin S1024x1000.rank) ∈ dot_S1024x1000_S1000x128_S1024x128_1_0_0_1_n_n.lhsBatch by decide), dif_pos (show (0 : Fin S1024x1000.rank) ∈ dot_S1024x1000_S1000x128_S1024x128_1_0_0_1_n_n.lhsNonContracting by decide)]
  rfl
/-- … and on its column axis the contraction index; -/
theorem lhs_emb_1 (i : S1024x128.Idx) (q : dot_S1024x1000_S1000x128_S1024x128_1_0_0_1_n_n.contr.Idx) :
    (dot_S1024x1000_S1000x128_S1024x128_1_0_0_1_n_n.lhsIdx i q 1).val = (q ⟨0, by decide⟩).val :=
  dot_S1024x1000_S1000x128_S1024x128_1_0_0_1_n_n.lhsIdx_val_of_single rfl i q
/-- the right operand's row axis is the contraction index … -/
theorem rhs_emb_0 (i : S1024x128.Idx) (q : dot_S1024x1000_S1000x128_S1024x128_1_0_0_1_n_n.contr.Idx) :
    (dot_S1024x1000_S1000x128_S1024x128_1_0_0_1_n_n.rhsIdx i q 0).val = (q ⟨0, by decide⟩).val :=
  dot_S1024x1000_S1000x128_S1024x128_1_0_0_1_n_n.rhsIdx_val_of_single rfl i q
/-- … and its column axis the output's column. -/
theorem rhs_emb_1 (i : S1024x128.Idx) (q : dot_S1024x1000_S1000x128_S1024x128_1_0_0_1_n_n.contr.Idx) :
    (dot_S1024x1000_S1000x128_S1024x128_1_0_0_1_n_n.rhsIdx i q 1).val = (i 1).val := by
  unfold DotDims.rhsIdx
  rw [dif_neg (show ¬(1 : Fin S1000x128.rank) ∈ dot_S1024x1000_S1000x128_S1024x128_1_0_0_1_n_n.rhsBatch by decide), dif_pos (show (1 : Fin S1000x128.rank) ∈ dot_S1024x1000_S1000x128_S1024x128_1_0_0_1_n_n.rhsNonContracting by decide)]
  rfl

/-- The one-hot matrix at (r, k): the index column, broadcast along the columns, compared with the column number. -/
theorem onehot_apply (x0 : IVec S1024x1 32) (r : Fin 1024) (k : Fin 1000) :
    (sitofp .f32 (extui 32 (cmpi .eq (broadcastTo S1024x1000 x0 broadcasts_S1024x1_S1024x1000)
        (iota .tc S1024x1000 32 [1] iota_S1024x1000_d1_w32)) natLt_1_32) : FVec Ideal S1024x1000 .f32) (ix2 r k)
      = hot (x0 (ix2 r (0 : Fin 1))) k := by
  show ((((IntOp.cmpi .eq (broadcastTo S1024x1000 x0 broadcasts_S1024x1_S1024x1000 (ix2 r k))
      (iota .tc S1024x1000 32 [1] iota_S1024x1000_d1_w32 (ix2 r k))).setWidth 32).toInt : ℝ) : EReal) = _
  rw [iota_single_apply, broadcastTo_apply x0 broadcasts_S1024x1_S1024x1000 (ix2 r k) (ix2 r (0 : Fin 1)) (fun a => match a with
    | ⟨0, _⟩ => by show r.val = if (1024 : Nat) = 1 then 0 else r.val; rw [if_neg (by decide)]
    | ⟨1, _⟩ => by show 0 = if (1 : Nat) = 1 then 0 else k.val; rw [if_pos rfl])]
  rfl

/-- THE PAYLOAD AT (r, d): the sum over the table's rows k of the one-hot entry of row r's index word at k times
    the table's entry (k, d). -/
theorem pay_apply (x0 : Vec Ideal S1024x1 .i32) (x1 : Vec Ideal S1000x128 .f32) (r : Fin 1024) (d : Fin 128) :
    (k4_pay1 (F := Ideal) x0 x1 : S1024x128.Idx → EReal) (ix2 r d)
      = ∑ k : Fin 1000, hot ((x0 : S1024x1.Idx → BitVec 32) (ix2 r (0 : Fin 1))) k * (x1 : S1000x128.Idx → EReal) (ix2 k d) := by
  unfold k4_pay1
  dsimp only
  rw [shapeCast_self]
  simp only [matmul]
  rw [Ideal.matmul_constant_zero_apply, ← Equiv.sum_comp (contrEquiv1 dot_S1024x1000_S1000x128_S1024x128_1_0_0_1_n_n 1000 rfl rfl).symm]
  refine Finset.sum_congr rfl fun k _ => ?_
  have hk := contrEquiv1_symm_val dot_S1024x1000_S1000x128_S1024x128_1_0_0_1_n_n 1000 rfl rfl k
  have el : dot_S1024x1000_S1000x128_S1024x128_1_0_0_1_n_n.lhsIdx (ix2 r d) ((contrEquiv1 dot_S1024x1000_S1000x128_S1024x128_1_0_0_1_n_n 1000 rfl rfl).symm k) = ix2 r k := funext fun a => Fin.ext (by
    match a with
    | ⟨0, _⟩ => exact lhs_emb_0 _ _
    | ⟨1, _⟩ => exact (lhs_emb_1 _ _).trans hk)
  have er : dot_S1024x1000_S1000x128_S1024x128_1_0_0_1_n_n.rhsIdx (ix2 r d) ((contrEquiv1 dot_S1024x1000_S1000x128_S1024x128_1_0_0_1_n_n 1000 rfl rfl).symm k) = ix2 k d := funext fun a => Fin.ext (by
    match a with
    | ⟨0, _⟩ => exact (rhs_emb_0 _ _).trans hk
    | ⟨1, _⟩ => exact rhs_emb_1 _ _)
  rw [el, er, truncf_apply, truncf_apply, onehot_apply]

/-! ## From the one block to the array -/

/-- The lookup at (r, d) as a function of the index column and the table: the one-hot row of r's index word times
    the table's column d. -/
def look (idx : S1024x1.Idx → BitVec 32) (emb : S1000x128.Idx → EReal) (r : Fin 1024) (d : Fin 128) : EReal :=
  ∑ k : Fin 1000, hot (idx (ix2 r (0 : Fin 1))) k * emb (ix2 k d)

/-- What the output array ends holding: the lookup, index by index. -/
def lookup (idx : S1024x1.Idx → BitVec 32) (emb : S1000x128.Idx → EReal) : S1024x128.Idx → EReal :=
  fun i => look idx emb (i 0) (i 1)

/-- The body's payload is the lookup of its loaded blocks. -/
theorem pay_eq (x0 : Vec Ideal S1024x1 .i32) (x1 : Vec Ideal S1000x128 .f32) :
    k4_pay1 (F := Ideal) x0 x1 = lookup x0 x1 := by
  funext j
  obtain ⟨p, q, rfl⟩ : ∃ (p : Fin 1024) (q : Fin 128), j = ix2 p q := ⟨j 0, j 1, eq_ix2 j⟩
  exact pay_apply x0 x1 p q

theorem zero_off : (![0, 0] : Fin 2 → Nat) = fun _ => 0 := funext fun a => by fin_cases a <;> rfl

/-- The printed index maps, decided over the grid: every window's block index is 0 on both axes (each block is its
    whole array). -/
theorem idx_zero : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

-- The TensorCore's buffer contents when the region is entered (any).
variable (V : (c : Dev nD) → (b : Ref sig .tc) → Buf (Elt Ideal) ((c : Thread nD τ).loc b))

/-- The index window's block is the whole index column … -/
theorem idx_blk (c : Dev nD) (t : Fin cfg4.N) : iblk4 V c 0 t = V c main_v74 := by
  obtain ⟨e0, e1, -, -, -, -⟩ := idx_zero t
  funext y
  show V c main_v74 (((cfg4.win 0).blk t).view.emb y) = V c main_v74 y
  refine congrArg (V c main_v74) (funext fun a => Fin.ext ?_)
  match a with
  | ⟨0, _⟩ => show win4_0.index t (0 : Fin 2) * 1024 + 1 * (y 0).val = (y 0).val; rw [e0]; omega
  | ⟨1, _⟩ => show win4_0.index t (1 : Fin 2) * 1 + 1 * (y 1).val = (y 1).val; rw [e1]; omega

/-- … and the table window's block the whole table. -/
theorem emb_blk (c : Dev nD) (t : Fin cfg4.N) : iblk4 V c 1 t = V c main_arg13 := by
  obtain ⟨-, -, e0, e1, -, -⟩ := idx_zero t
  funext y
  show V c main_arg13 (((cfg4.win 1).blk t).view.emb y) = V c main_arg13 y
  refine congrArg (V c main_arg13) (funext fun a => Fin.ext ?_)
  match a with
  | ⟨0, _⟩ => show win4_1.index t (0 : Fin 2) * 1000 + 1 * (y 0).val = (y 0).val; rw [e0]; omega
  | ⟨1, _⟩ => show win4_1.index t (1 : Fin 2) * 128 + 1 * (y 1).val = (y 1).val; rw [e1]; omega

/-- WHAT POINT `t` WRITES BACK is block `t` of the lookup of the arrays as the region finds them. -/
theorem flushed_eq (c : Dev nD) (t : Fin cfg4.N) :
    (dat4 (F := Ideal) V c).flushed 2 t
      = ((cfg4.win 2).blk t).view.read (Elt Ideal) (lookup (V c main_v74) (V c main_arg13)) := by
  show (cfg4.win 2).cut (grid4.coords t) ((dat4 V c).after 2 t) = _
  rw [after4_2]
  unfold out4_2
  rw [View.canon_unit_zero zero_off]
  simp only [View.ld_unit_zero (S := S1024x1) zero_off, View.ld_unit_zero (S := S1000x128) zero_off]
  rw [idx_blk, emb_blk, pay_eq]
  obtain ⟨-, -, -, -, e0, e1⟩ := idx_zero t
  funext j
  show lookup (V c main_v74) (V c main_arg13) j = lookup (V c main_v74) (V c main_arg13) (((cfg4.win 2).blk t).view.emb j)
  refine congrArg (lookup (V c main_v74) (V c main_arg13)) (funext fun a => Fin.ext ?_)
  match a with
  | ⟨0, _⟩ => show (j 0).val = win4_2.index t (0 : Fin 2) * 1024 + 1 * (j 0).val; rw [e0]; omega
  | ⟨1, _⟩ => show (j 1).val = win4_2.index t (1 : Fin 2) * 128 + 1 * (j 1).val; rw [e1]; omega

/-- An index of the array is in point `t`'s block iff each coordinate is in the block's range on its axis. -/
theorem mem_blk (t : Fin cfg4.N) (i : S1024x128.Idx) :
    i ∈ ((cfg4.win 2).blk t).view.set ↔ ∀ a : Fin 2, win4_2.index t a * S1024x128.size a ≤ (i a).val ∧ (i a).val < win4_2.index t a * S1024x128.size a + S1024x128.size a := by
  show i ∈ ((View.whole main_v75).slice (win4_2.rect t)).set ↔ _
  rw [View.set_slice_whole, Rect.mem_set_unit]
  exact Iff.rfl

/-- The one point's block holds every index of the array. -/
theorem cover (i : S1024x128.Idx) :
    ∃ t : Fin cfg4.N, (cfg4.win 2).flush t = true ∧ i ∈ ((cfg4.win 2).blk t).view.set := by
  refine ⟨t4_0, flush4_2 t4_0, ?_⟩
  rw [mem_blk]
  obtain ⟨-, -, -, -, e0, e1⟩ := idx_zero t4_0
  have hi0 : (i 0).val < 1024 := idx2_lt0 i
  have hi1 : (i 1).val < 128 := idx2_lt1 i
  intro a
  match a with
  | ⟨0, _⟩ => show win4_2.index t4_0 (0 : Fin 2) * 1024 ≤ (i 0).val ∧ (i 0).val < win4_2.index t4_0 (0 : Fin 2) * 1024 + 1024; omega
  | ⟨1, _⟩ => show win4_2.index t4_0 (1 : Fin 2) * 128 ≤ (i 1).val ∧ (i 1).val < win4_2.index t4_0 (1 : Fin 2) * 128 + 128; omega

/-- THE ARRAY after the call: the lookup of the index column and the table as the region finds them. -/
theorem final (c : Dev nD) :
    (dat4 (F := Ideal) V c).arrAt 2 cfg4.N = lookup (V c main_v74) (V c main_arg13) :=
  (dat4 V c).arrAt_eq_of_cover 2 _ (fun t _ => flushed_eq V c t) cover

/-- THE OUTPUT ARRAY after the call, read at (r, d), when the index word of row r is the row number n < 1000. -/
theorem out_apply (c : Dev nD) (r : Fin 1024) (d : Fin 128) (n : Fin 1000)
    (hn : (V c main_v74 : S1024x1.Idx → BitVec 32) (ix2 r (0 : Fin 1)) = BitVec.ofNat 32 n.val) :
    ((dat4 (F := Ideal) V c).arrAt 2 cfg4.N : S1024x128.Idx → EReal) (ix2 r d)
      = (V c main_arg13 : S1000x128.Idx → EReal) (ix2 n d) := by
  rw [final]
  show look (V c main_v74) (V c main_arg13) r d = _
  unfold look
  rw [hn, sum_hot]

end Cert.KernelIdeal.Region4

end
-- ==== Proof.Region5.lean ====
/-
  The final contraction e · projᵀ, as one function of the arrays it reads.

  The call's grid has 8 points; point t stages the whole embedding block e [1024, 128] and rows 1024·t … 1024·t + 1023
  of proj [8192, 128], and writes back columns 1024·t … 1024·t + 1023 of the output [1024, 8192]. Over the extended reals
  the body's value at row r, column s of the whole output is Σ_d e[r,d] · proj[s,d] (both operands contracted on their
  second axis). The 8 column blocks tile the output array.
-/
import proofs.«402956_j12043088298541_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- An array of extended reals, named at its literal shape. -/
abbrev arr (S : Shape) (f : S.Idx → EReal) : S.Idx → EReal := f

/-! ## The contraction's operand indices -/

/-- The left operand's row is the output's row. -/
theorem lhs_final_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
/-- The left operand's column is the contraction position. -/
theorem lhs_final_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
/-- The right operand's row is the output's column. -/
theorem rhs_final_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
/-- The right operand's column is the contraction position. -/
theorem rhs_final_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-! ## The body's value at an element of the block -/

/-- Element (r, s') of the block the body stores: Σ_d e[r,d] · p[s',d], both operands contracted on their second axis
    (the format changes are the identity on extended reals and the accumulator starts at zero). -/
theorem pay_apply (x0 x1 : FVec Ideal S1024x128 .f32) (j : S1024x1024.Idx) :
    k5_pay1 (F := Ideal) x0 x1 j
      = ∑ d : Fin 128, x0 (ix2 (n0 := 1024) (n1 := 128) ⟨(j 0).val, idx2_lt0 j⟩ d) * x1 (ix2 (n0 := 1024) (n1 := 128) ⟨(j 1).val, idx2_lt1 j⟩ d) := by
  unfold k5_pay1
  refine (Ideal.matmul_constant_zero_apply dot_S1024x128_S1024x128_S1024x1024_1_1_0_0_n_n none _ _ j).trans ?_
  rw [← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx j ((contrEquiv1 dot_S1024x128_S1024x128_S1024x1024_1_1_0_0_n_n 128 rfl rfl).symm k) = ix2 (n0 := 1024) (n1 := 128) ⟨(j 0).val, idx2_lt0 j⟩ k := funext fun a => Fin.ext (by
    match a with
    | ⟨0, _⟩ => exact lhs_final_0 _ _
    | ⟨1, _⟩ => exact (lhs_final_1 _ _).trans hk)
  have er : dot_S1024x128_S1024x128_S1024x1024_1_1_0_0_n_n.rhsIdx j ((contrEquiv1 dot_S1024x128_S1024x128_S1024x1024_1_1_0_0_n_n 128 rfl rfl).symm k) = ix2 (n0 := 1024) (n1 := 128) ⟨(j 1).val, idx2_lt1 j⟩ k := funext fun a => Fin.ext (by
    match a with
    | ⟨0, _⟩ => exact rhs_final_0 _ _
    | ⟨1, _⟩ => exact (rhs_final_1 _ _).trans hk)
  rw [el, er, truncf_apply, truncf_apply, shapeCast_self, shapeCast_self]

/-! ## From the blocks to the array -/

-- The TensorCore's buffer contents when the region is entered (any).
variable (V : (c : Dev nD) → (b : Ref sig .tc) → Buf (Elt Ideal) ((c : Thread nD τ).loc b))

theorem zero_offsets : (![0, 0] : Fin 2 → Nat) = fun _ => 0 := funext fun a => by fin_cases a <;> rfl

/-- What the output array ends holding: row r, column s is Σ_d e[r,d] · p[s,d]. -/
abbrev G (e : S1024x128.Idx → EReal) (p : S8192x128.Idx → EReal) : S1024x8192.Idx → EReal :=
  fun i => ∑ d : Fin 128, e (ix2 (n0 := 1024) (n1 := 128) ⟨(i 0).val, idx2_lt0 i⟩ d) * p (ix2 (n0 := 8192) (n1 := 128) ⟨(i 1).val, idx2_lt1 i⟩ d)

/-- The index maps, decided over the 8 grid points: the embedding block is always block (0, 0); the projection's row
    block is the output's column block; the output's row block is 0 and its column block is below 8. -/
theorem idx_facts : ∀ t : Fin cfg5.N, win5_0.index t (0 : Fin 2) = 0
    ∧ win5_0.index t (1 : Fin 2) = 0
    ∧ win5_1.index t (0 : Fin 2) = win5_2.index t (1 : Fin 2)
    ∧ win5_1.index t (1 : Fin 2) = 0
    ∧ win5_2.index t (0 : Fin 2) = 0
    ∧ win5_2.index t (1 : Fin 2) ≤ 7 :=
  (by decide +kernel : ∀ t : Fin grid5.N, _)

/-- Every column block is some point's. -/
theorem idx_onto : ∀ q : Fin 8, ∃ t : Fin cfg5.N, win5_2.index t (1 : Fin 2) = q.val :=
  (by decide +kernel : ∀ q : Fin 8, ∃ t : Fin grid5.N, win5_2.index t (1 : Fin 2) = q.val)

/-- WHAT POINT t WRITES BACK is block t of G of the arrays as the region finds them. -/
theorem flushed_eq (c : Dev nD) (t : Fin cfg5.N) :
    (dat5 V c).flushed 2 t = ((cfg5.win 2).blk t).view.read (Elt Ideal) (G (V c main_v75) (V c main_v72)) := by
  show (cfg5.win 2).cut (grid5.coords t) ((dat5 V c).after 2 t) = _
  rw [after5_2]
  unfold out5_2
  rw [View.canon_unit_zero zero_offsets]
  simp only [View.ld_unit_zero (S := S1024x128) zero_offsets]
  obtain ⟨e0, e1, e2, e3, e4, e5⟩ := idx_facts t
  refine funext fun (j : S1024x1024.Idx) => ?_
  show k5_pay1 (F := Ideal) (iblk5 V c 0 t) (iblk5 V c 1 t) j = _
  refine (pay_apply _ _ j).trans ?_
  show (∑ d : Fin 128, arr S1024x128 (V c main_v75) (((cfg5.win 0).blk t).view.emb (ix2 (n0 := 1024) (n1 := 128) ⟨(j 0).val, idx2_lt0 j⟩ d))
        * arr S8192x128 (V c main_v72) (((cfg5.win 1).blk t).view.emb (ix2 (n0 := 1024) (n1 := 128) ⟨(j 1).val, idx2_lt1 j⟩ d)))
      = ∑ d : Fin 128, arr S1024x128 (V c main_v75) (ix2 (n0 := 1024) (n1 := 128) ⟨((((cfg5.win 2).blk t).view.emb j) 0).val, idx2_lt0 (((cfg5.win 2).blk t).view.emb j)⟩ d)
        * arr S8192x128 (V c main_v72) (ix2 (n0 := 8192) (n1 := 128) ⟨((((cfg5.win 2).blk t).view.emb j) 1).val, idx2_lt1 (((cfg5.win 2).blk t).view.emb j)⟩ d)
  refine Finset.sum_congr rfl fun d _ => ?_
  have hj0 : (j 0).val < 1024 := idx2_lt0 j
  have hj1 : (j 1).val < 1024 := idx2_lt1 j
  have h0 : ((cfg5.win 0).blk t).view.emb (ix2 (n0 := 1024) (n1 := 128) ⟨(j 0).val, idx2_lt0 j⟩ d)
      = ix2 (n0 := 1024) (n1 := 128) ⟨((((cfg5.win 2).blk t).view.emb j) 0).val, idx2_lt0 (((cfg5.win 2).blk t).view.emb j)⟩ d := by
    funext a; apply Fin.ext
    match a with
    | ⟨0, _⟩ => show win5_0.index t (0 : Fin 2) * 1024 + 1 * (j 0).val = win5_2.index t (0 : Fin 2) * 1024 + 1 * (j 0).val; omega
    | ⟨1, _⟩ => show win5_0.index t (1 : Fin 2) * 128 + 1 * d.val = d.val; omega
  have h1 : ((cfg5.win 1).blk t).view.emb (ix2 (n0 := 1024) (n1 := 128) ⟨(j 1).val, idx2_lt1 j⟩ d)
      = ix2 (n0 := 8192) (n1 := 128) ⟨((((cfg5.win 2).blk t).view.emb j) 1).val, idx2_lt1 (((cfg5.win 2).blk t).view.emb j)⟩ d := by
    funext a; apply Fin.ext
    match a with
    | ⟨0, _⟩ => show win5_1.index t (0 : Fin 2) * 1024 + 1 * (j 1).val = win5_2.index t (1 : Fin 2) * 1024 + 1 * (j 1).val; omega
    | ⟨1, _⟩ => show win5_1.index t (1 : Fin 2) * 128 + 1 * d.val = d.val; omega
  rw [h0, h1]

/-- An index of the array is in point t's block iff each coordinate is in the block's range on its axis. -/
theorem mem_blk (t : Fin cfg5.N) (i : S1024x8192.Idx) :
    i ∈ ((cfg5.win 2).blk t).view.set ↔ ∀ a : Fin 2, win5_2.index t a * S1024x1024.size a ≤ (i a).val ∧ (i a).val < win5_2.index t a * S1024x1024.size a + S1024x1024.size a := by
  show i ∈ ((View.whole main_v76).slice (win5_2.rect t)).set ↔ _
  rw [View.set_slice_whole, Rect.mem_set_unit]
  exact Iff.rfl

/-- The 8 column blocks tile the array: column s lies in the block of point s / 1024. -/
theorem cover (i : S1024x8192.Idx) :
    ∃ t : Fin cfg5.N, (cfg5.win 2).flush t = true ∧ i ∈ ((cfg5.win 2).blk t).view.set := by
  have hi0 : (i 0).val < 1024 := idx2_lt0 i
  have hi1 : (i 1).val < 8192 := idx2_lt1 i
  obtain ⟨t, ht⟩ := idx_onto ⟨(i 1).val / 1024, by omega⟩
  have q1 : win5_2.index t (1 : Fin 2) = (i 1).val / 1024 := ht
  obtain ⟨e0, e1, e2, e3, e4, e5⟩ := idx_facts t
  refine ⟨t, flush5_2 t, ?_⟩
  rw [mem_blk]
  intro a
  match a with
  | ⟨0, _⟩ => show win5_2.index t (0 : Fin 2) * 1024 ≤ (i 0).val ∧ (i 0).val < win5_2.index t (0 : Fin 2) * 1024 + 1024; omega
  | ⟨1, _⟩ => show win5_2.index t (1 : Fin 2) * 1024 ≤ (i 1).val ∧ (i 1).val < win5_2.index t (1 : Fin 2) * 1024 + 1024; omega

/-- THE ARRAY after the call is G of the arrays the region reads. -/
theorem final (c : Dev nD) : (dat5 V c).arrAt 2 cfg5.N = G (V c main_v75) (V c main_v72) :=
  (dat5 V c).arrAt_eq_of_cover 2 _ (fun t _ => flushed_eq V c t) cover

/-- THE OUTPUT ARRAY after the call, read at (r, s). -/
theorem out_apply (c : Dev nD) (r : Fin 1024) (s : Fin 8192) :
    ((dat5 (F := Ideal) V c).arrAt 2 cfg5.N : S1024x8192.Idx → EReal) (ix2 r s)
      = ∑ d : Fin 128, arr S1024x128 (V c main_v75) (ix2 r d) * arr S8192x128 (V c main_v72) (ix2 s d) :=
  congrFun (final V c) (ix2 r s)

end Cert.KernelIdeal.Region5

end
-- ==== Proof.LibRowGather2.lean ====
/-
  A general lemma: StableHLO's gather of ROWS of a table at a COLUMN of start indices, read at an index.

  What jnp's table[idx] lowers to for a rank-2 table [N, C] and an integer vector idx of length R: a gather whose start
  indices are the vector laid out as an [R, 1] column (the index vector on the last axis, of length one), the table's
  axis 0 collapsed and start-indexed, its axis 1 the result's one offset axis, slices of one whole row. The result
  element (r, c) is the table's element (row, c), where row is the start index idx[r, 0] read as a signed integer and
  clamped into [0, N - 1], as StableHLO's gather clamps every start index.
-/
import Idealize.ShloMosaic.Lib.ValueIdx

noncomputable section

namespace Cert.RowGather2

open Idealize.ShloMosaic Idealize.ShloMosaic.ValueIdx

variable {α : Type}

/-- Those dimension numbers, for a table [N, C], start indices [R, 1] and a result [R, C]; the conditions wf are
    decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section
variable {N C R w : Nat}
  (wf : GatherDims.WF ⟨2, ![N, C]⟩ ⟨2, ![R, 1]⟩ ⟨2, ![R, C]⟩ [1] [0] [] [0] [] 1 ![1, C])
  (idx : IVec ⟨2, ![R, 1]⟩ w) (r : Fin R) (c : Fin C)

/-- The table's column axis is not start-indexed … -/
theorem one_not_mem_startIndexMap : ¬ (1 : Fin 2) ∈ (rowDims N C R wf).startIndexMap := fun h =>
  absurd (congrArg Fin.val (List.mem_singleton.mp h)) Nat.one_ne_zero

/-- … and is kept (neither collapsed nor batching). -/
theorem one_mem_sKept : (1 : Fin 2) ∈ (rowDims N C R wf).sKept :=
  (GatherDims.mem_sKept _ _).mpr ⟨fun h => absurd (congrArg Fin.val (List.mem_singleton.mp h)) Nat.one_ne_zero, List.not_mem_nil⟩

/-- On the ROW axis the operand index is the clamped start: the axis is collapsed (no offset coordinate) and its start
    is the index column's word for row r. -/
theorem operandIdx_row :
    ((rowDims N C R wf).operandIdx (ix2 r c) idx (0 : Fin 2)).val = min (idx (ix2 r (0 : Fin 1))).toInt.toNat (N - 1) := by
  show (rowDims N C R wf).start (ix2 r c) idx 0 + (rowDims N C R wf).batchCoord (ix2 r c) 0
      + (rowDims N C R wf).offCoord (ix2 r c) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ (rowDims N C R wf).startIndexMap from List.mem_singleton.mpr rfl)]
  have hsi : (rowDims N C R wf).siIdx (ix2 r c) ⟨List.idxOf (0 : Fin 2) (rowDims N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the COLUMN axis it is the result's offset coordinate: not start-indexed (start 0), read by the result's axis 1. -/
theorem operandIdx_col :
    ((rowDims N C R wf).operandIdx (ix2 r c) idx (1 : Fin 2)).val = c.val := by
  show (rowDims N C R wf).start (ix2 r c) idx 1 + (rowDims N C R wf).batchCoord (ix2 r c) 1
      + (rowDims N C R wf).offCoord (ix2 r c) 1 = _
  rw [GatherDims.batchCoord_eq_zero _ _ _ List.not_mem_nil, Nat.add_zero]
  unfold GatherDims.start
  rw [dif_neg (one_not_mem_startIndexMap wf), Nat.zero_add]
  unfold GatherDims.offCoord
  rw [dif_pos (one_mem_sKept wf)]
  rfl

end

/-- THE GATHER READ AT (r, c): the table at the clamped start row and column c. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  refine congrArg x (funext fun a => Fin.ext ?_)
  match a with
  | ⟨0, _⟩ => exact operandIdx_row wf idx r c
  | ⟨1, _⟩ => exact operandIdx_col wf idx r c

end Cert.RowGather2

end
-- ==== Proof.RefEmb.lean ====
/-
  The embedding lookup for non-negative cell indices.

  jnp's table[idx] first wraps a negative index (idx + 1000 where idx < 0) and the gather then clamps the start row
  into [0, 999]. For a NON-NEGATIVE index word c nothing wraps, and the row read is min(c, 999). Clipping c into
  [0, 999] by a signed maximum with 0 and a signed minimum with 999 gives the word of that same row number.
-/
import proofs.«402956_j12043088298541_2_alg».proof.Proof.RefRead
import proofs.«402956_j12043088298541_2_alg».proof.Proof.LibRowGather2
import Idealize.ShloMosaic.Lib.ValueIdx

noncomputable section

namespace Cert.RefEmb

open Cert.ReferenceIdeal Cert.ReferenceIdeal.Gen Cert.ReferenceIdeal.PRead Idealize.ShloMosaic Idealize.ShloMosaic.ValueIdx

/-- The row number a non-negative index word selects: its value, at most 999. -/
def rowOf (w : BitVec 32) : Fin 1000 := ⟨min w.toInt.toNat 999, by omega⟩

/-- A non-negative word is the word of its own signed value: read signed it is its unsigned value, below 2 ^ 31. -/
theorem word_eq_ofNat_toInt (w : BitVec 32) (h : 0 ≤ w.toInt) : w = BitVec.ofNat 32 w.toInt.toNat := by
  apply BitVec.eq_of_toNat_eq
  rw [BitVec.toNat_ofNat]
  have hlt := w.isLt
  rw [BitVec.toInt_eq_toNat_cond] at h ⊢
  split at h <;> omega

/-- A signed maximum with 0 and then a signed minimum with 999 of a non-negative word is the word of its row. -/
theorem clip_word (w : BitVec 32) (h : 0 ≤ w.toInt) :
    IntOp.minsi (999#32) (IntOp.maxsi (0#32) w) = BitVec.ofNat 32 (rowOf w).val := by
  have h999 : (999#32 : BitVec 32).toInt = 999 := by decide
  -- the maximum with 0 keeps w: w is not below 0
  have hmax : IntOp.maxsi (0#32) w = w := by
    unfold IntOp.maxsi
    rw [if_neg]
    rw [BitVec.slt_iff_toInt_lt]
    have h0 : (0#32 : BitVec 32).toInt = 0 := by decide
    omega
  rw [hmax]
  unfold IntOp.minsi
  show _ = BitVec.ofNat 32 (min w.toInt.toNat 999)
  -- the minimum with 999: 999 where 999 < w, else w itself
  by_cases hc : (999#32 : BitVec 32).slt w
  · rw [if_pos hc]
    rw [BitVec.slt_iff_toInt_lt, h999] at hc
    rw [Nat.min_eq_right (by omega)]
  · rw [if_neg hc]
    rw [BitVec.slt_iff_toInt_lt, h999] at hc
    rw [Nat.min_eq_left (by omega)]
    exact word_eq_ofNat_toInt w h

/-- The wrapped index of a non-negative word is the word itself: the signed compare with 0 is false, and the select
    takes its second branch. -/
theorem v93_apply_of_nonneg (x4 : (⟨S1024, .i32⟩ : BufTy).Contents (Elt Ideal)) (i : S1024.Idx) (h : 0 ≤ (x4 i).toInt) :
    val_main_v93 (F := Ideal) x4 i = x4 i := by
  rw [val_main_v93_apply, val_main_v90_apply, val_main_v89_apply, val_main_c_18_apply]
  have hlt : (x4 i).slt 0#32 = false := by
    simp only [BitVec.slt, BitVec.toInt_zero, decide_eq_false_iff_not, Int.not_lt]
    exact h
  show (if BitVec.ofBool ((x4 i).slt 0#32) = 1 then _ else _) = _
  rw [hlt]
  rfl

/-- The reference's gathered embedding row, for a non-negative cell index: the table's row min(c, 999). -/
theorem v95_apply_of_nonneg (x4 : (⟨S1024, .i32⟩ : BufTy).Contents (Elt Ideal)) (x13 : (⟨S1000x128, .f32⟩ : BufTy).Contents (Elt Ideal))
    (r : Fin 1024) (d : Fin 128) (h : 0 ≤ (x4 (ix1 r)).toInt) :
    val_main_v95 (F := Ideal) x4 x13 (ix2 r d) = x13 (ix2 (rowOf (x4 (ix1 r))) d) := by
  -- the start-index column at row r holds the cell's own word
  have h94 : val_main_v94 (F := Ideal) x4 (ix2 r (0 : Fin 1)) = x4 (ix1 r) := by
    rw [val_main_v94_apply]
    have hi : idx_main_v94 (ix2 r (0 : Fin 1)) = ix1 r := by
      funext a
      match a with
      | ⟨0, _⟩ => rfl
    rw [hi, v93_apply_of_nonneg x4 (ix1 r) h]
  -- the program's gather is the gather of rows at a column of starts, read at (r, d): the row clamped into [0, 999]
  show Host.gather (Cert.RowGather2.rowDims 1000 128 1024 gather_S1000x128_S1024x1_S1024x128_1_0_n_n_0_1_1128_wf) x13
      (val_main_v94 (F := Ideal) x4) (ix2 r d) = _
  rw [Cert.RowGather2.gather_rows_apply (by decide)]
  refine congrArg (fun k => x13 (ix2 k d)) (Fin.ext ?_)
  show min (val_main_v94 (F := Ideal) x4 (ix2 r (0 : Fin 1))).toInt.toNat (1000 - 1) = min (x4 (ix1 r)).toInt.toNat 999
  rw [h94]

end Cert.RefEmb

end
-- ==== Proof.KTail.lean ====
/-
  The idealized kernel program from its projection call to its result.

  Given that the projection call left the reference's projection in its output array, the rest of @main clips the cell
  indices into [0, 999], looks the embedding rows up by a one-hot matrix product — for non-negative cell indices the
  reference's gathered rows — and contracts the two over the embedding dimension: the reference's product with the
  transposed projection.
-/
import proofs.«402956_j12043088298541_2_alg».proof.Proof.Gen.KernelIdeal.Frame
import proofs.«402956_j12043088298541_2_alg».proof.Proof.KArgs
import proofs.«402956_j12043088298541_2_alg».proof.Proof.KFront
import proofs.«402956_j12043088298541_2_alg».proof.Proof.Region4
import proofs.«402956_j12043088298541_2_alg».proof.Proof.Region5
import proofs.«402956_j12043088298541_2_alg».proof.Proof.RefRead
import proofs.«402956_j12043088298541_2_alg».proof.Proof.RefStages
import proofs.«402956_j12043088298541_2_alg».proof.Proof.RefEmb
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KTail

open Cert.KernelIdeal Cert.KernelIdeal.Gen
open Idealize.ShloMosaic Idealize.ShloMosaic.TcCoe Idealize.ShloMosaic.ValueIdx Idealize.SL.Sem Idealize.ShloMosaic.StableHlo
open Cert.RealVal

-- The launch memory and generator registers (any).
variable (m : (ℓ : Loc nD τ sig) → Buf (Elt Ideal) ℓ) (ρ : Dev nD → PrngReg)

open Cert.KernelIdeal.KArgs Cert.ReferenceIdeal.PRead

/-! ## The host operations between the projection call and the lookup call, read -/

section Host
variable {F : FTy → Type} [FloatOps F]

/-- The lower bound's buffer after the constants: the word 0. -/
theorem lo_read (X : Valuation τ sig (Elt F)) :
    StableHlo.after (hostOps4 (F := F)) X (Proc.devRef .tc main_c_18) = constantI S_ 32 0#32 := by
  dsimp only [hostOps4]; after_results_simp

/-- The upper bound's buffer after the constants: the word 999. -/
theorem hi_read (X : Valuation τ sig (Elt F)) :
    StableHlo.after (hostOps4 (F := F)) X (Proc.devRef .tc main_c_19) = constantI S_ 32 999#32 := by
  dsimp only [hostOps4]; after_results_simp

/-- The clipped cell indices: the signed minimum of the upper bound with the signed maximum of the lower bound and the
    cell indices, the bounds repeated along the vector. -/
theorem clip_read (X : Valuation τ sig (Elt F)) :
    StableHlo.after (hostOps4_1 (F := F)) X (Proc.devRef .tc main_v73)
      = minsi (broadcastInDim S1024 ![] bcast_S_S1024 (X (Proc.devRef .tc main_c_19)))
          (maxsi (broadcastInDim S1024 ![] bcast_S_S1024 (X (Proc.devRef .tc main_c_18))) (X (Proc.devRef .tc main_arg4))) := by
  dsimp only [hostOps4_1]; after_results_simp; rfl

/-- The clipped cell indices as a column. -/
theorem column_read (X : Valuation τ sig (Elt F)) :
    StableHlo.after (hostOps4_2 (F := F)) X (Proc.devRef .tc main_v74)
      = shapeCast S1024x1 (X (Proc.devRef .tc main_v73)) shapeCasts_S1024_S1024x1 := by
  dsimp only [hostOps4_2]; after_results_simp; rfl

end Host

/-- An [a] array cast to a column [a, 1] reads, at (i, u), the operand at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Buffers carried across stretches that do not write them -/

/-- A stretch of host operations leaves a buffer none of them writes. -/
local macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The cell indices, from the third call's exit to the clip: no operation and no call in between writes them. -/
theorem arg4_W14 (c : Dev nD) : W14 m ρ c (Proc.devRef .tc main_arg4) = W9 m ρ c (Proc.devRef .tc main_arg4) :=
  calc W14 m ρ c (Proc.devRef .tc main_arg4)
    _ = W13 m ρ c (Proc.devRef .tc main_arg4) := by unwritten hostOps4
    _ = W12 m ρ c (Proc.devRef .tc main_arg4) := W13_of_ne m ρ c main_arg4 (by decide)
    _ = W11 m ρ c (Proc.devRef .tc main_arg4) := by unwritten hostOps3_2
    _ = W10 m ρ c (Proc.devRef .tc main_arg4) := by unwritten hostOps3_1
    _ = W9 m ρ c (Proc.devRef .tc main_arg4) := by unwritten hostOps3

/-- The embedding table, from the third call's exit to the lookup call's entry. -/
theorem arg13_W16 (c : Dev nD) : W16 m ρ c (Proc.devRef .tc main_arg13) = W9 m ρ c (Proc.devRef .tc main_arg13) :=
  calc W16 m ρ c (Proc.devRef .tc main_arg13)
    _ = W15 m ρ c (Proc.devRef .tc main_arg13) := by unwritten hostOps4_2
    _ = W14 m ρ c (Proc.devRef .tc main_arg13) := by unwritten hostOps4_1
    _ = W13 m ρ c (Proc.devRef .tc main_arg13) := by unwritten hostOps4
    _ = W12 m ρ c (Proc.devRef .tc main_arg13) := W13_of_ne m ρ c main_arg13 (by decide)
    _ = W11 m ρ c (Proc.devRef .tc main_arg13) := by unwritten hostOps3_2
    _ = W10 m ρ c (Proc.devRef .tc main_arg13) := by unwritten hostOps3_1
    _ = W9 m ρ c (Proc.devRef .tc main_arg13) := by unwritten hostOps3

/-- The projection, from its call's exit to the last call's entry. -/
theorem v72_W17 (c : Dev nD) : W17 m ρ c (Proc.devRef .tc main_v72) = W13 m ρ c (Proc.devRef .tc main_v72) :=
  calc W17 m ρ c (Proc.devRef .tc main_v72)
    _ = W16 m ρ c (Proc.devRef .tc main_v72) := W17_of_ne m ρ c main_v72 (by decide)
    _ = W15 m ρ c (Proc.devRef .tc main_v72) := by unwritten hostOps4_2
    _ = W14 m ρ c (Proc.devRef .tc main_v72) := by unwritten hostOps4_1
    _ = W13 m ρ c (Proc.devRef .tc main_v72) := by unwritten hostOps4

/-! ## The lookup call's operands and output -/

/-- The clipped cell index of row r at the lookup call's entry: the cell's word clipped into [0, 999]. -/
theorem v74_apply (c : Dev nD) (r : Fin 1024) :
    (W16 m ρ c (Proc.devRef .tc main_v74) : S1024x1.Idx → BitVec 32) (ix2 r (0 : Fin 1))
      = IntOp.minsi (999#32) (IntOp.maxsi (0#32) ((W9 m ρ c (Proc.devRef .tc main_arg4) : S1024.Idx → BitVec 32) (ix1 r))) := by
  show (StableHlo.after hostOps4_2 (W15 m ρ c) (Proc.devRef .tc main_v74) : S1024x1.Idx → BitVec 32) (ix2 r (0 : Fin 1)) = _
  rw [column_read, shapeCast_a_a1_apply]
  show (StableHlo.after hostOps4_1 (W14 m ρ c) (Proc.devRef .tc main_v73) : S1024.Idx → BitVec 32) (ix1 r) = _
  rw [clip_read]
  show IntOp.minsi (broadcastInDim S1024 ![] bcast_S_S1024 (StableHlo.after hostOps4 (W13 m ρ c) (Proc.devRef .tc main_c_19)) (ix1 r))
      (IntOp.maxsi (broadcastInDim S1024 ![] bcast_S_S1024 (StableHlo.after hostOps4 (W13 m ρ c) (Proc.devRef .tc main_c_18)) (ix1 r))
        ((W14 m ρ c (Proc.devRef .tc main_arg4) : S1024.Idx → BitVec 32) (ix1 r))) = _
  rw [hi_read, lo_read, arg4_W14]
  rfl

/-- THE LOOKUP CALL'S OUTPUT at (r, d), for a non-negative cell index: the embedding table's row min(cell, 999). -/
theorem v75_apply (c : Dev nD) (r : Fin 1024) (d : Fin 128)
    (h : 0 ≤ ((W9 m ρ c (Proc.devRef .tc main_arg4) : S1024.Idx → BitVec 32) (ix1 r)).toInt) :
    (W17 m ρ c (Proc.devRef .tc main_v75) : S1024x128.Idx → EReal) (ix2 r d)
      = (W9 m ρ c (Proc.devRef .tc main_arg13) : S1000x128.Idx → EReal)
          (ix2 (Cert.RefEmb.rowOf ((W9 m ρ c (Proc.devRef .tc main_arg4) : S1024.Idx → BitVec 32) (ix1 r))) d) := by
  refine (congrFun (W17_arr m ρ c 2) (ix2 r d)).trans ?_
  refine (Region4.out_apply (V16 m ρ) c r d (Cert.RefEmb.rowOf ((W9 m ρ c (Proc.devRef .tc main_arg4) : S1024.Idx → BitVec 32) (ix1 r))) ?_).trans ?_
  · exact (v74_apply m ρ c r).trans (Cert.RefEmb.clip_word _ h)
  · exact congrFun (arg13_W16 m ρ c) _

/-- The result buffer at the last boundary, given that the cell indices and the embedding table are as launched after the
    third call. -/
theorem result_of_v72_of (c : Dev nD)
    (hA4 : (W9 m ρ c (Proc.devRef .tc main_arg4) : S1024.Idx → BitVec 32) = a4 m c)
    (hA13 : (W9 m ρ c (Proc.devRef .tc main_arg13) : S1000x128.Idx → EReal) = a13 m c)
    (h4 : ∀ r : Fin 1024, 0 ≤ (a4 m c (ix1 r)).toInt)
    (h72 : (W13 m ρ c (Proc.devRef .tc main_v72) : S8192x128.Idx → EReal)
      = val_main_v88 (F := Ideal) (a0 m c) (a1 m c) (a2 m c) (a3 m c) (a5 m c) (a6 m c) (a7 m c) (a8 m c) (a9 m c) (a10 m c) (a11 m c) (a12 m c)) :
    (W18 m ρ c (Proc.devRef .tc main_v76) : S1024x8192.Idx → EReal)
      = val_main_v97 (F := Ideal) (a0 m c) (a1 m c) (a2 m c) (a3 m c) (a4 m c) (a5 m c) (a6 m c) (a7 m c) (a8 m c) (a9 m c) (a10 m c) (a11 m c) (a12 m c) (a13 m c) := by
  funext i
  obtain ⟨r, s, rfl⟩ : ∃ (r : Fin 1024) (s : Fin 8192), i = ix2 r s := ⟨i 0, i 1, eq_ix2 i⟩
  rw [Cert.RefStages.v97_apply]
  -- the last call contracts the looked-up rows with the projection over the embedding dimension
  have hlast : (W18 m ρ c (Proc.devRef .tc main_v76) : S1024x8192.Idx → EReal) (ix2 r s)
      = ∑ d : Fin 128, Region5.arr S1024x128 (V17 m ρ c main_v75) (ix2 r d) * Region5.arr S8192x128 (V17 m ρ c main_v72) (ix2 s d) :=
    (congrFun (W18_arr m ρ c 2) (ix2 r s)).trans (Region5.out_apply (V17 m ρ) c r s)
  -- the looked-up rows are the reference's gathered rows
  have hE : ∀ d : Fin 128, Region5.arr S1024x128 (V17 m ρ c main_v75) (ix2 r d) = val_main_v95 (F := Ideal) (a4 m c) (a13 m c) (ix2 r d) := fun d => by
    rw [Cert.RefEmb.v95_apply_of_nonneg (a4 m c) (a13 m c) r d (h4 r)]
    refine (v75_apply m ρ c r d (by rw [hA4]; exact h4 r)).trans ?_
    rw [hA4, hA13]
  -- the projection is still what its call left
  have hP : ∀ d : Fin 128, Region5.arr S8192x128 (V17 m ρ c main_v72) (ix2 s d)
      = val_main_v88 (F := Ideal) (a0 m c) (a1 m c) (a2 m c) (a3 m c) (a5 m c) (a6 m c) (a7 m c) (a8 m c) (a9 m c) (a10 m c) (a11 m c) (a12 m c) (ix2 s d) :=
    fun d => congrFun ((v72_W17 m ρ c).trans h72) (ix2 s d)
  rw [hlast]
  simp only [hE, hP]

/-- THE RESULT BUFFER at the last boundary, from the projection at region 3's exit: the reference's result term of the
    launched arguments, when the cell indices are non-negative. -/
theorem result_of_v72 (c : Dev nD)
    (h4 : ∀ r : Fin 1024, 0 ≤ (a4 m c (ix1 r)).toInt)
    (h72 : (W13 m ρ c (Proc.devRef .tc main_v72) : S8192x128.Idx → EReal)
      = val_main_v88 (F := Ideal) (a0 m c) (a1 m c) (a2 m c) (a3 m c) (a5 m c) (a6 m c) (a7 m c) (a8 m c) (a9 m c) (a10 m c) (a11 m c) (a12 m c)) :
    (W18 m ρ c (Proc.devRef .tc main_v76) : S1024x8192.Idx → EReal)
      = val_main_v97 (F := Ideal) (a0 m c) (a1 m c) (a2 m c) (a3 m c) (a4 m c) (a5 m c) (a6 m c) (a7 m c) (a8 m c) (a9 m c) (a10 m c) (a11 m c) (a12 m c) (a13 m c) :=
  result_of_v72_of m ρ c (KFront.W9_arg4 m ρ c) (KFront.W9_arg13 m ρ c) h4 h72

end Cert.KernelIdeal.KTail

end
-- ==== Proof.Region3.lean ====
/-
  The projection head (matrix product plus bias), as one function of the arrays it reads.

  The call's grid has 4 points; point t stages rows 2048·t … 2048·t + 2047 of the selected encodings E [8192, 256], the
  whole weight matrix Wp [256, 128] and the bias row bp [1, 128], and writes back the same rows of the output
  [8192, 128]. Over the extended reals the body's value at row p, column q is Σ_k E[p,k] · Wp[k,q] + bp[q]. The 4 blocks
  tile the output array.
-/
import proofs.«402956_j12043088298541_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's product at an index -/

/-- The product's left operand is read at the output's row. -/
theorem lhs_row (i : S2048x128.Idx) (r : dot_S2048x256_S256x128_S2048x128_1_0_0_1_n_n.contr.Idx) :
    (dot_S2048x256_S256x128_S2048x128_1_0_0_1_n_n.lhsIdx i r 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
/-- … and at the summation index as its column. -/
theorem lhs_col (i : S2048x128.Idx) (r : dot_S2048x256_S256x128_S2048x128_1_0_0_1_n_n.contr.Idx) :
    (dot_S2048x256_S256x128_S2048x128_1_0_0_1_n_n.lhsIdx i r 1).val = (r ⟨0, by decide⟩).val :=
  dot_S2048x256_S256x128_S2048x128_1_0_0_1_n_n.lhsIdx_val_of_single rfl i r
/-- The right operand is read at the summation index as its row. -/
theorem rhs_row (i : S2048x128.Idx) (r : dot_S2048x256_S256x128_S2048x128_1_0_0_1_n_n.contr.Idx) :
    (dot_S2048x256_S256x128_S2048x128_1_0_0_1_n_n.rhsIdx i r 0).val = (r ⟨0, by decide⟩).val :=
  dot_S2048x256_S256x128_S2048x128_1_0_0_1_n_n.rhsIdx_val_of_single rfl i r
/-- … and at the output's column. -/
theorem rhs_col (i : S2048x128.Idx) (r : dot_S2048x256_S256x128_S2048x128_1_0_0_1_n_n.contr.Idx) :
    (dot_S2048x256_S256x128_S2048x128_1_0_0_1_n_n.rhsIdx i r 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The product into the zero accumulator at row p, column q: Σ_k a[p,k] · b[k,q]. -/
theorem product_apply (a : FVec Ideal S2048x256 .bf16) (b : FVec Ideal S256x128 .bf16) (p : Fin 2048) (q : Fin 128) :
    FloatOps.matmul dot_S2048x256_S256x128_S2048x128_1_0_0_1_n_n none a b (constant (F := Ideal) S2048x128 .f32 0x00000000#32) (ix2 p q)
      = ∑ k : Fin 256, a (ix2 p k) * b (ix2 k q) := by
  rw [Ideal.matmul_constant_zero_apply, ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p q) ((contrEquiv1 dot_S2048x256_S256x128_S2048x128_1_0_0_1_n_n 256 rfl rfl).symm k) = ix2 p k := funext fun a => Fin.ext (by
    match a with
    | ⟨0, _⟩ => exact lhs_row _ _
    | ⟨1, _⟩ => exact (lhs_col _ _).trans hk)
  have er : dot_S2048x256_S256x128_S2048x128_1_0_0_1_n_n.rhsIdx (ix2 p q) ((contrEquiv1 dot_S2048x256_S256x128_S2048x128_1_0_0_1_n_n 256 rfl rfl).symm k) = ix2 k q := funext fun a => Fin.ext (by
    match a with
    | ⟨0, _⟩ => exact (rhs_row _ _).trans hk
    | ⟨1, _⟩ => exact rhs_col _ _)
  rw [el, er]

/-- THE BODY'S VALUE at row p, column q of its block: Σ_k x[p,k] · w[k,q] + b[q] (the two roundings are the identity on
    the extended reals, the accumulator is the zero splat, and the bias row is repeated down the rows). -/
theorem pay_apply (x : Vec Ideal S2048x256 .f32) (w : Vec Ideal S256x128 .f32) (b : Vec Ideal S1x128 .f32) (p : Fin 2048) (q : Fin 128) :
    k3_pay1 (F := Ideal) x w b (ix2 p q)
      = (∑ k : Fin 256, (x : S2048x256.Idx → EReal) (ix2 p k) * (w : S256x128.Idx → EReal) (ix2 k q)) + (b : S1x128.Idx → EReal) (ix2 (0 : Fin 1) q) := by
  unfold k3_pay1
  simp only [shapeCast_self, matmul]
  rw [addf_apply, product_apply, broadcastTo_1b_ab_apply]
  rfl

/-! ## From the blocks to the array -/

theorem zeros : (![0, 0] : Fin 2 → Nat) = fun _ => 0 := funext fun a => by fin_cases a <;> rfl

/-- What the output array ends holding: the product of the two arrays plus the bias row, index by index. -/
abbrev affine (E : S8192x256.Idx → EReal) (W : S256x128.Idx → EReal) (B : S1x128.Idx → EReal) : S8192x128.Idx → EReal :=
  fun i => (∑ k : Fin 256, E (ix2 (⟨(i 0).val, idx2_lt0 i⟩ : Fin 8192) k) * W (ix2 k (⟨(i 1).val, idx2_lt1 i⟩ : Fin 128)))
    + B (ix2 (0 : Fin 1) (⟨(i 1).val, idx2_lt1 i⟩ : Fin 128))

/-- The printed index maps, decided over the grid: point t stages row block t of E and of the output, all columns; the
    weight matrix and the bias row whole. -/
theorem index_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

-- The TensorCore's buffer contents when the region is entered (any).
variable (V : (c : Dev nD) → (b : Ref sig .tc) → Buf (Elt Ideal) ((c : Thread nD τ).loc b))

/-- An array read at its literal shape (so that the arithmetic on its entries is the extended reals'). -/
abbrev arr (S : Shape) (f : S.Idx → EReal) : S.Idx → EReal := f

/-- WHAT POINT t WRITES BACK is block t of the product plus bias of the arrays as the region finds them. -/
theorem flushed_eq (c : Dev nD) (t : Fin cfg3.N) :
    (dat3 (F := Ideal) V c).flushed 3 t
      = ((cfg3.win 3).blk t).view.read (Elt Ideal) (affine (arr S8192x256 (V c main_v70)) (arr S256x128 (V c main_arg11)) (arr S1x128 (V c main_v71))) := by
  show (cfg3.win 3).cut (grid3.coords t) ((dat3 (F := Ideal) V c).after 3 t) = _
  rw [after3_3]
  unfold out3_3
  rw [View.canon_unit_zero zeros]
  simp only [View.ld_unit_zero (S := S2048x256) zeros, View.ld_unit_zero (S := S256x128) zeros, View.ld_unit_zero (S := S1x128) zeros]
  obtain ⟨e0, e1, e2, e3, e4, e5, e6, e7⟩ := index_facts t
  funext j
  obtain ⟨p, q, rfl⟩ : ∃ (p : Fin 2048) (q : Fin 128), j = ix2 p q := ⟨j 0, j 1, eq_ix2 j⟩
  refine (pay_apply (iblk3 V c 0 t) (iblk3 V c 1 t) (iblk3 V c 2 t) p q).trans ?_
  have hrow : ∀ k : Fin 256, (((cfg3.win 0).blk t).view.emb (ix2 p k) : S8192x256.Idx)
      = ix2 (⟨((((cfg3.win 3).blk t).view.emb (ix2 p q) : S8192x128.Idx) 0).val, idx2_lt0 _⟩ : Fin 8192) k := fun k => by
    funext a; apply Fin.ext
    match a with
    | ⟨0, _⟩ => show win3_0.index t (0 : Fin 2) * 2048 + 1 * p.val = win3_3.index t (0 : Fin 2) * 2048 + 1 * p.val; omega
    | ⟨1, _⟩ => show win3_0.index t (1 : Fin 2) * 256 + 1 * k.val = k.val; omega
  have hcol : ∀ k : Fin 256, (((cfg3.win 1).blk t).view.emb (ix2 k q) : S256x128.Idx)
      = ix2 k (⟨((((cfg3.win 3).blk t).view.emb (ix2 p q) : S8192x128.Idx) 1).val, idx2_lt1 _⟩ : Fin 128) := fun k => by
    funext a; apply Fin.ext
    match a with
    | ⟨0, _⟩ => show win3_1.index t (0 : Fin 2) * 256 + 1 * k.val = k.val; omega
    | ⟨1, _⟩ => show win3_1.index t (1 : Fin 2) * 128 + 1 * q.val = win3_3.index t (1 : Fin 2) * 128 + 1 * q.val; omega
  have hbias : (((cfg3.win 2).blk t).view.emb (ix2 (0 : Fin 1) q) : S1x128.Idx)
      = ix2 (0 : Fin 1) (⟨((((cfg3.win 3).blk t).view.emb (ix2 p q) : S8192x128.Idx) 1).val, idx2_lt1 _⟩ : Fin 128) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  show (∑ k : Fin 256, arr S8192x256 (V c main_v70) (((cfg3.win 0).blk t).view.emb (ix2 p k)) * arr S256x128 (V c main_arg11) (((cfg3.win 1).blk t).view.emb (ix2 k q)))
      + arr S1x128 (V c main_v71) (((cfg3.win 2).blk t).view.emb (ix2 (0 : Fin 1) q))
    = affine (arr S8192x256 (V c main_v70)) (arr S256x128 (V c main_arg11)) (arr S1x128 (V c main_v71)) (((cfg3.win 3).blk t).view.emb (ix2 p q))
  rw [hbias]
  exact congrArg (· + _) (Finset.sum_congr rfl fun k _ => by rw [hrow k, hcol k])

/-- An index of the output array is in point t's block iff each coordinate is in the block's range on its axis. -/
theorem mem_blk (t : Fin cfg3.N) (i : S8192x128.Idx) :
    i ∈ ((cfg3.win 3).blk t).view.set ↔ ∀ a : Fin 2, win3_3.index t a * S2048x128.size a ≤ (i a).val ∧ (i a).val < win3_3.index t a * S2048x128.size a + S2048x128.size a := by
  show i ∈ ((View.whole main_v72).slice (win3_3.rect t)).set ↔ _
  rw [View.set_slice_whole, Rect.mem_set_unit]
  exact Iff.rfl

/-- THE BLOCKS TILE THE ARRAY: row r is in the block of point r / 2048. -/
theorem covered (i : S8192x128.Idx) :
    ∃ t : Fin cfg3.N, (cfg3.win 3).flush t = true ∧ i ∈ ((cfg3.win 3).blk t).view.set := by
  have hi0 : (i 0).val < 8192 := idx2_lt0 i
  have hi1 : (i 1).val < 128 := idx2_lt1 i
  refine ⟨⟨(i 0).val / 2048, by rw [show cfg3.N = 4 from N_3]; omega⟩, flush3_3 _, ?_⟩
  rw [mem_blk]
  obtain ⟨e0, e1, e2, e3, e4, e5, e6, e7⟩ := index_facts ⟨(i 0).val / 2048, by rw [show cfg3.N = 4 from N_3]; omega⟩
  intro a
  match a with
  | ⟨0, _⟩ => show win3_3.index _ (0 : Fin 2) * 2048 ≤ (i 0).val ∧ (i 0).val < win3_3.index _ (0 : Fin 2) * 2048 + 2048; rw [e6]; show (i 0).val / 2048 * 2048 ≤ (i 0).val ∧ (i 0).val < (i 0).val / 2048 * 2048 + 2048; omega
  | ⟨1, _⟩ => show win3_3.index _ (1 : Fin 2) * 128 ≤ (i 1).val ∧ (i 1).val < win3_3.index _ (1 : Fin 2) * 128 + 128; rw [e7]; omega

/-- THE OUTPUT ARRAY after the call is the product of the two arrays the call reads plus the bias row. -/
theorem final (c : Dev nD) :
    (dat3 (F := Ideal) V c).arrAt 3 cfg3.N = affine (arr S8192x256 (V c main_v70)) (arr S256x128 (V c main_arg11)) (arr S1x128 (V c main_v71)) :=
  (dat3 (F := Ideal) V c).arrAt_eq_of_cover 3 (affine (arr S8192x256 (V c main_v70)) (arr S256x128 (V c main_arg11)) (arr S1x128 (V c main_v71))) (fun t _ => flushed_eq V c t) covered

/-- THE OUTPUT ARRAY after the call, read at (p, q). -/
theorem out_apply (c : Dev nD) (p : Fin 8192) (q : Fin 128) :
    ((dat3 (F := Ideal) V c).arrAt 3 cfg3.N : S8192x128.Idx → EReal) (ix2 p q)
      = (∑ k : Fin 256, arr S8192x256 (V c main_v70) (ix2 p k) * arr S256x128 (V c main_arg11) (ix2 k q))
        + arr S1x128 (V c main_v71) (ix2 (0 : Fin 1) q) := by
  rw [final V c]

end Cert.KernelIdeal.Region3

end
-- ==== Proof.RefReal.lean ====
/-
  Real-valuedness through the reference's graph convolutions.

  Over the extended reals a value is REAL when it is neither +∞ nor -∞. The reference's intermediate arrays are built
  from the arguments by operations each of which keeps real arrays real: constants 0 and 1, broadcasts, products, sums
  (a matrix product, an accumulating scatter), maxima, selections, gathers, and the reciprocal square root of a value
  that is at least 1 (the clamped degree). So, for real x, W1, b1, W2, b2: the degree normalisations are real and the
  second layer's output, scaled by the source normalisation, is real.
-/
import proofs.«402956_j12043088298541_2_alg».proof.Proof.RefRead
import proofs.«402956_j12043088298541_2_alg».proof.Proof.LibReal

noncomputable section

namespace Cert.RefReal

open Cert.ReferenceIdeal Cert.ReferenceIdeal.Gen Cert.ReferenceIdeal.PRead Idealize.ShloMosaic Cert.RealVal

/-! ### The degree normalisations

  A degree is a scatter-add of ones into zeros: a finite sum of ones, real. Clamped below by 1 it is a positive real,
  so its reciprocal square root is real; the selection against 0 and the broadcasts only move elements. -/

theorem zero_lt_one' : (0 : EReal) < 1 := by exact_mod_cast (zero_lt_one : (0 : ℝ) < 1)

/-- The array of ones that both degree counts add up. -/
theorem real_v0 : IsReal (val_main_v0 (F := Ideal)) :=
  isReal_broadcastInDim _ _ (isReal_constant_one _)

/-- The source degree: zeros plus a finite sum of ones. -/
theorem real_v3 (x1 : (⟨S400000, .i32⟩ : BufTy).Contents (Elt Ideal)) : IsReal (val_main_v3 (F := Ideal) x1) :=
  isReal_scatterAdd _ (isReal_broadcastInDim _ _ (isReal_constant_zero _)) _ real_v0

/-- The destination degree. -/
theorem real_v6 (x2 : (⟨S400000, .i32⟩ : BufTy).Contents (Elt Ideal)) : IsReal (val_main_v6 (F := Ideal) x2) :=
  isReal_scatterAdd _ (isReal_broadcastInDim _ _ (isReal_constant_zero _)) _ real_v0

/-- The clamp's floor: the array of ones. -/
theorem real_v9 : IsReal (val_main_v9 (F := Ideal)) :=
  isReal_broadcastInDim _ _ (isReal_constant_one _)

theorem pos_v9 (i : S50000.Idx) : 0 < val_main_v9 (F := Ideal) i :=
  broadcastInDim_forall (fun y : EReal => 0 < y) _ _ (fun j => lt_of_lt_of_eq zero_lt_one' (constant_one_apply S_ j).symm) i

theorem real_v15 : IsReal (val_main_v15 (F := Ideal)) :=
  isReal_broadcastInDim _ _ (isReal_constant_one _)

theorem pos_v15 (i : S50000.Idx) : 0 < val_main_v15 (F := Ideal) i :=
  broadcastInDim_forall (fun y : EReal => 0 < y) _ _ (fun j => lt_of_lt_of_eq zero_lt_one' (constant_one_apply S_ j).symm) i

/-- The clamped source degree is a real that is at least 1. -/
theorem real_v10 (x1 : (⟨S400000, .i32⟩ : BufTy).Contents (Elt Ideal)) : IsReal (val_main_v10 (F := Ideal) x1) :=
  isReal_maximumf (real_v3 x1) real_v9

theorem pos_v10 (x1 : (⟨S400000, .i32⟩ : BufTy).Contents (Elt Ideal)) (i : S50000.Idx) :
    0 < val_main_v10 (F := Ideal) x1 i :=
  lt_of_lt_of_le (pos_v9 i) (le_maximumf_right _ _ i)

theorem real_v16 (x2 : (⟨S400000, .i32⟩ : BufTy).Contents (Elt Ideal)) : IsReal (val_main_v16 (F := Ideal) x2) :=
  isReal_maximumf (real_v6 x2) real_v15

theorem pos_v16 (x2 : (⟨S400000, .i32⟩ : BufTy).Contents (Elt Ideal)) (i : S50000.Idx) :
    0 < val_main_v16 (F := Ideal) x2 i :=
  lt_of_lt_of_le (pos_v15 i) (le_maximumf_right _ _ i)

/-- The source normalisation: the reciprocal square root of the clamped degree, or 0. -/
theorem real_v12 (x1 : (⟨S400000, .i32⟩ : BufTy).Contents (Elt Ideal)) : IsReal (val_main_v12 (F := Ideal) x1) :=
  isReal_select _ (isReal_hostRsqrt (real_v10 x1) (pos_v10 x1))
    (isReal_broadcastInDim _ _ (isReal_constant_zero _))

theorem real_v18 (x2 : (⟨S400000, .i32⟩ : BufTy).Contents (Elt Ideal)) : IsReal (val_main_v18 (F := Ideal) x2) :=
  isReal_select _ (isReal_hostRsqrt (real_v16 x2) (pos_v16 x2))
    (isReal_broadcastInDim _ _ (isReal_constant_zero _))

/-- The source-degree normalisation column. -/
theorem real_v19 (x1 : (⟨S400000, .i32⟩ : BufTy).Contents (Elt Ideal)) : IsReal (val_main_v19 (F := Ideal) x1) :=
  isReal_broadcastInDim _ _ (real_v12 x1)

/-- The destination-degree normalisation column (in-degree^(-1/2), or 0 where the in-degree is 0) is real,
    whatever the edge list. -/
theorem real_v20 (x2 : (⟨S400000, .i32⟩ : BufTy).Contents (Elt Ideal)) :
    IsReal (val_main_v20 (F := Ideal) x2) :=
  isReal_broadcastInDim _ _ (real_v18 x2)

/-! ### The first layer -/

section Layers
variable (x0 : (⟨S50000x512, .f32⟩ : BufTy).Contents (Elt Ideal))
  (x1 x2 : (⟨S400000, .i32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))

/-- The features scaled by the source normalisation. -/
theorem real_v22 (h0 : IsReal x0) : IsReal (val_main_v22 (F := Ideal) x0 x1) :=
  isReal_mulf h0 (isReal_broadcastInDim _ _ (real_v19 x1))

/-- The aggregation: rows gathered along the edges' sources, added up at their destinations. -/
theorem real_v32 (h0 : IsReal x0) : IsReal (val_main_v32 (F := Ideal) x0 x1 x2) :=
  isReal_scatterAdd _ (isReal_broadcastInDim _ _ (isReal_constant_zero _)) _
    (isReal_gather _ (real_v22 x0 x1 h0) _)

/-- The aggregate scaled by the destination normalisation. -/
theorem real_v34 (h0 : IsReal x0) : IsReal (val_main_v34 (F := Ideal) x0 x1 x2) :=
  isReal_mulf (real_v32 x0 x1 x2 h0) (isReal_broadcastInDim _ _ (real_v20 x2))

/-- Times the first weight matrix, plus the first bias. -/
theorem real_v38 (h0 : IsReal x0) (h5 : IsReal x5) (h6 : IsReal x6) :
    IsReal (val_main_v38 (F := Ideal) x0 x1 x2 x5 x6) :=
  isReal_addf (isReal_dotGeneral _ _ (real_v34 x0 x1 x2 h0) h5)
    (isReal_broadcastInDim _ _ (isReal_broadcastInDim _ _ h6))

/-- The first layer's output (the maximum with 0) scaled by the source normalisation. -/
theorem real_v41 (h0 : IsReal x0) (h5 : IsReal x5) (h6 : IsReal x6) :
    IsReal (val_main_v41 (F := Ideal) x0 x1 x2 x5 x6) :=
  isReal_mulf
    (isReal_maximumf (real_v38 x0 x1 x2 x5 x6 h0 h5 h6) (isReal_broadcastInDim _ _ (isReal_constant_zero _)))
    (isReal_broadcastInDim _ _ (real_v19 x1))

/-! ### The second layer -/

theorem real_v51 (h0 : IsReal x0) (h5 : IsReal x5) (h6 : IsReal x6) :
    IsReal (val_main_v51 (F := Ideal) x0 x1 x2 x5 x6) :=
  isReal_scatterAdd _ (isReal_broadcastInDim _ _ (isReal_constant_zero _)) _
    (isReal_gather _ (real_v41 x0 x1 x2 x5 x6 h0 h5 h6) _)

theorem real_v53 (h0 : IsReal x0) (h5 : IsReal x5) (h6 : IsReal x6) :
    IsReal (val_main_v53 (F := Ideal) x0 x1 x2 x5 x6) :=
  isReal_mulf (real_v51 x0 x1 x2 x5 x6 h0 h5 h6) (isReal_broadcastInDim _ _ (real_v20 x2))

theorem real_v57 (h0 : IsReal x0) (h5 : IsReal x5) (h6 : IsReal x6) (h7 : IsReal x7) (h8 : IsReal x8) :
    IsReal (val_main_v57 (F := Ideal) x0 x1 x2 x5 x6 x7 x8) :=
  isReal_addf (isReal_dotGeneral _ _ (real_v53 x0 x1 x2 x5 x6 h0 h5 h6) h7)
    (isReal_broadcastInDim _ _ (isReal_broadcastInDim _ _ h8))

end Layers

/-- The second layer's output scaled by the source normalisation — the array the third layer gathers — is real when
    the node features and the first two layers' weights and biases are. -/
theorem real_v60 (x0 : (⟨S50000x512, .f32⟩ : BufTy).Contents (Elt Ideal))
    (x1 x2 : (⟨S400000, .i32⟩ : BufTy).Contents (Elt Ideal))
    (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal))
    (h0 : IsReal x0) (h5 : IsReal x5) (h6 : IsReal x6) (h7 : IsReal x7) (h8 : IsReal x8) :
    IsReal (val_main_v60 (F := Ideal) x0 x1 x2 x5 x6 x7 x8) :=
  isReal_mulf
    (isReal_maximumf (real_v57 x0 x1 x2 x5 x6 x7 x8 h0 h5 h6 h7 h8)
      (isReal_broadcastInDim _ _ (isReal_constant_zero _)))
    (isReal_broadcastInDim _ _ (real_v19 x1))

end Cert.RefReal

end
-- ==== Proof.LibRowScatter.lean ====
/-
  A general lemma: StableHLO's accumulating scatter of ROWS into a table at a COLUMN of scatter indices, read at an
  index, over the extended reals.

  What jax's segment_sum(updates, idx, num_segments = N) lowers to for updates [R, C] and an integer vector idx of
  length R: a scatter with an add body into a table [N, C] whose scatter indices are the vector laid out as an [R, 1]
  column (the index vector on the last axis, of length one), the table's axis 0 inserted and scatter-indexed, its axis 1
  the updates' one window axis. Update element (e, c) lands on table element (row, c), where row is idx[e, 0] read as
  a signed integer, and is dropped when that row is outside [0, N). Over the extended reals the result at (i, c) is
  the table's element there plus the sum of the updates (e, c) over the rows e whose index is i.
-/
import Idealize.ShloMosaic.Lib.ValueIdx
import Idealize.ShloMosaic.PureOps.Ideal
import Idealize.ShloMosaic.PureOps.Contract

noncomputable section

namespace Cert.RowScatter

open Idealize.ShloMosaic Idealize.ShloMosaic.ValueIdx

/-- Those dimension numbers, for a table [N, C], scatter indices [R, 1] and updates [R, C]; the conditions wf are
    decided on a program's literal shapes. -/
abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N C R w : Nat}
  (wf : ScatterDims.WF ⟨2, ![N, C]⟩ ⟨2, ![R, 1]⟩ ⟨2, ![R, C]⟩ [1] [0] [0] 1)
  (idx : IVec ⟨2, ![R, 1]⟩ w) (e : Fin R) (c : Fin C)

/-- The table's row axis is inserted, so it is not among the kept axes … -/
theorem zero_not_mem_sKept : ¬ (0 : Fin 2) ∈ (rowDims N C R wf).sKept := by
  simp [ScatterDims.sKept, Shape.kept]

/-- … and its column axis is the one kept axis. -/
theorem one_mem_sKept : (1 : Fin 2) ∈ (rowDims N C R wf).sKept := by
  simp [ScatterDims.sKept, Shape.kept]

/-- On the ROW axis the window of update (e, c) starts at the index column's word for row e, read signed. -/
theorem start_row : (rowDims N C R wf).start (ix2 e c) idx (0 : Fin 2) = (idx (ix2 e (0 : Fin 1))).toInt := by
  unfold ScatterDims.start
  rw [dif_pos (show (0 : Fin 2) ∈ (rowDims N C R wf).scatterDimsToOperandDims from List.mem_singleton.mpr rfl)]
  have hsi : (rowDims N C R wf).siIdx (ix2 e c) ⟨List.idxOf (0 : Fin 2) (rowDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the COLUMN axis, which is not scatter-indexed, the window starts at 0. -/
theorem start_col : (rowDims N C R wf).start (ix2 e c) idx (1 : Fin 2) = 0 := by
  unfold ScatterDims.start
  rw [dif_neg (fun h => absurd (congrArg Fin.val (List.mem_singleton.mp h)) Nat.one_ne_zero)]

/-- The window coordinate on the inserted ROW axis is 0. -/
theorem window_row : (rowDims N C R wf).window (ix2 e c) (0 : Fin 2) = 0 := by
  unfold ScatterDims.window
  rw [dif_neg (zero_not_mem_sKept wf)]

/-- The window coordinate on the COLUMN axis is the update's column c. -/
theorem window_col : (rowDims N C R wf).window (ix2 e c) (1 : Fin 2) = c.val := by
  unfold ScatterDims.window
  rw [dif_pos (one_mem_sKept wf)]
  rfl

end

section
variable {N C R w : Nat}
  (wf : ScatterDims.WF ⟨2, ![N, C]⟩ ⟨2, ![R, 1]⟩ ⟨2, ![R, C]⟩ [1] [0] [0] 1)
  (idx : IVec ⟨2, ![R, 1]⟩ w)

/-- WHERE AN UPDATE LANDS: update (e, c') lands on table element (i, c) exactly when row e's scatter index, read
    signed, is i and the columns agree. Start plus window coordinate is (that index, c'); it is inside the table on the
    column axis always, and on the row axis exactly when the index is in [0, N), which i < N gives. -/
theorem resultIdx?_eq_some_iff (e : Fin R) (c' : Fin C) (i : Fin N) (c : Fin C) :
    (rowDims N C R wf).resultIdx? (ix2 e c') idx = some (ix2 i c)
      ↔ (idx (ix2 e (0 : Fin 1))).toInt = (i.val : Int) ∧ c' = c := by
  unfold ScatterDims.resultIdx?
  constructor
  · intro hEq
    split at hEq
    · rename_i h
      have hf := Option.some.inj hEq
      have h0 : ((rowDims N C R wf).start (ix2 e c') idx (0 : Fin 2)
          + ((rowDims N C R wf).window (ix2 e c') (0 : Fin 2) : Nat)).toNat = i.val :=
        congrArg (fun f : (⟨2, ![N, C]⟩ : Shape).Idx => (f (0 : Fin 2)).val) hf
      have h1 : ((rowDims N C R wf).start (ix2 e c') idx (1 : Fin 2)
          + ((rowDims N C R wf).window (ix2 e c') (1 : Fin 2) : Nat)).toNat = c.val :=
        congrArg (fun f : (⟨2, ![N, C]⟩ : Shape).Idx => (f (1 : Fin 2)).val) hf
      have hb : 0 ≤ (rowDims N C R wf).start (ix2 e c') idx (0 : Fin 2)
          + ((rowDims N C R wf).window (ix2 e c') (0 : Fin 2) : Nat) := (h (0 : Fin 2)).1
      rw [start_row, window_row] at h0 hb
      rw [start_col, window_col] at h1
      exact ⟨by omega, Fin.ext (by omega)⟩
    · exact absurd hEq (by simp)
  · rintro ⟨h0, rfl⟩
    have hall : ∀ a : Fin 2, 0 ≤ (rowDims N C R wf).start (ix2 e c') idx a + ((rowDims N C R wf).window (ix2 e c') a : Nat)
        ∧ (rowDims N C R wf).start (ix2 e c') idx a + ((rowDims N C R wf).window (ix2 e c') a : Nat)
            < ((⟨2, ![N, C]⟩ : Shape).size a : Nat) := by
      intro a
      match a with
      | ⟨0, _⟩ =>
        show 0 ≤ (rowDims N C R wf).start (ix2 e c') idx (0 : Fin 2) + ((rowDims N C R wf).window (ix2 e c') (0 : Fin 2) : Nat)
          ∧ (rowDims N C R wf).start (ix2 e c') idx (0 : Fin 2) + ((rowDims N C R wf).window (ix2 e c') (0 : Fin 2) : Nat) < (N : Int)
        rw [start_row, window_row, h0]
        have := i.isLt
        omega
      | ⟨1, _⟩ =>
        show 0 ≤ (rowDims N C R wf).start (ix2 e c') idx (1 : Fin 2) + ((rowDims N C R wf).window (ix2 e c') (1 : Fin 2) : Nat)
          ∧ (rowDims N C R wf).start (ix2 e c') idx (1 : Fin 2) + ((rowDims N C R wf).window (ix2 e c') (1 : Fin 2) : Nat) < (C : Int)
        rw [start_col, window_col]
        have := c'.isLt
        omega
    rw [dif_pos hall]
    refine congrArg some (funext fun a => Fin.ext ?_)
    match a with
    | ⟨0, _⟩ =>
      show ((rowDims N C R wf).start (ix2 e c') idx (0 : Fin 2) + ((rowDims N C R wf).window (ix2 e c') (0 : Fin 2) : Nat)).toNat = i.val
      rw [start_row, window_row, h0]
      omega
    | ⟨1, _⟩ =>
      show ((rowDims N C R wf).start (ix2 e c') idx (1 : Fin 2) + ((rowDims N C R wf).window (ix2 e c') (1 : Fin 2) : Nat)).toNat = c'.val
      rw [start_col, window_col]
      omega

end

/-- THE ACCUMULATING SCATTER READ AT (i, c), over the extended reals: the table there plus the updates (e, c) of the
    rows e whose scatter index, read signed, is i. -/
theorem scatterAdd_rows_apply {N C R w : Nat} {φ : FTy}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (i : Fin N) (c : Fin C) :
    Host.scatterAdd (rowDims N C R wf) x idx upd (ix2 i c)
      = x (ix2 i c) + ∑ e ∈ Finset.univ.filter (fun e : Fin R => (idx (ix2 e (0 : Fin 1))).toInt = (i.val : Int)),
          upd (ix2 e c) := by
  -- The scatter at (i, c) is the table there plus the sum of the updates that land there; the updates that land at
  -- (i, c) are the (e, c) with row e's index equal to i, and e ↦ (e, c) is a bijection onto them with inverse j ↦ j 0.
  unfold Host.scatterAdd
  rw [Ideal.hostScatterAdd_def]
  unfold Ideal.hostScatterAdd
  refine congrArg (x (ix2 i c) + ·) ?_
  symm
  refine Finset.sum_nbij' (fun e : Fin R => (ix2 e c : (⟨2, ![R, C]⟩ : Shape).Idx))
    (fun j : (⟨2, ![R, C]⟩ : Shape).Idx => (j (0 : Fin 2) : Fin R)) ?_ ?_ ?_ ?_ ?_
  · intro e he
    rw [Finset.mem_filter] at he ⊢
    exact ⟨Finset.mem_univ _, (resultIdx?_eq_some_iff wf idx e c i c).mpr ⟨he.2, rfl⟩⟩
  · intro j hj
    obtain ⟨a, b, rfl⟩ : ∃ a b, j = ix2 a b := ⟨j 0, j 1, eq_ix2 j⟩
    rw [Finset.mem_filter] at hj ⊢
    exact ⟨Finset.mem_univ _, ((resultIdx?_eq_some_iff wf idx a b i c).mp hj.2).1⟩
  · intro e _
    rfl
  · intro j hj
    obtain ⟨a, b, rfl⟩ : ∃ a b, j = ix2 a b := ⟨j 0, j 1, eq_ix2 j⟩
    rw [Finset.mem_filter] at hj
    rw [((resultIdx?_eq_some_iff wf idx a b i c).mp hj.2).2]
  · intro e _
    rfl

end Cert.RowScatter

end
-- ==== Proof.Layer3.lean ====
/-
  Transform-before-aggregate equals aggregate-before-transform, for real data.

  A graph-convolution layer gathers the rows H[src[e], :] of a node table H along the edges e, sums them into the
  destination rows (each node i receives the rows of the edges e with dst[e] = i), scales row i by a per-node factor
  nd[i], and multiplies by a weight matrix W. Multiplying by W FIRST — gathering and summing the rows of T = H·W — and
  scaling afterwards gives the same array: both are, at (i, j),
      nd[i] · Σ_{e : dst[e] = i} Σ_k H[src[e], k] · W[k, j],
  a finite double sum whose order and grouping may be exchanged and through which the factor nd[i] distributes. On
  the extended reals distributivity needs the terms to be REAL (it fails at infinities), which is why H, W and nd are
  assumed real.
-/
import proofs.«402956_j12043088298541_2_alg».proof.Proof.LibRowGather2
import proofs.«402956_j12043088298541_2_alg».proof.Proof.LibRowScatter
import proofs.«402956_j12043088298541_2_alg».proof.Proof.LibReal
import Mathlib.Data.EReal.Basic
import Mathlib.Algebra.BigOperators.Group.Finset.Basic
import Mathlib.Algebra.BigOperators.Group.Finset.Sigma
import Mathlib.Algebra.BigOperators.Ring.Finset
import Mathlib.Tactic.Ring

noncomputable section

namespace Cert.Layer3

open Idealize.ShloMosaic Idealize.ShloMosaic.ValueIdx Cert.RealVal

/-- A finite sum of real numbers, read in the extended reals, is the extended-real sum of the terms: the inclusion
    of the reals is additive, so this is an induction on the index set. -/
theorem coe_sum {ι : Type} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

/-- The exchange over the reals, for an edge set S, an array a e k (edge e's gathered row) and a weight column wt:
    both sides expand to Σ_k Σ_{e ∈ S} a e k · wt k · c, once the factor c is distributed over the sums and the
    two finite sums are exchanged. -/
theorem exchange_real {ε κ : Type} [Fintype κ] (S : Finset ε) (a : ε → κ → ℝ) (wt : κ → ℝ) (c : ℝ) :
    (∑ e ∈ S, ∑ k, a e k * wt k) * c = ∑ k, ((∑ e ∈ S, a e k) * c) * wt k := by
  simp only [Finset.sum_mul]
  rw [Finset.sum_comm]
  exact Finset.sum_congr rfl fun k _ => Finset.sum_congr rfl fun e _ => by ring

/-- The same exchange in the extended reals when every term is (the image of) a real number: products and finite
    sums of reals are computed in the reals, so both sides are the images of the two sides of the real exchange. -/
theorem exchange_ereal {ε κ : Type} [Fintype κ] (S : Finset ε) (a : ε → κ → ℝ) (wt : κ → ℝ) (c : ℝ) :
    (∑ e ∈ S, ∑ k, ((a e k : ℝ) : EReal) * ((wt k : ℝ) : EReal)) * ((c : ℝ) : EReal)
      = ∑ k, ((∑ e ∈ S, ((a e k : ℝ) : EReal)) * ((c : ℝ) : EReal)) * ((wt k : ℝ) : EReal) := by
  simp only [← EReal.coe_mul, coe_sum]
  exact congrArg _ (exchange_real S a wt c)

/-- The exchange at one element, for tables of N rows, an edge list of R edges, K input and J output features. -/
theorem scatter_gather_matmul_comm {N K J R w : Nat} (hN : 0 < N)
    (wfG_K : GatherDims.WF ⟨2, ![N, K]⟩ ⟨2, ![R, 1]⟩ ⟨2, ![R, K]⟩ [1] [0] [] [0] [] 1 ![1, K])
    (wfG_J : GatherDims.WF ⟨2, ![N, J]⟩ ⟨2, ![R, 1]⟩ ⟨2, ![R, J]⟩ [1] [0] [] [0] [] 1 ![1, J])
    (wfS_K : ScatterDims.WF ⟨2, ![N, K]⟩ ⟨2, ![R, 1]⟩ ⟨2, ![R, K]⟩ [1] [0] [0] 1)
    (wfS_J : ScatterDims.WF ⟨2, ![N, J]⟩ ⟨2, ![R, 1]⟩ ⟨2, ![R, J]⟩ [1] [0] [0] 1)
    (H : FVec Ideal ⟨2, ![N, K]⟩ .f32) (W : FVec Ideal ⟨2, ![K, J]⟩ .f32) (T : FVec Ideal ⟨2, ![N, J]⟩ .f32)
    (srccol dstcol : IVec ⟨2, ![R, 1]⟩ w) (nd : Fin N → EReal)
    (zK : FVec Ideal ⟨2, ![N, K]⟩ .f32) (zJ : FVec Ideal ⟨2, ![N, J]⟩ .f32)
    (hzK : ∀ i, zK i = 0) (hzJ : ∀ i, zJ i = 0)
    (hT : ∀ (i : Fin N) (j : Fin J), T (ix2 i j) = ∑ k : Fin K, H (ix2 i k) * W (ix2 k j))
    (hH : IsReal H) (hW : IsReal W) (hnd : IsReal nd) (i : Fin N) (j : Fin J) :
    Host.scatterAdd (Cert.RowScatter.rowDims N J R wfS_J) zJ dstcol
        (Host.gather (Cert.RowGather2.rowDims N J R wfG_J) T srccol) (ix2 i j) * nd i
      = ∑ k : Fin K, (Host.scatterAdd (Cert.RowScatter.rowDims N K R wfS_K) zK dstcol
          (Host.gather (Cert.RowGather2.rowDims N K R wfG_K) H srccol) (ix2 i k) * nd i) * W (ix2 k j) := by
  -- Each scatter read is the zero table plus the sum, over the edges into node i, of the gathered rows; each
  -- gathered row is the table's row at the edge's clamped source node; a row of T is the row of H times W.
  simp only [Cert.RowScatter.scatterAdd_rows_apply, Cert.RowGather2.gather_rows_apply hN, hzK, hzJ, zero_add, hT]
  -- Name the real numbers behind H, W and nd; what is left is the exchange over the reals.
  choose h hh using hH.exists_real
  choose wr hw using hW.exists_real
  choose c hc using hnd.exists_real
  simp only [hh, hw, hc]
  exact exchange_ereal _ (fun e k => h (ix2 ⟨min (srccol (ix2 e (0 : Fin 1))).toInt.toNat (N - 1), by omega⟩ k))
    (fun k => wr (ix2 k j)) (c i)

end Cert.Layer3

end
-- ==== Proof.KBack.lean ====
/-
  The idealized kernel program from its third pallas_call to its result, read against the reference's stages.

  After the third call the kernel gathers and sums the rows of T = h2·W3 (transform before aggregate), scales by the
  destination normalisation, adds the bias and takes the maximum with 0: for real data that is the reference's third
  layer (aggregate, scale, then multiply by W3), because the finite sums may be exchanged and the scale distributes.
  The selection of rows and the projection call then give the reference's projection; the clipped one-hot lookup
  gives, for non-negative cell indices, the reference's gathered embedding rows; and the last call contracts the two
  over the embedding dimension, which is the reference's product with the transposed projection.

  This module reads the buffers from the third call's exit to the projection call's exit: each host stretch at the
  buffers it writes, as its operations applied to what it reads; the third layer's pre-activation at an index, where
  the exchange of the two finite sums turns the kernel's formula into the reference's; then the selected rows and the
  projection. The remaining calls are read in the module of the tail, which takes the projection as its hypothesis.
-/
import proofs.«402956_j12043088298541_2_alg».proof.Proof.Gen.KernelIdeal.Frame
import proofs.«402956_j12043088298541_2_alg».proof.Proof.KArgs
import proofs.«402956_j12043088298541_2_alg».proof.Proof.KFront
import proofs.«402956_j12043088298541_2_alg».proof.Proof.KTail
import proofs.«402956_j12043088298541_2_alg».proof.Proof.Region3
import proofs.«402956_j12043088298541_2_alg».proof.Proof.RefRead
import proofs.«402956_j12043088298541_2_alg».proof.Proof.RefStages
import proofs.«402956_j12043088298541_2_alg».proof.Proof.RefReal
import proofs.«402956_j12043088298541_2_alg».proof.Proof.Layer3
import proofs.«402956_j12043088298541_2_alg».proof.Proof.LibRowGather2
import proofs.«402956_j12043088298541_2_alg».proof.Proof.LibRowScatter
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KBack

open Cert.KernelIdeal Cert.KernelIdeal.Gen
open Idealize.ShloMosaic Idealize.ShloMosaic.TcCoe Idealize.ShloMosaic.ValueIdx Idealize.SL.Sem Idealize.ShloMosaic.StableHlo
open Cert.RealVal
open Cert.KernelIdeal.KArgs Cert.ReferenceIdeal.PRead

/-! ## The host stretches after the third call, each read at the buffers it writes

Each is stated for an arbitrary float family and arbitrary buffer contents before the stretch: the buffer a stretch
writes is the stretch's operations applied to what it reads. -/

section Host
variable {F : FTy → Type} [FloatOps F]

/-- The third layer's aggregation stretch, at the pre-activation buffer: the rows of the transformed table gathered
    along the (normalised) sources and summed into the destinations, scaled by the destination normalisation, plus
    the bias row. -/
theorem host3_v62 (X : Valuation τ sig (Elt F)) :
    StableHlo.after hostOps3 X (Proc.devRef .tc main_v62)
      = addf (mulf (Host.scatterAdd scatter_S50000x256_S400000x1_S400000x256_1_0_0_1
                (val_main_call4_v0 (F := F)) (val_main_v69 (F := F) (X (Proc.devRef .tc main_arg2)))
                (Host.gather gather_S50000x256_S400000x1_S400000x256_1_0_n_n_0_1_1256 (X (Proc.devRef .tc main_v47)) (val_main_v66 (F := F) (X (Proc.devRef .tc main_arg1)))))
              (broadcastInDim S50000x256 ![0, 1] bcast_S50000x1_S50000x256_0_1 (X (Proc.devRef .tc main_v20))))
          (val_main_v75 (F := F) (X (Proc.devRef .tc main_arg10))) := by
  dsimp only [hostOps3]
  after_results_simp
  rfl

/-- The activation: the maximum with the zero array. -/
theorem host3_1_v63 (X : Valuation τ sig (Elt F)) :
    StableHlo.after hostOps3_1 X (Proc.devRef .tc main_v63)
      = maximumf (X (Proc.devRef .tc main_v62)) (val_main_call4_v0 (F := F)) := by
  dsimp only [hostOps3_1]
  after_results
  rfl

/-- The selection of rows: the gather of the third layer's output at the (normalised) selected nodes. -/
theorem host3_2_v70 (X : Valuation τ sig (Elt F)) :
    StableHlo.after hostOps3_2 X (Proc.devRef .tc main_v70)
      = Host.gather gather_S50000x256_S8192x1_S8192x256_1_0_n_n_0_1_1256 (X (Proc.devRef .tc main_v63))
          (val_main_v83 (F := F) (X (Proc.devRef .tc main_arg3))) := by
  dsimp only [hostOps3_2]
  after_results_simp
  rfl

/-- The projection's bias as a one-row matrix. -/
theorem host3_2_v71 (X : Valuation τ sig (Elt F)) :
    StableHlo.after hostOps3_2 X (Proc.devRef .tc main_v71)
      = fun i => shapeCast S1x128 (X (Proc.devRef .tc main_arg12)) shapeCasts_S128_S1x128 i := by
  dsimp only [hostOps3_2]
  after_results_simp
  rfl

end Host

/-! ## The run from the third call's exit to the projection -/

section Run
open Cert.RealVal Cert.KernelIdeal.KArgs

-- the launch memory and generator registers (any)
variable (m : (ℓ : Loc nD τ sig) → Buf (Elt Ideal) ℓ) (ρ : Dev nD → PrngReg)

/-- A host stretch leaves a buffer that none of its operations writes as it was. -/
local macro "carry_host " ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ### Arguments carried unchanged from the third call's exit -/

theorem W11_arg3 (c : Dev nD) : W11 m ρ c (Proc.devRef .tc main_arg3) = W9 m ρ c (Proc.devRef .tc main_arg3) :=
  calc W11 m ρ c (Proc.devRef .tc main_arg3)
    _ = W10 m ρ c (Proc.devRef .tc main_arg3) := by carry_host hostOps3_1
    _ = W9 m ρ c (Proc.devRef .tc main_arg3) := by carry_host hostOps3

theorem W11_arg12 (c : Dev nD) : W11 m ρ c (Proc.devRef .tc main_arg12) = W9 m ρ c (Proc.devRef .tc main_arg12) :=
  calc W11 m ρ c (Proc.devRef .tc main_arg12)
    _ = W10 m ρ c (Proc.devRef .tc main_arg12) := by carry_host hostOps3_1
    _ = W9 m ρ c (Proc.devRef .tc main_arg12) := by carry_host hostOps3

theorem W12_arg11 (c : Dev nD) : W12 m ρ c (Proc.devRef .tc main_arg11) = W9 m ρ c (Proc.devRef .tc main_arg11) :=
  calc W12 m ρ c (Proc.devRef .tc main_arg11)
    _ = W11 m ρ c (Proc.devRef .tc main_arg11) := by carry_host hostOps3_2
    _ = W10 m ρ c (Proc.devRef .tc main_arg11) := by carry_host hostOps3_1
    _ = W9 m ρ c (Proc.devRef .tc main_arg11) := by carry_host hostOps3

/-! ### The third layer -/

/-- A column [50000, 1] broadcast along the 256 features, read at (p, q): the column's entry of row p. -/
theorem bcast_col_apply (x : S50000x1.Idx → EReal) (p : Fin 50000) (q : Fin 256) :
    broadcastInDim S50000x256 ![0, 1] bcast_S50000x1_S50000x256_0_1 x (ix2 p q) = x (ix2 p (0 : Fin 1)) :=
  broadcastInDim_apply _ bcast_S50000x1_S50000x256_0_1 x (ix2 p q) (ix2 p (0 : Fin 1)) (fun a => match a with
    | ⟨0, _⟩ => by show p.val = if (50000 : Nat) = 1 then 0 else p.val; rw [if_neg (by decide)]
    | ⟨1, _⟩ => by show (0 : Nat) = if (1 : Nat) = 1 then 0 else q.val; rw [if_pos rfl])

/-- The kernel's third layer at (p, q), before the exchange: the gathered and summed rows of the transformed table,
    scaled by the destination normalisation, plus the bias, maximum with 0. -/
theorem v63_kernel (c : Dev nD) (p : Fin 50000) (q : Fin 256) :
    (W11 m ρ c (Proc.devRef .tc main_v63) : S50000x256.Idx → EReal) (ix2 p q)
      = max ((Host.scatterAdd (F := Ideal) (φ := .f32) (Cert.RowScatter.rowDims 50000 256 400000 scatter_S50000x256_S400000x1_S400000x256_1_0_0_1_wf)
                (val_main_call4_v0 (F := Ideal)) (val_main_v69 (F := Ideal) (a2 m c))
                (Host.gather (Cert.RowGather2.rowDims 50000 256 400000 gather_S50000x256_S400000x1_S400000x256_1_0_n_n_0_1_1256_wf)
                  (W9 m ρ c (Proc.devRef .tc main_v47) : S50000x256.Idx → EReal) (val_main_v66 (F := Ideal) (a1 m c)))
                : (⟨S50000x256, .f32⟩ : BufTy).Contents (Elt Ideal)) (ix2 p q)
              * val_main_v20 (F := Ideal) (a2 m c) (ix2 p (0 : Fin 1)) + a10 m c (ix1 q)) 0 := by
  have e63 : W11 m ρ c (Proc.devRef .tc main_v63) = _ := host3_1_v63 (W10 m ρ c)
  have e62 : W10 m ρ c (Proc.devRef .tc main_v62) = _ := host3_v62 (W9 m ρ c)
  rw [e63, e62, Cert.KernelIdeal.KFront.W9_arg1, Cert.KernelIdeal.KFront.W9_arg2, Cert.KernelIdeal.KFront.W9_arg10, Cert.KernelIdeal.KFront.W9_v20]
  rw [maximumf_apply, addf_apply, mulf_apply, bcast_col_apply, val_main_v75_apply, val_main_v74_apply, Cert.RefStages.idx74_75,
    val_main_call4_v0_apply, val_main_call4_cst_apply, Ideal.ofBits_def, Ideal.ofBits_zero_f32]
  rfl

/-- The zero tables the two accumulating scatters start from. -/
theorem v68_zero (i : S50000x512.Idx) : val_main_v68 (F := Ideal) i = 0 := by
  rw [val_main_v68_apply, val_main_cst_15_apply, Ideal.ofBits_def, Ideal.ofBits_zero_f32]
theorem call4_v0_zero (i : S50000x256.Idx) : val_main_call4_v0 (F := Ideal) i = 0 := by
  rw [val_main_call4_v0_apply, val_main_call4_cst_apply, Ideal.ofBits_def, Ideal.ofBits_zero_f32]

/-- The reference's third aggregation is the accumulating scatter of the gathered rows of the second layer's output. -/
theorem v70_eq (x0 : (⟨S50000x512, .f32⟩ : BufTy).Contents (Elt Ideal)) (x1 x2 : (⟨S400000, .i32⟩ : BufTy).Contents (Elt Ideal))
    (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal)) :
    val_main_v70 (F := Ideal) x0 x1 x2 x5 x6 x7 x8
      = Host.scatterAdd (F := Ideal) (φ := .f32) (Cert.RowScatter.rowDims 50000 512 400000 scatter_S50000x512_S400000x1_S400000x512_1_0_0_1_wf)
          (val_main_v68 (F := Ideal)) (val_main_v69 (F := Ideal) x2)
          (Host.gather (Cert.RowGather2.rowDims 50000 512 400000 gather_S50000x512_S400000x1_S400000x512_1_0_n_n_0_1_1512_wf)
            (val_main_v60 (F := Ideal) x0 x1 x2 x5 x6 x7 x8) (val_main_v66 (F := Ideal) x1)) := rfl

/-- THE THIRD LAYER: the kernel's transform-before-aggregate is the reference's aggregate-before-transform, at (p, q). -/
theorem v63_apply (c : Dev nD)
    (h0 : IsReal (a0 m c)) (h5 : IsReal (a5 m c)) (h6 : IsReal (a6 m c)) (h7 : IsReal (a7 m c)) (h8 : IsReal (a8 m c))
    (h9 : IsReal (a9 m c)) (p : Fin 50000) (q : Fin 256) :
    (W11 m ρ c (Proc.devRef .tc main_v63) : S50000x256.Idx → EReal) (ix2 p q)
      = val_main_v77 (F := Ideal) (a0 m c) (a1 m c) (a2 m c) (a5 m c) (a6 m c) (a7 m c) (a8 m c) (a9 m c) (a10 m c) (ix2 p q) := by
  rw [v63_kernel, Cert.RefStages.v77_apply, v70_eq]
  refine congrArg (fun z => max (z + a10 m c (ix1 q)) 0) ?_
  exact Cert.Layer3.scatter_gather_matmul_comm (N := 50000) (K := 512) (J := 256) (R := 400000) (by decide)
    gather_S50000x512_S400000x1_S400000x512_1_0_n_n_0_1_1512_wf gather_S50000x256_S400000x1_S400000x256_1_0_n_n_0_1_1256_wf
    scatter_S50000x512_S400000x1_S400000x512_1_0_0_1_wf scatter_S50000x256_S400000x1_S400000x256_1_0_0_1_wf
    (val_main_v60 (F := Ideal) (a0 m c) (a1 m c) (a2 m c) (a5 m c) (a6 m c) (a7 m c) (a8 m c)) (a9 m c)
    (W9 m ρ c (Proc.devRef .tc main_v47)) (val_main_v66 (F := Ideal) (a1 m c)) (val_main_v69 (F := Ideal) (a2 m c))
    (fun i => val_main_v20 (F := Ideal) (a2 m c) (ix2 i (0 : Fin 1))) (val_main_v68 (F := Ideal)) (val_main_call4_v0 (F := Ideal))
    v68_zero call4_v0_zero (Cert.KernelIdeal.KFront.v47_apply m ρ c)
    (Cert.RefReal.real_v60 (a0 m c) (a1 m c) (a2 m c) (a5 m c) (a6 m c) (a7 m c) (a8 m c) h0 h5 h6 h7 h8) h9
    (fun i => Cert.RefReal.real_v20 (a2 m c) (ix2 i (0 : Fin 1))) p q

/-- The third layer's output array is the reference's. -/
theorem W11_v63 (c : Dev nD)
    (h0 : IsReal (a0 m c)) (h5 : IsReal (a5 m c)) (h6 : IsReal (a6 m c)) (h7 : IsReal (a7 m c)) (h8 : IsReal (a8 m c))
    (h9 : IsReal (a9 m c)) :
    (W11 m ρ c (Proc.devRef .tc main_v63) : S50000x256.Idx → EReal)
      = val_main_v77 (F := Ideal) (a0 m c) (a1 m c) (a2 m c) (a5 m c) (a6 m c) (a7 m c) (a8 m c) (a9 m c) (a10 m c) := by
  funext j
  obtain ⟨p, q, rfl⟩ : ∃ (p : Fin 50000) (q : Fin 256), j = ix2 p q := ⟨j 0, j 1, eq_ix2 j⟩
  exact v63_apply m ρ c h0 h5 h6 h7 h8 h9 p q

/-! ### The selection of rows and the projection -/

/-- The selected rows are the reference's. -/
theorem W12_v70 (c : Dev nD)
    (h0 : IsReal (a0 m c)) (h5 : IsReal (a5 m c)) (h6 : IsReal (a6 m c)) (h7 : IsReal (a7 m c)) (h8 : IsReal (a8 m c))
    (h9 : IsReal (a9 m c)) :
    (W12 m ρ c (Proc.devRef .tc main_v70) : S8192x256.Idx → EReal)
      = val_main_v84 (F := Ideal) (a0 m c) (a1 m c) (a2 m c) (a3 m c) (a5 m c) (a6 m c) (a7 m c) (a8 m c) (a9 m c) (a10 m c) := by
  have e : W12 m ρ c (Proc.devRef .tc main_v70) = _ := host3_2_v70 (W11 m ρ c)
  rw [e, W11_v63 m ρ c h0 h5 h6 h7 h8 h9, W11_arg3, Cert.KernelIdeal.KFront.W9_arg3]
  rfl

/-- The projection's bias row, at (0, q). -/
theorem W12_v71 (c : Dev nD) (q : Fin 128) :
    (W12 m ρ c (Proc.devRef .tc main_v71) : S1x128.Idx → EReal) (ix2 (0 : Fin 1) q) = a12 m c (ix1 q) := by
  have e : W12 m ρ c (Proc.devRef .tc main_v71) = _ := host3_2_v71 (W11 m ρ c)
  rw [e, W11_arg12, Cert.KernelIdeal.KFront.W9_arg12]
  exact shapeCast_a_1a_apply _ _ 0 q

/-- THE PROJECTION: the fourth call's output is the reference's projection, at (s, d). -/
theorem v72_apply (c : Dev nD)
    (h0 : IsReal (a0 m c)) (h5 : IsReal (a5 m c)) (h6 : IsReal (a6 m c)) (h7 : IsReal (a7 m c)) (h8 : IsReal (a8 m c))
    (h9 : IsReal (a9 m c)) (s : Fin 8192) (d : Fin 128) :
    (W13 m ρ c (Proc.devRef .tc main_v72) : S8192x128.Idx → EReal) (ix2 s d)
      = val_main_v88 (F := Ideal) (a0 m c) (a1 m c) (a2 m c) (a3 m c) (a5 m c) (a6 m c) (a7 m c) (a8 m c) (a9 m c) (a10 m c) (a11 m c) (a12 m c) (ix2 s d) := by
  have e : W13 m ρ c (Proc.devRef .tc main_v72) = (dat3 (V12 m ρ) c).arrAt 3 cfg3.N := W13_arr m ρ c 3
  rw [e, Cert.KernelIdeal.Region3.out_apply (V12 m ρ) c s d, Cert.RefStages.v88_apply]
  dsimp only [V12, Cert.KernelIdeal.Region3.arr]
  rw [W12_v70 m ρ c h0 h5 h6 h7 h8 h9, W12_arg11, Cert.KernelIdeal.KFront.W9_arg11, W12_v71]

/-- The fourth call's output array is the reference's projection. -/
theorem v72_eq (c : Dev nD)
    (h0 : IsReal (a0 m c)) (h5 : IsReal (a5 m c)) (h6 : IsReal (a6 m c)) (h7 : IsReal (a7 m c)) (h8 : IsReal (a8 m c))
    (h9 : IsReal (a9 m c)) :
    (W13 m ρ c (Proc.devRef .tc main_v72) : S8192x128.Idx → EReal)
      = val_main_v88 (F := Ideal) (a0 m c) (a1 m c) (a2 m c) (a3 m c) (a5 m c) (a6 m c) (a7 m c) (a8 m c) (a9 m c) (a10 m c) (a11 m c) (a12 m c) := by
  funext j
  obtain ⟨s, d, rfl⟩ : ∃ (s : Fin 8192) (d : Fin 128), j = ix2 s d := ⟨j 0, j 1, eq_ix2 j⟩
  exact v72_apply m ρ c h0 h5 h6 h7 h8 h9 s d

/-- THE RESULT BUFFER at the last boundary is the reference's result term of the launched arguments, when the node
    features, the three layers' weights and the first two biases are real and the cell indices non-negative. -/
theorem result (c : Dev nD)
    (h0 : IsReal (a0 m c)) (h5 : IsReal (a5 m c)) (h6 : IsReal (a6 m c)) (h7 : IsReal (a7 m c)) (h8 : IsReal (a8 m c))
    (h9 : IsReal (a9 m c)) (h4 : ∀ r : Fin 1024, 0 ≤ (a4 m c (ix1 r)).toInt) :
    (W18 m ρ c (Proc.devRef .tc main_v76) : S1024x8192.Idx → EReal)
      = val_main_v97 (F := Ideal) (a0 m c) (a1 m c) (a2 m c) (a3 m c) (a4 m c) (a5 m c) (a6 m c) (a7 m c) (a8 m c) (a9 m c) (a10 m c) (a11 m c) (a12 m c) (a13 m c) :=
  Cert.KernelIdeal.KTail.result_of_v72 m ρ c h4 (v72_eq m ρ c h0 h5 h6 h7 h8 h9)

end Run

end Cert.KernelIdeal.KBack

end
-- ==== Proof.PreFacts.lean ====
/-
  What the precondition says of the inputs that the proof uses.

  The precondition is one conjunction, over all inputs, of "every element of this float array has absolute value
  below +∞" (the array holds real numbers) and "every cell index is at least 0". Read back conjunct by conjunct
  it gives: the node features, the first two layers' weights and biases and the third layer's weights are real
  arrays, and every cell index, read as a signed integer, is non-negative. (The remaining conjuncts are not used.)
-/
import proofs.«402956_j12043088298541_2_alg».proof.Pre_finite_inputs
import proofs.«402956_j12043088298541_2_alg».proof.Proof.Gen.Pre_finite_inputs
import proofs.«402956_j12043088298541_2_alg».proof.Proof.LibReal
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Cert.Pre_finite_inputs Idealize.ShloMosaic Idealize.ShloMosaic.ValueIdx Cert.RealVal

/-- The scalar shape has one index. -/
instance subsingleton_S_ : Subsingleton S_.Idx := ⟨fun a b => funext fun d => d.elim0⟩

/-- The word 0x7F800000 denotes +∞. -/
theorem ofBits_inf : Ideal.ofBits .f32 0x7F800000#32 = (⊤ : EReal) := by simp [Ideal.ofBits, Ideal.ieee]

/-- An extended real whose absolute value is below +∞ is neither infinity. -/
theorem real_of_abs_lt_top (x : EReal) (h : Ideal.cmp .olt (max x (-x)) (Ideal.ofBits .f32 0x7F800000#32) = 1#1) :
    x ≠ ⊤ ∧ x ≠ ⊥ := by
  rw [ofBits_inf] at h
  unfold Ideal.cmp at h
  rw [StableHlo.Predicate.ofBool_eq_one_iff, decide_eq_true_eq, max_lt_iff] at h
  refine ⟨fun e => ?_, fun e => ?_⟩
  · subst e; exact absurd h.1 (lt_irrefl _)
  · subst e; exact absurd h.2 (by simp)

/-- One "all entries finite" conjunct of the precondition, read back: the array is real. -/
theorem isReal_of_all {s : Shape} {axes : List (Fin s.rank)} (hb : S_.BroadcastsInDim s (![] : Fin 0 → Fin s.rank))
    (hr : s.ReducesTo axes S_) (hu : 0 < S_.numel) (x : FVec Ideal s .f32)
    (e : Host.reduce IntOp.andi
        (cmpf .olt (Host.absf x) (broadcastInDim s ![] hb (constant (F := Ideal) S_ .f32 0x7F800000#32)))
        (constantI S_ 1 1#1) hr hu ix0 = 1#1) : IsReal x := by
  intro i
  have hi := Host.reduce_andi_all _ _ hr hu ix0 e i
  exact real_of_abs_lt_top (x i) hi

/-- The "all cell indices at least 0" conjunct, read back at one entry. -/
theorem nonneg_of_all {s : Shape} {axes : List (Fin s.rank)} (hb : S_.BroadcastsInDim s (![] : Fin 0 → Fin s.rank))
    (hr : s.ReducesTo axes S_) (hu : 0 < S_.numel) (x : IVec s 32)
    (e : Host.reduce IntOp.andi
        (cmpi .sge x (broadcastInDim s ![] hb (constantI S_ 32 0#32)))
        (constantI S_ 1 1#1) hr hu ix0 = 1#1) (i : s.Idx) : 0 ≤ (x i).toInt := by
  have hi := Host.reduce_andi_all _ _ hr hu ix0 e i
  have h2 : IntOp.cmpi .sge (x i) 0#32 = 1#1 := hi
  unfold IntOp.cmpi at h2
  rw [StableHlo.Predicate.ofBool_eq_one_iff] at h2
  simpa [BitVec.sle] using h2

/-- From the precondition's value being true: the arrays the algebra needs are real, the cell indices non-negative. -/
theorem of_pre (a0 : FVec Ideal S50000x512 .f32) (a1 a2 : IVec S400000 32) (a3 : IVec S8192 32) (a4 : IVec S1024 32)
    (a5 : FVec Ideal S512x512 .f32) (a6 : FVec Ideal S512 .f32) (a7 : FVec Ideal S512x512 .f32) (a8 : FVec Ideal S512 .f32)
    (a9 : FVec Ideal S512x256 .f32) (a10 : FVec Ideal S256 .f32) (a11 : FVec Ideal S256x128 .f32) (a12 : FVec Ideal S128 .f32)
    (a13 : FVec Ideal S1000x128 .f32)
    (h : Cert.Pre_finite_inputs.fn (F := Ideal) a0 a1 a2 a3 a4 a5 a6 a7 a8 a9 a10 a11 a12 a13 = fun _ => 1#1) :
    IsReal a0 ∧ IsReal a5 ∧ IsReal a6 ∧ IsReal a7 ∧ IsReal a8 ∧ IsReal a9
      ∧ ∀ r : Fin 1024, 0 ≤ (a4 (ix1 r)).toInt := by
  have h0 := congrFun h ix0
  dsimp only [fn, fn_part1, fn_part2, fn_part3] at h0
  -- the conjunction is nested to the left: peel the conjuncts off from the last one
  obtain ⟨h12, e4⟩ := IntOp.andi_eq_one.1 h0
  obtain ⟨h11, e13⟩ := IntOp.andi_eq_one.1 h12
  obtain ⟨h10, e12⟩ := IntOp.andi_eq_one.1 h11
  obtain ⟨h9, e11⟩ := IntOp.andi_eq_one.1 h10
  obtain ⟨h8, e10⟩ := IntOp.andi_eq_one.1 h9
  obtain ⟨h7, e9⟩ := IntOp.andi_eq_one.1 h8
  obtain ⟨h6, e8⟩ := IntOp.andi_eq_one.1 h7
  obtain ⟨h5, e7⟩ := IntOp.andi_eq_one.1 h6
  obtain ⟨h4, e6⟩ := IntOp.andi_eq_one.1 h5
  obtain ⟨e0, e5⟩ := IntOp.andi_eq_one.1 h4
  exact ⟨isReal_of_all _ _ _ a0 e0, isReal_of_all _ _ _ a5 e5, isReal_of_all _ _ _ a6 e6, isReal_of_all _ _ _ a7 e7,
    isReal_of_all _ _ _ a8 e8, isReal_of_all _ _ _ a9 e9, fun r => nonneg_of_all _ _ _ a4 e4 (ix1 r)⟩

end Cert.PreFacts

end
-- ==== Proof.lean ====
/-
  The certificate of the Cell2Vec forward pass: three graph-convolution layers over a graph given as an edge list, a
  selection of node rows and a projection, an embedding lookup, and the product of the two.

  THE CLAIM'S MATHEMATICS. With ns, nd the source- and destination-degree normalisations and agg(X) the sum, into each
  node, of the rows X[src[e], :] over the edges e arriving at it, the reference computes
      h1 = relu((agg(x·ns)·nd)·W1 + b1),  h2 = relu((agg(h1·ns)·nd)·W2 + b2),  h3 = relu((agg(h2·ns)·nd)·W3 + b3),
      out = emb[c_indices] · (h3[x_indices]·Wp + bp)ᵀ.
  The kernel computes the first two layers in one call each (scaling by nd before and by ns after the matrix product,
  so its arrays are h1·ns and h2·ns: the arrays the reference gathers), multiplies by W3 BEFORE aggregating in the third
  layer, and looks the embedding rows up by a one-hot matrix product after clipping the cell indices into [0, 999].
  Over the extended reals the two agree when the inputs are real (then the third layer's sums may be exchanged and the
  normalisation distributes over them: Layer3) and the cell indices are non-negative (a negative index is wrapped by
  the reference's indexing and clipped to row 0 by the kernel; the added precondition says indices are ≥ 0).

  THE PARTS. The three frames: the two kernel programs' are generated; the reference's is its run with the result
  dropped. The idealization rewrote nothing, so `preserves` is trivial. For `algebraic`: the kernel's run with its
  result buffer named (KRun), that buffer's contents as the reference's result term of the launched arguments
  (KFront, KBack over the regions' values Region0 … Region5, the reference's stages RefStages, RefEmb, the realness
  facts RefReal and the precondition read back, PreFacts), and the reference's run (RefRun, RefRead) at arguments that
  agree.
-/
import proofs.«402956_j12043088298541_2_alg».proof.Defs
import proofs.«402956_j12043088298541_2_alg».proof.Proof.Gen.Kernel
import proofs.«402956_j12043088298541_2_alg».proof.Proof.Gen.Kernel.Frame
import proofs.«402956_j12043088298541_2_alg».proof.Proof.Gen.KernelIdeal
import proofs.«402956_j12043088298541_2_alg».proof.Proof.Gen.KernelIdeal.Frame
import proofs.«402956_j12043088298541_2_alg».proof.Proof.Gen.ReferenceIdeal
import proofs.«402956_j12043088298541_2_alg».proof.Proof.Gen.Pre_finite_inputs
import proofs.«402956_j12043088298541_2_alg».proof.Proof.KRun
import proofs.«402956_j12043088298541_2_alg».proof.Proof.RefRun
import proofs.«402956_j12043088298541_2_alg».proof.Proof.RefRead
import proofs.«402956_j12043088298541_2_alg».proof.Proof.KArgs
import proofs.«402956_j12043088298541_2_alg».proof.Proof.KBack
import proofs.«402956_j12043088298541_2_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- Both programs end with the reference's result term of the kernel's launched arguments: the kernel by the chain
    of its regions and host stretches under the precondition's facts, the reference by its run at agreeing
    arguments. -/
theorem algebraic : Cert.algebraic_KernelIdeal_ReferenceIdeal := by
  intro m ρ m' ρ' hpre hagree
  refine ⟨fun c => Cert.ReferenceIdeal.PRead.val_main_v97 (F := Ideal) (Cert.KernelIdeal.KArgs.a0 m c) (Cert.KernelIdeal.KArgs.a1 m c) (Cert.KernelIdeal.KArgs.a2 m c) (Cert.KernelIdeal.KArgs.a3 m c) (Cert.KernelIdeal.KArgs.a4 m c) (Cert.KernelIdeal.KArgs.a5 m c) (Cert.KernelIdeal.KArgs.a6 m c) (Cert.KernelIdeal.KArgs.a7 m c) (Cert.KernelIdeal.KArgs.a8 m c) (Cert.KernelIdeal.KArgs.a9 m c) (Cert.KernelIdeal.KArgs.a10 m c) (Cert.KernelIdeal.KArgs.a11 m c) (Cert.KernelIdeal.KArgs.a12 m c) (Cert.KernelIdeal.KArgs.a13 m c), ?_, ?_⟩
  · refine (θ_run Cert.KernelIdeal.defs _ _).mono (fun r h c => ⟨(h c).1.trans ?_, (h c).2⟩)
      (Cert.KernelIdeal.Run.run (F := Ideal) m ρ)
    obtain ⟨h0, h5, h6, h7, h8, h9, h4⟩ := Cert.PreFacts.of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (hpre c)
    exact Cert.KernelIdeal.KBack.result m ρ c h0 h5 h6 h7 h8 h9 h4
  · refine (θ_run Cert.ReferenceIdeal.defs _ _).mono (fun r h c => ⟨(h c).1.trans ?_, (h c).2⟩)
      (Cert.ReferenceIdeal.PValue.run (F := Ideal) m' ρ')
    obtain ⟨e0, e1, e2, e3, e4, e5, e6, e7, e8, e9, e10, e11, e12, e13⟩ := hagree c
    rw [Cert.ReferenceIdeal.PRead.val_main_v97_eq, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
